-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v20)) (v1 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_v55) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x256 : Shape := ⟨2, ![20000, 256]⟩
abbrev S320000x256 : Shape := ⟨2, ![320000, 256]⟩
abbrev S2x320000 : Shape := ⟨2, ![2, 320000]⟩
abbrev S256x256 : Shape := ⟨2, ![256, 256]⟩
abbrev S256 : Shape := ⟨1, ![256]⟩
abbrev S512x256 : Shape := ⟨2, ![512, 256]⟩
abbrev S_ : Shape := ⟨0, ![]⟩

class Facts : Prop where
  bcast_S_S20000x256 : S_.BroadcastsInDim S20000x256 (![] : Fin 0 → Fin S20000x256.rank)
  reducesTo_S20000x256_S_d0_1 : S20000x256.ReducesTo [0, 1] S_
  h_S_ : 0 < S_.numel
  bcast_S_S320000x256 : S_.BroadcastsInDim S320000x256 (![] : Fin 0 → Fin S320000x256.rank)
  reducesTo_S320000x256_S_d0_1 : S320000x256.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S512x256 : S_.BroadcastsInDim S512x256 (![] : Fin 0 → Fin S512x256.rank)
  reducesTo_S512x256_S_d0_1 : S512x256.ReducesTo [0, 1] S_
  bcast_S_S2x320000 : S_.BroadcastsInDim S2x320000 (![] : Fin 0 → Fin S2x320000.rank)
  reducesTo_S2x320000_S_d0_1 : S2x320000.ReducesTo [0, 1] S_

variable [Facts]

def fn_part5 {F : FTy → Type} [FloatOps F] (main_v78 : IVec S_ 1) (main_v84 : IVec S_ 1) : IVec S_ 1 :=
  let main_v85 : IVec S_ 1 := andi main_v78 main_v84
  main_v85

def fn_part4 {F : FTy → Type} [FloatOps F] (main_arg2 : IVec S2x320000 32) (main_arg15 : FVec F S256 .f32) (main_arg16 : FVec F S256 .f32) (main_v63 : IVec S_ 1) (main_v67 : IVec S_ 1) : IVec S_ 1 :=
  let main_v68 : IVec S_ 1 := andi main_v63 main_v67
  let main_v69 : FVec F S256 .f32 := Host.absf main_arg15
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S256 .f32 := Host.absf main_arg16
  let main_cst_28 : FVec F S_ .f32 := constant S_ .f32 0x7F800000#32
  let main_v75 : FVec F S256 .f32 := broadcastInDim S256 ![] bcast_S_S256 main_cst_28
  let main_v76 : IVec S256 1 := cmpf .olt main_v74 main_v75
  let main_c_29 : IVec S_ 1 := constantI S_ 1 1#1
  let main_v77 : IVec S_ 1 := (fun x v => Host.reduce IntOp.andi x v reducesTo_S256_S_d0 h_S_) main_v76 main_c_29
  let main_v78 : IVec S_ 1 := andi main_v73 main_v77
  let main_c_30 : IVec S_ 32 := constantI S_ 32 0#32
  let main_v79 : IVec S2x320000 32 := broadcastInDim S2x320000 ![] bcast_S_S2x320000 main_c_30
  let main_v80 : IVec S2x320000 1 := cmpi .sge main_arg2 main_v79
  let main_c_31 : IVec S_ 32 := constantI S_ 32 20000#32
  let main_v81 : IVec S2x320000 32 := broadcastInDim S2x320000 ![] bcast_S_S2x320000 main_c_31
  let main_v82 : IVec S2x320000 1 := cmpi .slt main_arg2 main_v81
  let main_v83 : IVec S2x320000 1 := andi main_v80 main_v82
  let main_c_32 : IVec S_ 1 := constantI S_ 1 1#1
  let main_v84 : IVec S_ 1 := (fun x v => Host.reduce IntOp.andi x v reducesTo_S2x320000_S_d0_1 h_S_) main_v83 main_c_32
  fn_part5 (F := F) main_v78 main_v84

def fn_part3 {F : FTy → Type} [FloatOps F] (main_arg2 : IVec S2x320000 32) (main_arg12 : FVec F S256 .f32) (main_arg13 : FVec F S256 .f32) (main_arg14 : FVec F S256 .f32) (main_arg15 : FVec F S256 .f32) (main_arg16 : FVec F S256 .f32) (main_v48 : IVec S_ 1) (main_v49 : FVec F S256x256 .f32) (main_v50 : FVec F S256x256 .f32) : IVec S_ 1 :=
  let main_v51 : IVec S256x256 1 := cmpf .olt main_v49 main_v50
  let main_c_19 : IVec S_ 1 := constantI S_ 1 1#1
  let main_v52 : IVec S_ 1 := (fun x v => Host.reduce IntOp.andi x v reducesTo_S256x256_S_d0_1 h_S_) main_v51 main_c_19
  let main_v53 : IVec S_ 1 := andi main_v48 main_v52
  let main_v54 : FVec F S256 .f32 := Host.absf main_arg12
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256 .f32 := Host.absf main_arg13
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256 .f32 := Host.absf main_arg14
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg2 main_arg15 main_arg16 main_v63 main_v67

def fn_part2 {F : FTy → Type} [FloatOps F] (main_arg2 : IVec S2x320000 32) (main_arg8 : FVec F S256 .f32) (main_arg9 : FVec F S512x256 .f32) (main_arg10 : FVec F S256 .f32) (main_arg11 : FVec F S256x256 .f32) (main_arg12 : FVec F S256 .f32) (main_arg13 : FVec F S256 .f32) (main_arg14 : FVec F S256 .f32) (main_arg15 : FVec F S256 .f32) (main_arg16 : FVec F S256 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S512x256 .f32 := Host.absf main_arg9
  let main_cst_14 : FVec F S_ .f32 := constant S_ .f32 0x7F800000#32
  let main_v40 : FVec F S512x256 .f32 := broadcastInDim S512x256 ![] bcast_S_S512x256 main_cst_14
  let main_v41 : IVec S512x256 1 := cmpf .olt main_v39 main_v40
  let main_c_15 : IVec S_ 1 := constantI S_ 1 1#1
  let main_v42 : IVec S_ 1 := (fun x v => Host.reduce IntOp.andi x v reducesTo_S512x256_S_d0_1 h_S_) main_v41 main_c_15
  let main_v43 : IVec S_ 1 := andi main_v38 main_v42
  let main_v44 : FVec F S256 .f32 := Host.absf main_arg10
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x256 .f32 := Host.absf main_arg11
  let main_cst_18 : FVec F S_ .f32 := constant S_ .f32 0x7F800000#32
  let main_v50 : FVec F S256x256 .f32 := broadcastInDim S256x256 ![] bcast_S_S256x256 main_cst_18
  fn_part3 (F := F) main_arg2 main_arg12 main_arg13 main_arg14 main_arg15 main_arg16 main_v48 main_v49 main_v50

def fn_part1 {F : FTy → Type} [FloatOps F] (main_arg2 : IVec S2x320000 32) (main_arg5 : FVec F S256x256 .f32) (main_arg6 : FVec F S256x256 .f32) (main_arg7 : FVec F S256x256 .f32) (main_arg8 : FVec F S256 .f32) (main_arg9 : FVec F S512x256 .f32) (main_arg10 : FVec F S256 .f32) (main_arg11 : FVec F S256x256 .f32) (main_arg12 : FVec F S256 .f32) (main_arg13 : FVec F S256 .f32) (main_arg14 : FVec F S256 .f32) (main_arg15 : FVec F S256 .f32) (main_arg16 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg5
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256x256 .f32 := Host.absf main_arg6
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256x256 .f32 := Host.absf main_arg7
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg2 main_arg8 main_arg9 main_arg10 main_arg11 main_arg12 main_arg13 main_arg14 main_arg15 main_arg16 main_v33

def fn {F : FTy → Type} [FloatOps F] (main_arg0 : FVec F S20000x256 .f32) (main_arg1 : FVec F S320000x256 .f32) (main_arg2 : IVec S2x320000 32) (main_arg3 : FVec F S256x256 .f32) (main_arg4 : FVec F S256 .f32) (main_arg5 : FVec F S256x256 .f32) (main_arg6 : FVec F S256x256 .f32) (main_arg7 : FVec F S256x256 .f32) (main_arg8 : FVec F S256 .f32) (main_arg9 : FVec F S512x256 .f32) (main_arg10 : FVec F S256 .f32) (main_arg11 : FVec F S256x256 .f32) (main_arg12 : FVec F S256 .f32) (main_arg13 : FVec F S256 .f32) (main_arg14 : FVec F S256 .f32) (main_arg15 : FVec F S256 .f32) (main_arg16 : FVec F S256 .f32) : IVec S_ 1 :=
  let main_v0 : FVec F S20000x256 .f32 := Host.absf main_arg0
  let main_cst : FVec F S_ .f32 := constant S_ .f32 0x7F800000#32
  let main_v1 : FVec F S20000x256 .f32 := broadcastInDim S20000x256 ![] bcast_S_S20000x256 main_cst
  let main_v2 : IVec S20000x256 1 := cmpf .olt main_v0 main_v1
  let main_c : IVec S_ 1 := constantI S_ 1 1#1
  let main_v3 : IVec S_ 1 := (fun x v => Host.reduce IntOp.andi x v reducesTo_S20000x256_S_d0_1 h_S_) main_v2 main_c
  let main_v4 : FVec F S320000x256 .f32 := Host.absf main_arg1
  let main_cst_0 : FVec F S_ .f32 := constant S_ .f32 0x7F800000#32
  let main_v5 : FVec F S320000x256 .f32 := broadcastInDim S320000x256 ![] bcast_S_S320000x256 main_cst_0
  let main_v6 : IVec S320000x256 1 := cmpf .olt main_v4 main_v5
  let main_c_1 : IVec S_ 1 := constantI S_ 1 1#1
  let main_v7 : IVec S_ 1 := (fun x v => Host.reduce IntOp.andi x v reducesTo_S320000x256_S_d0_1 h_S_) main_v6 main_c_1
  let main_v8 : IVec S_ 1 := andi main_v3 main_v7
  let main_v9 : FVec F S256x256 .f32 := Host.absf main_arg3
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg2 main_arg5 main_arg6 main_arg7 main_arg8 main_arg9 main_arg10 main_arg11 main_arg12 main_arg13 main_arg14 main_arg15 main_arg16 main_v13 main_v16
-- ==== Kernel.lean ====
abbrev S20000x256 : Shape := ⟨2, ![20000, 256]⟩
abbrev S320000x256 : Shape := ⟨2, ![320000, 256]⟩
abbrev S2x320000 : Shape := ⟨2, ![2, 320000]⟩
abbrev S256x256 : Shape := ⟨2, ![256, 256]⟩
abbrev S256 : Shape := ⟨1, ![256]⟩
abbrev S512x256 : Shape := ⟨2, ![512, 256]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S1 : Shape := ⟨1, ![1]⟩
abbrev S1x1 : Shape := ⟨2, ![1, 1]⟩
abbrev S1x256 : Shape := ⟨2, ![1, 256]⟩
abbrev S1280x256 : Shape := ⟨2, ![1280, 256]⟩
abbrev S1280 : Shape := ⟨1, ![1280]⟩
abbrev S1280x1 : Shape := ⟨2, ![1280, 1]⟩
abbrev S1000x256 : Shape := ⟨2, ![1000, 256]⟩
abbrev S1000 : Shape := ⟨1, ![1000]⟩
abbrev S1000x1 : Shape := ⟨2, ![1000, 1]⟩

abbrev nBuf : Space → Nat
  | .hbm => 83
  | .vmem => 29
  | .smem => 0
  | _ => 0

abbrev bufTy : (tb : Table) → Fin (tcTables nBuf tb) → BufTy
  | .hbm, ⟨0, _⟩ => ⟨S20000x256, .f32⟩
  | .hbm, ⟨1, _⟩ => ⟨S320000x256, .f32⟩
  | .hbm, ⟨2, _⟩ => ⟨S2x320000, .i32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256x256, .f32⟩
  | .hbm, ⟨7, _⟩ => ⟨S256x256, .f32⟩
  | .hbm, ⟨8, _⟩ => ⟨S256, .f32⟩
  | .hbm, ⟨9, _⟩ => ⟨S512x256, .f32⟩
  | .hbm, ⟨10, _⟩ => ⟨S256, .f32⟩
  | .hbm, ⟨11, _⟩ => ⟨S256x256, .f32⟩
  | .hbm, ⟨12, _⟩ => ⟨S256, .f32⟩
  | .hbm, ⟨13, _⟩ => ⟨S256, .f32⟩
  | .hbm, ⟨14, _⟩ => ⟨S256, .f32⟩
  | .hbm, ⟨15, _⟩ => ⟨S256, .f32⟩
  | .hbm, ⟨16, _⟩ => ⟨S256, .f32⟩
  | .hbm, ⟨17, _⟩ => ⟨S1x320000, .i32⟩
  | .hbm, ⟨18, _⟩ => ⟨S320000, .i32⟩
  | .hbm, ⟨19, _⟩ => ⟨S1x320000, .i32⟩
  | .hbm, ⟨20, _⟩ => ⟨S320000, .i32⟩
  | .hbm, ⟨21, _⟩ => ⟨S_, .i32⟩
  | .hbm, ⟨22, _⟩ => ⟨S320000, .i32⟩
  | .hbm, ⟨23, _⟩ => ⟨S320000, .i1⟩
  | .hbm, ⟨24, _⟩ => ⟨S_, .i32⟩
  | .hbm, ⟨25, _⟩ => ⟨S320000, .i32⟩
  | .hbm, ⟨26, _⟩ => ⟨S320000, .i32⟩
  | .hbm, ⟨27, _⟩ => ⟨S320000, .i32⟩
  | .hbm, ⟨28, _⟩ => ⟨S320000x1, .i32⟩
  | .hbm, ⟨29, _⟩ => ⟨S1, .i32⟩
  | .hbm, ⟨30, _⟩ => ⟨S_, .i32⟩
  | .hbm, ⟨31, _⟩ => ⟨S320000x1, .i32⟩
  | .hbm, ⟨32, _⟩ => ⟨S320000x1, .i1⟩
  | .hbm, ⟨33, _⟩ => ⟨S1x1, .i32⟩
  | .hbm, ⟨34, _⟩ => ⟨S320000x1, .i32⟩
  | .hbm, ⟨35, _⟩ => ⟨S320000x1, .i1⟩
  | .hbm, ⟨36, _⟩ => ⟨S320000x1, .i1⟩
  | .hbm, ⟨37, _⟩ => ⟨S_, .i1⟩
  | .hbm, ⟨38, _⟩ => ⟨S320000, .i1⟩
  | .hbm, ⟨39, _⟩ => ⟨S320000x256, .f32⟩
  | .hbm, ⟨40, _⟩ => ⟨S320000x256, .i1⟩
  | .hbm, ⟨41, _⟩ => ⟨S_, .f32⟩
  | .hbm, ⟨42, _⟩ => ⟨S320000x256, .f32⟩
  | .hbm, ⟨43, _⟩ => ⟨S320000x256, .f32⟩
  | .hbm, ⟨44, _⟩ => ⟨S_, .i32⟩
  | .hbm, ⟨45, _⟩ => ⟨S320000, .i32⟩
  | .hbm, ⟨46, _⟩ => ⟨S320000, .i1⟩
  | .hbm, ⟨47, _⟩ => ⟨S_, .i32⟩
  | .hbm, ⟨48, _⟩ => ⟨S320000, .i32⟩
  | .hbm, ⟨49, _⟩ => ⟨S320000, .i32⟩
  | .hbm, ⟨50, _⟩ => ⟨S320000, .i32⟩
  | .hbm, ⟨51, _⟩ => ⟨S320000x1, .i32⟩
  | .hbm, ⟨52, _⟩ => ⟨S1, .i32⟩
  | .hbm, ⟨53, _⟩ => ⟨S_, .i32⟩
  | .hbm, ⟨54, _⟩ => ⟨S320000x1, .i32⟩
  | .hbm, ⟨55, _⟩ => ⟨S320000x1, .i1⟩
  | .hbm, ⟨56, _⟩ => ⟨S1x1, .i32⟩
  | .hbm, ⟨57, _⟩ => ⟨S320000x1, .i32⟩
  | .hbm, ⟨58, _⟩ => ⟨S320000x1, .i1⟩
  | .hbm, ⟨59, _⟩ => ⟨S320000x1, .i1⟩
  | .hbm, ⟨60, _⟩ => ⟨S_, .i1⟩
  | .hbm, ⟨61, _⟩ => ⟨S320000, .i1⟩
  | .hbm, ⟨62, _⟩ => ⟨S320000x256, .f32⟩
  | .hbm, ⟨63, _⟩ => ⟨S320000x256, .i1⟩
  | .hbm, ⟨64, _⟩ => ⟨S_, .f32⟩
  | .hbm, ⟨65, _⟩ => ⟨S320000x256, .f32⟩
  | .hbm, ⟨66, _⟩ => ⟨S320000x256, .f32⟩
  | .hbm, ⟨67, _⟩ => ⟨S1x256, .f32⟩
  | .hbm, ⟨68, _⟩ => ⟨S1x256, .f32⟩
  | .hbm, ⟨69, _⟩ => ⟨S1x256, .f32⟩
  | .hbm, ⟨70, _⟩ => ⟨S1x256, .f32⟩
  | .hbm, ⟨71, _⟩ => ⟨S320000x256, .f32⟩
  | .hbm, ⟨72, _⟩ => ⟨S_, .f32⟩
  | .hbm, ⟨73, _⟩ => ⟨S20000x256, .f32⟩
  | .hbm, ⟨74, _⟩ => ⟨S320000x1, .i32⟩
  | .hbm, ⟨75, _⟩ => ⟨S20000x256, .f32⟩
  | .hbm, ⟨76, _⟩ => ⟨S256x256, .f32⟩
  | .hbm, ⟨77, _⟩ => ⟨S256x256, .f32⟩
  | .hbm, ⟨78, _⟩ => ⟨S1x256, .f32⟩
  | .hbm, ⟨79, _⟩ => ⟨S1x256, .f32⟩
  | .hbm, ⟨80, _⟩ => ⟨S1x256, .f32⟩
  | .hbm, ⟨81, _⟩ => ⟨S1x256, .f32⟩
  | .hbm, ⟨82, _⟩ => ⟨S20000x256, .f32⟩
  | .local _ .vmem, ⟨0, _⟩ => ⟨S1280x256, .f32⟩
  | .local _ .vmem, ⟨1, _⟩ => ⟨S1280x256, .f32⟩
  | .local _ .vmem, ⟨2, _⟩ => ⟨S1280x256, .f32⟩
  | .local _ .vmem, ⟨3, _⟩ => ⟨S1280x256, .f32⟩
  | .local _ .vmem, ⟨4, _⟩ => ⟨S1280x256, .f32⟩
  | .local _ .vmem, ⟨5, _⟩ => ⟨S1280x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S1x256, .f32⟩
  | .local _ .vmem, ⟨11, _⟩ => ⟨S1x256, .f32⟩
  | .local _ .vmem, ⟨12, _⟩ => ⟨S1x256, .f32⟩
  | .local _ .vmem, ⟨13, _⟩ => ⟨S1x256, .f32⟩
  | .local _ .vmem, ⟨14, _⟩ => ⟨S1280x256, .f32⟩
  | .local _ .vmem, ⟨15, _⟩ => ⟨S1280x256, .f32⟩
  | .local _ .vmem, ⟨16, _⟩ => ⟨S1000x256, .f32⟩
  | .local _ .vmem, ⟨17, _⟩ => ⟨S1000x256, .f32⟩
  | .local _ .vmem, ⟨18, _⟩ => ⟨S1000x256, .f32⟩
  | .local _ .vmem, ⟨19, _⟩ => ⟨S1000x256, .f32⟩
  | .local _ .vmem, ⟨20, _⟩ => ⟨S256x256, .f32⟩
  | .local _ .vmem, ⟨21, _⟩ => ⟨S256x256, .f32⟩
  | .local _ .vmem, ⟨22, _⟩ => ⟨S256x256, .f32⟩
  | .local _ .vmem, ⟨23, _⟩ => ⟨S1x256, .f32⟩
  | .local _ .vmem, ⟨24, _⟩ => ⟨S1x256, .f32⟩
  | .local _ .vmem, ⟨25, _⟩ => ⟨S1x256, .f32⟩
  | .local _ .vmem, ⟨26, _⟩ => ⟨S1x256, .f32⟩
  | .local _ .vmem, ⟨27, _⟩ => ⟨S1000x256, .f32⟩
  | .local _ .vmem, ⟨28, _⟩ => ⟨S1000x256, .f32⟩
  | _, _ => ⟨S20000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_call0_c : Ref sig .tc := ⟨.hbm, 21, rfl⟩
abbrev main_call0_v0 : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_c_1 : Ref sig .tc := ⟨.hbm, 29, rfl⟩
abbrev main_call0_c_2 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c_3 : Ref sig .tc := ⟨.hbm, 37, rfl⟩
abbrev main_call0_v12 : Ref sig .tc := ⟨.hbm, 38, rfl⟩
abbrev main_call0_v13 : Ref sig .tc := ⟨.hbm, 39, rfl⟩
abbrev main_call0_v14 : Ref sig .tc := ⟨.hbm, 40, rfl⟩
abbrev main_call0_cst : Ref sig .tc := ⟨.hbm, 41, rfl⟩
abbrev main_call0_v15 : Ref sig .tc := ⟨.hbm, 42, rfl⟩
abbrev main_v4 : Ref sig .tc := ⟨.hbm, 43, rfl⟩
abbrev main_call1_c : Ref sig .tc := ⟨.hbm, 44, rfl⟩
abbrev main_call1_v0 : Ref sig .tc := ⟨.hbm, 45, rfl⟩
abbrev main_call1_v1 : Ref sig .tc := ⟨.hbm, 46, rfl⟩
abbrev main_call1_c_0 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_v5 : Ref sig .tc := ⟨.hbm, 51, rfl⟩
abbrev main_call1_c_1 : Ref sig .tc := ⟨.hbm, 52, rfl⟩
abbrev main_call1_c_2 : Ref sig .tc := ⟨.hbm, 53, rfl⟩
abbrev main_call1_v6 : Ref sig .tc := ⟨.hbm, 54, rfl⟩
abbrev main_call1_v7 : Ref sig .tc := ⟨.hbm, 55, rfl⟩
abbrev main_call1_v8 : Ref sig .tc := ⟨.hbm, 56, rfl⟩
abbrev main_call1_v9 : Ref sig .tc := ⟨.hbm, 57, rfl⟩
abbrev main_call1_v10 : Ref sig .tc := ⟨.hbm, 58, rfl⟩
abbrev main_call1_v11 : Ref sig .tc := ⟨.hbm, 59, rfl⟩
abbrev main_call1_c_3 : Ref sig .tc := ⟨.hbm, 60, rfl⟩
abbrev main_call1_v12 : Ref sig .tc := ⟨.hbm, 61, rfl⟩
abbrev main_call1_v13 : Ref sig .tc := ⟨.hbm, 62, rfl⟩
abbrev main_call1_v14 : Ref sig .tc := ⟨.hbm, 63, rfl⟩
abbrev main_call1_cst : Ref sig .tc := ⟨.hbm, 64, rfl⟩
abbrev main_call1_v15 : Ref sig .tc := ⟨.hbm, 65, rfl⟩
abbrev main_v5 : Ref sig .tc := ⟨.hbm, 66, rfl⟩
abbrev main_v6 : Ref sig .tc := ⟨.hbm, 67, rfl⟩
abbrev main_v7 : Ref sig .tc := ⟨.hbm, 68, rfl⟩
abbrev main_v8 : Ref sig .tc := ⟨.hbm, 69, rfl⟩
abbrev main_v9 : Ref sig .tc := ⟨.hbm, 70, rfl⟩
abbrev main_v10 : Ref sig .tc := ⟨.hbm, 71, rfl⟩
abbrev main_cst : Ref sig .tc := ⟨.hbm, 72, rfl⟩
abbrev main_v11 : Ref sig .tc := ⟨.hbm, 73, rfl⟩
abbrev main_v12 : Ref sig .tc := ⟨.hbm, 74, rfl⟩
abbrev main_v13 : Ref sig .tc := ⟨.hbm, 75, rfl⟩
abbrev main_v14 : Ref sig .tc := ⟨.hbm, 76, rfl⟩
abbrev main_v15 : Ref sig .tc := ⟨.hbm, 77, rfl⟩
abbrev main_v16 : Ref sig .tc := ⟨.hbm, 78, rfl⟩
abbrev main_v17 : Ref sig .tc := ⟨.hbm, 79, rfl⟩
abbrev main_v18 : Ref sig .tc := ⟨.hbm, 80, rfl⟩
abbrev main_v19 : Ref sig .tc := ⟨.hbm, 81, rfl⟩
abbrev main_v20 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg7_0 : Ref sig .tc := ⟨.vmem, 25, rfl⟩
abbrev cc1_stg8_0 : Ref sig .tc := ⟨.vmem, 26, rfl⟩
abbrev cc1_stg9_0 : Ref sig .tc := ⟨.vmem, 27, rfl⟩
abbrev cc1_stg9_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem3_0 : DmaSem sig := 21
abbrev cc1_sem4_0 : DmaSem sig := 22
abbrev cc1_sem5_0 : DmaSem sig := 23
abbrev cc1_sem6_0 : DmaSem sig := 24
abbrev cc1_sem7_0 : DmaSem sig := 25
abbrev cc1_sem8_0 : DmaSem sig := 26
abbrev cc1_sem9_0 : DmaSem sig := 27
abbrev cc1_sem9_1 : DmaSem sig := 28

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1280x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1280x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1280x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1280x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S1000x256 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  bcast_S_S320000x1 : S_.BroadcastsInDim S320000x1 (![] : Fin 0 → Fin S320000x1.rank)
  bcast_S1_S1x1_1 : S1.BroadcastsInDim S1x1 (![1] : Fin 1 → Fin S1x1.rank)
  bcast_S1x1_S320000x1_0_1 : S1x1.BroadcastsInDim S320000x1 (![0, 1] : Fin 2 → Fin S320000x1.rank)
  reducesTo_S320000x1_S320000_d1 : S320000x1.ReducesTo [1] S320000
  h_S_ : 0 < S_.numel
  bcast_S320000_S320000x256_0 : S320000.BroadcastsInDim S320000x256 (![0] : Fin 1 → Fin S320000x256.rank)
  bcast_S_S320000x256 : S_.BroadcastsInDim S320000x256 (![] : Fin 0 → Fin S320000x256.rank)
  shapeCasts_S256_S1x256 : S256.ShapeCasts S1x256
  inb_S1280x256_S1280x256_0_0 : ∀ a, (![0, 0] : Fin 2 → Nat) a + S1280x256.size a ≤ S1280x256.size a
  h_S1280x256 : 0 < S1280x256.numel
  shapeCasts_S1280x256_S1280x256 : S1280x256.ShapeCasts S1280x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1280x256 : S1x256.Broadcasts S1280x256
  reduces_S1280x256_S1280 : S1280x256.Reduces [1] S1280
  shapeCasts_S1280_S1280x1 : S1280.ShapeCasts S1280x1
  broadcasts_S1280x1_S1280x256 : S1280x1.Broadcasts S1280x256
  bcast_S_S20000x256 : S_.BroadcastsInDim S20000x256 (![] : Fin 0 → Fin S20000x256.rank)
  slices_S512x256_S256x256_0_0 : S512x256.Slices ![0, 0] S256x256
  slices_S512x256_S256x256_256_0 : S512x256.Slices ![256, 0] S256x256
  inb_S1000x256_S1000x256_0_0 : ∀ a, (![0, 0] : Fin 2 → Nat) a + S1000x256.size a ≤ S1000x256.size a
  h_S1000x256 : 0 < S1000x256.numel
  shapeCasts_S1000x256_S1000x256 : S1000x256.ShapeCasts S1000x256
  shapeCasts_S256x256_S256x256 : S256x256.ShapeCasts S256x256
  broadcasts_S1x256_S1000x256 : S1x256.Broadcasts S1000x256
  reduces_S1000x256_S1000 : S1000x256.Reduces [1] S1000
  shapeCasts_S1000_S1000x1 : S1000.ShapeCasts S1000x1
  broadcasts_S1000x1_S1000x256 : S1000x1.Broadcasts S1000x256
  gather_S20000x256_S320000x1_S320000x256_1_0_n_n_0_1_1256_wf : GatherDims.WF S20000x256 S320000x1 S320000x256 [1] [0] [] [0] [] 1 ![1, 256]
  dot_S1280x256_S256x256_S1280x256_1_0_0_1_n_n_wf : DotDims.WF S1280x256 S256x256 S1280x256 [1] [0] [0] [1] [] []
  scatter_S20000x256_S320000x1_S320000x256_1_0_0_1_wf : ScatterDims.WF S20000x256 S320000x1 S320000x256 [1] [0] [0] 1
  dot_S1000x256_S256x256_S1000x256_1_0_0_1_n_n_wf : DotDims.WF S1000x256 S256x256 S1000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1280x256.size a ≤ S320000x256.size a
  hwx0_0 : ∀ i : grid0.Coords, EltTy.bits .f32 = 32 ∨ (Rect.block (s := S320000x256) S1280x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1280x256.size a ≤ S320000x256.size a
  hwx0_1 : ∀ i : grid0.Coords, EltTy.bits .f32 = 32 ∨ (Rect.block (s := S320000x256) S1280x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1280x256.size a ≤ S320000x256.size a
  hwx0_2 : ∀ i : grid0.Coords, EltTy.bits .f32 = 32 ∨ (Rect.block (s := S320000x256) S1280x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S256x256.size a
  hwx0_6 : ∀ i : grid0.Coords, EltTy.bits .f32 = 32 ∨ (Rect.block (s := S256x256) S256x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x256.size a ≤ S1x256.size a
  hwx0_9 : ∀ i : grid0.Coords, EltTy.bits .f32 = 32 ∨ (Rect.block (s := S1x256) S1x256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x256.size a ≤ S1x256.size a
  hwx0_10 : ∀ i : grid0.Coords, EltTy.bits .f32 = 32 ∨ (Rect.block (s := S1x256) S1x256.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1280x256.size a ≤ S320000x256.size a
  hwx0_11 : ∀ i : grid0.Coords, EltTy.bits .f32 = 32 ∨ (Rect.block (s := S320000x256) S1280x256.size (cc0_transform_11 i) (hinb0_11 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x256.size a ≤ S20000x256.size a
  hwx1_0 : ∀ i : grid1.Coords, EltTy.bits .f32 = 32 ∨ (Rect.block (s := S20000x256) S1000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x256.size a ≤ S20000x256.size a
  hwx1_1 : ∀ i : grid1.Coords, EltTy.bits .f32 = 32 ∨ (Rect.block (s := S20000x256) S1000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .f32 = 32 ∨ (Rect.block (s := S256x256) S256x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x256.size a ≤ S1x256.size a
  hwx1_6 : ∀ i : grid1.Coords, EltTy.bits .f32 = 32 ∨ (Rect.block (s := S1x256) S1x256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x256.size a ≤ S1x256.size a
  hwx1_7 : ∀ i : grid1.Coords, EltTy.bits .f32 = 32 ∨ (Rect.block (s := S1x256) S1x256.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x256.size a ≤ S1x256.size a
  hwx1_8 : ∀ i : grid1.Coords, EltTy.bits .f32 = 32 ∨ (Rect.block (s := S1x256) S1x256.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S1000x256.size a ≤ S20000x256.size a
  hwx1_9 : ∀ i : grid1.Coords, EltTy.bits .f32 = 32 ∨ (Rect.block (s := S20000x256) S1000x256.size (cc1_transform_9 i) (hinb1_9 i)).WholeWords (EltTy.packing .f32)

variable [Facts₀]

def gather_S20000x256_S320000x1_S320000x256_1_0_n_n_0_1_1256 : GatherDims S20000x256 S320000x1 S320000x256 where
  offsetDims := [1]
  collapsedSliceDims := [0]
  operandBatchingDims := []
  startIndicesBatchingDims := []
  startIndexMap := [0]
  indexVectorDim := 1
  sliceSizes := ![1, 256]
  wf := gather_S20000x256_S320000x1_S320000x256_1_0_n_n_0_1_1256_wf
def dot_S1280x256_S256x256_S1280x256_1_0_0_1_n_n : DotDims S1280x256 S256x256 S1280x256 where
  lhsContracting := [1]
  rhsContracting := [0]
  lhsNonContracting := [0]
  rhsNonContracting := [1]
  lhsBatch := []
  rhsBatch := []
  wf := dot_S1280x256_S256x256_S1280x256_1_0_0_1_n_n_wf
def scatter_S20000x256_S320000x1_S320000x256_1_0_0_1 : ScatterDims S20000x256 S320000x1 S320000x256 where
  updateWindowDims := [1]
  insertedWindowDims := [0]
  scatterDimsToOperandDims := [0]
  indexVectorDim := 1
  wf := scatter_S20000x256_S320000x1_S320000x256_1_0_0_1_wf
def dot_S1000x256_S256x256_S1000x256_1_0_0_1_n_n : DotDims S1000x256 S256x256 S1000x256 where
  lhsContracting := [1]
  rhsContracting := [0]
  lhsNonContracting := [0]
  rhsNonContracting := [1]
  lhsBatch := []
  rhsBatch := []
  wf := dot_S1000x256_S256x256_S1000x256_1_0_0_1_n_n_wf

abbrev win0_0 : Pipeline.Window sig grid0 :=
  Pipeline.Window.ofSpec (Memref.whole main_v4) S1280x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1280x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1280x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S256x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v7) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v8) S1x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v9) S1x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v10) S1280x256.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_arg0) S1000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S1000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v15) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg11) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v16) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v17) S1x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v18) S1x256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v19) S1x256.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v20) S1000x256.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S20000x256 : Shape := ⟨2, ![20000, 256]⟩
abbrev S320000x256 : Shape := ⟨2, ![320000, 256]⟩
abbrev S2x320000 : Shape := ⟨2, ![2, 320000]⟩
abbrev S256x256 : Shape := ⟨2, ![256, 256]⟩
abbrev S256 : Shape := ⟨1, ![256]⟩
abbrev S512x256 : Shape := ⟨2, ![512, 256]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S1x256 : Shape := ⟨2, ![1, 256]⟩
abbrev S20000x512 : Shape := ⟨2, ![20000, 512]⟩
abbrev S20000 : Shape := ⟨1, ![20000]⟩
abbrev S20000x1 : Shape := ⟨2, ![20000, 1]⟩

abbrev nBuf : Space → Nat
  | .hbm => 142
  | .vmem => 0
  | .smem => 0
  | _ => 0

abbrev hbmTy0_0 (i : Nat) : BufTy := match i % 128 with
  | 0 => ⟨S20000x256, .f32⟩
  | 1 => ⟨S320000x256, .f32⟩
  | 2 => ⟨S2x320000, .i32⟩
  | 3 => ⟨S256x256, .f32⟩
  | 4 => ⟨S256, .f32⟩
  | 5 => ⟨S256x256, .f32⟩
  | 6 => ⟨S256x256, .f32⟩
  | 7 => ⟨S256x256, .f32⟩
  | 8 => ⟨S256, .f32⟩
  | 9 => ⟨S512x256, .f32⟩
  | 10 => ⟨S256, .f32⟩
  | 11 => ⟨S256x256, .f32⟩
  | 12 => ⟨S256, .f32⟩
  | 13 => ⟨S256, .f32⟩
  | 14 => ⟨S256, .f32⟩
  | 15 => ⟨S256, .f32⟩
  | 16 => ⟨S256, .f32⟩
  | 17 => ⟨S1x320000, .i32⟩
  | 18 => ⟨S320000, .i32⟩
  | 19 => ⟨S1x320000, .i32⟩
  | 20 => ⟨S320000, .i32⟩
  | 21 => ⟨S_, .i32⟩
  | 22 => ⟨S320000, .i32⟩
  | 23 => ⟨S320000, .i1⟩
  | 24 => ⟨S_, .i32⟩
  | 25 => ⟨S320000, .i32⟩
  | 26 => ⟨S320000, .i32⟩
  | 27 => ⟨S320000, .i32⟩
  | 28 => ⟨S320000x1, .i32⟩
  | 29 => ⟨S320000x256, .f32⟩
  | 30 => ⟨S320000x256, .f32⟩
  | 31 => ⟨S1x256, .f32⟩
  | 32 => ⟨S320000x256, .f32⟩
  | 33 => ⟨S320000x256, .f32⟩
  | 34 => ⟨S_, .i32⟩
  | 35 => ⟨S320000, .i32⟩
  | 36 => ⟨S320000, .i1⟩
  | 37 => ⟨S_, .i32⟩
  | 38 => ⟨S320000, .i32⟩
  | 39 => ⟨S320000, .i32⟩
  | 40 => ⟨S320000, .i32⟩
  | 41 => ⟨S320000x1, .i32⟩
  | 42 => ⟨S320000x256, .f32⟩
  | 43 => ⟨S320000x256, .f32⟩
  | 44 => ⟨S320000x256, .f32⟩
  | 45 => ⟨S320000x256, .f32⟩
  | 46 => ⟨S320000x256, .f32⟩
  | 47 => ⟨S320000x256, .f32⟩
  | 48 => ⟨S320000x256, .f32⟩
  | 49 => ⟨S_, .f32⟩
  | 50 => ⟨S320000x256, .f32⟩
  | 51 => ⟨S320000x256, .f32⟩
  | 52 => ⟨S_, .f32⟩
  | 53 => ⟨S320000x256, .f32⟩
  | 54 => ⟨S320000x256, .f32⟩
  | 55 => ⟨S320000x256, .f32⟩
  | 56 => ⟨S320000x256, .f32⟩
  | 57 => ⟨S1x256, .f32⟩
  | 58 => ⟨S320000x256, .f32⟩
  | 59 => ⟨S320000x256, .f32⟩
  | 60 => ⟨S320000x256, .f32⟩
  | 61 => ⟨S_, .f32⟩
  | 62 => ⟨S320000, .f32⟩
  | 63 => ⟨S320000x1, .f32⟩
  | 64 => ⟨S_, .f32⟩
  | 65 => ⟨S320000x1, .f32⟩
  | 66 => ⟨S320000x1, .f32⟩
  | 67 => ⟨S320000x256, .f32⟩
  | 68 => ⟨S320000x256, .f32⟩
  | 69 => ⟨S320000x256, .f32⟩
  | 70 => ⟨S_, .f32⟩
  | 71 => ⟨S320000, .f32⟩
  | 72 => ⟨S320000x1, .f32⟩
  | 73 => ⟨S_, .f32⟩
  | 74 => ⟨S320000x1, .f32⟩
  | 75 => ⟨S320000x1, .f32⟩
  | 76 => ⟨S320000x256, .f32⟩
  | 77 => ⟨S320000x256, .f32⟩
  | 78 => ⟨S_, .f32⟩
  | 79 => ⟨S320000x1, .f32⟩
  | 80 => ⟨S320000x1, .f32⟩
  | 81 => ⟨S320000x1, .f32⟩
  | 82 => ⟨S320000x256, .f32⟩
  | 83 => ⟨S320000x256, .f32⟩
  | 84 => ⟨S1x256, .f32⟩
  | 85 => ⟨S320000x256, .f32⟩
  | 86 => ⟨S320000x256, .f32⟩
  | 87 => ⟨S1x256, .f32⟩
  | 88 => ⟨S320000x256, .f32⟩
  | 89 => ⟨S320000x256, .f32⟩
  | 90 => ⟨S_, .f32⟩
  | 91 => ⟨S20000x256, .f32⟩
  | 92 => ⟨S320000x1, .i32⟩
  | 93 => ⟨S20000x256, .f32⟩
  | 94 => ⟨S20000x512, .f32⟩
  | 95 => ⟨S20000x256, .f32⟩
  | 96 => ⟨S1x256, .f32⟩
  | 97 => ⟨S20000x256, .f32⟩
  | 98 => ⟨S20000x256, .f32⟩
  | 99 => ⟨S20000x256, .f32⟩
  | 100 => ⟨S20000x256, .f32⟩
  | 101 => ⟨S_, .f32⟩
  | 102 => ⟨S20000x256, .f32⟩
  | 103 => ⟨S20000x256, .f32⟩
  | 104 => ⟨S_, .f32⟩
  | 105 => ⟨S20000x256, .f32⟩
  | 106 => ⟨S20000x256, .f32⟩
  | 107 => ⟨S20000x256, .f32⟩
  | 108 => ⟨S20000x256, .f32⟩
  | 109 => ⟨S1x256, .f32⟩
  | 110 => ⟨S20000x256, .f32⟩
  | 111 => ⟨S20000x256, .f32⟩
  | 112 => ⟨S20000x256, .f32⟩
  | 113 => ⟨S_, .f32⟩
  | 114 => ⟨S20000, .f32⟩
  | 115 => ⟨S20000x1, .f32⟩
  | 116 => ⟨S_, .f32⟩
  | 117 => ⟨S20000x1, .f32⟩
  | 118 => ⟨S20000x1, .f32⟩
  | 119 => ⟨S20000x256, .f32⟩
  | 120 => ⟨S20000x256, .f32⟩
  | 121 => ⟨S20000x256, .f32⟩
  | 122 => ⟨S_, .f32⟩
  | 123 => ⟨S20000, .f32⟩
  | 124 => ⟨S20000x1, .f32⟩
  | 125 => ⟨S_, .f32⟩
  | 126 => ⟨S20000x1, .f32⟩
  | 127 => ⟨S20000x1, .f32⟩
  | _ => ⟨S20000x256, .f32⟩

abbrev hbmTy0_1 (i : Nat) : BufTy := match i % 128 with
  | 0 => ⟨S20000x256, .f32⟩
  | 1 => ⟨S20000x256, .f32⟩
  | 2 => ⟨S_, .f32⟩
  | 3 => ⟨S20000x1, .f32⟩
  | 4 => ⟨S20000x1, .f32⟩
  | 5 => ⟨S20000x1, .f32⟩
  | 6 => ⟨S20000x256, .f32⟩
  | 7 => ⟨S20000x256, .f32⟩
  | 8 => ⟨S1x256, .f32⟩
  | 9 => ⟨S20000x256, .f32⟩
  | 10 => ⟨S20000x256, .f32⟩
  | 11 => ⟨S1x256, .f32⟩
  | 12 => ⟨S20000x256, .f32⟩
  | 13 => ⟨S20000x256, .f32⟩
  | _ => ⟨S20000x256, .f32⟩

abbrev hbmTy (i : Nat) : BufTy := match i / 128 with
  | 0 => hbmTy0_0 i
  | 1 => hbmTy0_1 i
  | _ => ⟨S20000x256, .f32⟩

abbrev bufTy : (tb : Table) → Fin (tcTables nBuf tb) → BufTy
  | .hbm, ⟨i, _⟩ => hbmTy i
  | _, _ => ⟨S20000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_v4 : Ref sig .tc := ⟨.hbm, 22, rfl⟩
abbrev main_v5 : Ref sig .tc := ⟨.hbm, 23, rfl⟩
abbrev main_c_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_c_1 : Ref sig .tc := ⟨.hbm, 34, rfl⟩
abbrev main_v15 : Ref sig .tc := ⟨.hbm, 35, rfl⟩
abbrev main_v16 : Ref sig .tc := ⟨.hbm, 36, rfl⟩
abbrev main_c_2 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_call0_v0 : Ref sig .tc := ⟨.hbm, 47, rfl⟩
abbrev main_call0_v1 : Ref sig .tc := ⟨.hbm, 48, rfl⟩
abbrev main_call0_cst : Ref sig .tc := ⟨.hbm, 49, rfl⟩
abbrev main_call0_v2 : Ref sig .tc := ⟨.hbm, 50, rfl⟩
abbrev main_call0_v3 : Ref sig .tc := ⟨.hbm, 51, rfl⟩
abbrev main_call0_cst_0 : Ref sig .tc := ⟨.hbm, 52, rfl⟩
abbrev main_call0_v4 : Ref sig .tc := ⟨.hbm, 53, rfl⟩
abbrev main_call0_v5 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_cst : Ref sig .tc := ⟨.hbm, 61, rfl⟩
abbrev main_v32 : Ref sig .tc := ⟨.hbm, 62, rfl⟩
abbrev main_v33 : Ref sig .tc := ⟨.hbm, 63, rfl⟩
abbrev main_cst_3 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_cst_4 : Ref sig .tc := ⟨.hbm, 70, rfl⟩
abbrev main_v39 : Ref sig .tc := ⟨.hbm, 71, rfl⟩
abbrev main_v40 : Ref sig .tc := ⟨.hbm, 72, rfl⟩
abbrev main_cst_5 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_cst_6 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_cst_7 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_call1_v0 : Ref sig .tc := ⟨.hbm, 99, rfl⟩
abbrev main_call1_v1 : Ref sig .tc := ⟨.hbm, 100, rfl⟩
abbrev main_call1_cst : Ref sig .tc := ⟨.hbm, 101, rfl⟩
abbrev main_call1_v2 : Ref sig .tc := ⟨.hbm, 102, rfl⟩
abbrev main_call1_v3 : Ref sig .tc := ⟨.hbm, 103, rfl⟩
abbrev main_call1_cst_0 : Ref sig .tc := ⟨.hbm, 104, rfl⟩
abbrev main_call1_v4 : Ref sig .tc := ⟨.hbm, 105, rfl⟩
abbrev main_call1_v5 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_cst_8 : Ref sig .tc := ⟨.hbm, 113, rfl⟩
abbrev main_v70 : Ref sig .tc := ⟨.hbm, 114, rfl⟩
abbrev main_v71 : Ref sig .tc := ⟨.hbm, 115, rfl⟩
abbrev main_cst_9 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_cst_10 : Ref sig .tc := ⟨.hbm, 122, rfl⟩
abbrev main_v77 : Ref sig .tc := ⟨.hbm, 123, rfl⟩
abbrev main_v78 : Ref sig .tc := ⟨.hbm, 124, rfl⟩
abbrev main_cst_11 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_cst_12 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  bcast_S256_S1x256_1 : S256.BroadcastsInDim S1x256 (![1] : Fin 1 → Fin S1x256.rank)
  bcast_S1x256_S320000x256_0_1 : S1x256.BroadcastsInDim S320000x256 (![0, 1] : Fin 2 → Fin S320000x256.rank)
  bcast_S_S320000x256 : S_.BroadcastsInDim S320000x256 (![] : Fin 0 → Fin S320000x256.rank)
  reducesTo_S320000x256_S320000_d1 : S320000x256.ReducesTo [1] S320000
  h_S_ : 0 < S_.numel
  bcast_S_S320000x1 : S_.BroadcastsInDim S320000x1 (![] : Fin 0 → Fin S320000x1.rank)
  bcast_S320000x1_S320000x256_0_1 : S320000x1.BroadcastsInDim S320000x256 (![0, 1] : Fin 2 → Fin S320000x256.rank)
  bcast_S_S20000x256 : S_.BroadcastsInDim S20000x256 (![] : Fin 0 → Fin S20000x256.rank)
  concatenates_S20000x256_S20000x256_S20000x512_d1 : Shape.Concatenates [S20000x256, S20000x256] S20000x512 1
  bcast_S1x256_S20000x256_0_1 : S1x256.BroadcastsInDim S20000x256 (![0, 1] : Fin 2 → Fin S20000x256.rank)
  reducesTo_S20000x256_S20000_d1 : S20000x256.ReducesTo [1] S20000
  bcast_S20000_S20000x1_0 : S20000.BroadcastsInDim S20000x1 (![0] : Fin 1 → Fin S20000x1.rank)
  bcast_S_S20000x1 : S_.BroadcastsInDim S20000x1 (![] : Fin 0 → Fin S20000x1.rank)
  bcast_S20000x1_S20000x256_0_1 : S20000x1.BroadcastsInDim S20000x256 (![0, 1] : Fin 2 → Fin S20000x256.rank)
  gather_S20000x256_S320000x1_S320000x256_1_0_n_n_0_1_1256_wf : GatherDims.WF S20000x256 S320000x1 S320000x256 [1] [0] [] [0] [] 1 ![1, 256]
  dot_S320000x256_S256x256_S320000x256_1_0_0_1_n_n_wf : DotDims.WF S320000x256 S256x256 S320000x256 [1] [0] [0] [1] [] []
  scatter_S20000x256_S320000x1_S320000x256_1_0_0_1_wf : ScatterDims.WF S20000x256 S320000x1 S320000x256 [1] [0] [0] 1
  dot_S20000x512_S512x256_S20000x256_1_0_0_1_n_n_wf : DotDims.WF S20000x512 S512x256 S20000x256 [1] [0] [0] [1] [] []
  dot_S20000x256_S256x256_S20000x256_1_0_0_1_n_n_wf : DotDims.WF S20000x256 S256x256 S20000x256 [1] [0] [0] [1] [] []

variable [Facts₀]

def gather_S20000x256_S320000x1_S320000x256_1_0_n_n_0_1_1256 : GatherDims S20000x256 S320000x1 S320000x256 where
  offsetDims := [1]
  collapsedSliceDims := [0]
  operandBatchingDims := []
  startIndicesBatchingDims := []
  startIndexMap := [0]
  indexVectorDim := 1
  sliceSizes := ![1, 256]
  wf := gather_S20000x256_S320000x1_S320000x256_1_0_n_n_0_1_1256_wf
def dot_S320000x256_S256x256_S320000x256_1_0_0_1_n_n : DotDims S320000x256 S256x256 S320000x256 where
  lhsContracting := [1]
  rhsContracting := [0]
  lhsNonContracting := [0]
  rhsNonContracting := [1]
  lhsBatch := []
  rhsBatch := []
  wf := dot_S320000x256_S256x256_S320000x256_1_0_0_1_n_n_wf
def scatter_S20000x256_S320000x1_S320000x256_1_0_0_1 : ScatterDims S20000x256 S320000x1 S320000x256 where
  updateWindowDims := [1]
  insertedWindowDims := [0]
  scatterDimsToOperandDims := [0]
  indexVectorDim := 1
  wf := scatter_S20000x256_S320000x1_S320000x256_1_0_0_1_wf
def dot_S20000x512_S512x256_S20000x256_1_0_0_1_n_n : DotDims S20000x512 S512x256 S20000x256 where
  lhsContracting := [1]
  rhsContracting := [0]
  lhsNonContracting := [0]
  rhsNonContracting := [1]
  lhsBatch := []
  rhsBatch := []
  wf := dot_S20000x512_S512x256_S20000x256_1_0_0_1_n_n_wf
def dot_S20000x256_S256x256_S20000x256_1_0_0_1_n_n : DotDims S20000x256 S256x256 S20000x256 where
  lhsContracting := [1]
  rhsContracting := [0]
  lhsNonContracting := [0]
  rhsNonContracting := [1]
  lhsBatch := []
  rhsBatch := []
  wf := dot_S20000x256_S256x256_S20000x256_1_0_0_1_n_n_wf

class Facts : Prop extends Facts₀ where

variable [Facts]
-- ==== Proof.Spec.lean ====
/-
  The mathematics both programs compute, one row at a time, over the extended reals.

  A row is a vector of 256 extended reals and a weight matrix is 256 × 256.  An edge's new feature row is the
  layer normalisation of its residual update: with `z = hs·Wsrc + hd·Wdst + e·We + bsrc` (three row-by-matrix
  products and a bias), `de = silu(z)·Wout + bout`, the result is `LN(e + de)` scaled by `g` and shifted by `beta`.
  A node's new feature row has the same shape with two products: `z = h·Wa + agg·Wb + b1`,
  `dh = silu(z)·W2 + b2`, result `LN(h + dh)`.  The mean of a row is its sum divided by 256 (the quotient of the
  extended reals, `Ideal.div`), the variance is the mean of the squared deviations, and the normalisation
  multiplies each deviation by the reciprocal square root of the variance plus a small constant.
  The three literals are kept as the binary words both programs carry: they are never evaluated.
-/
import Idealize.ShloMosaic.PureOps.Ideal
import Idealize.ShloMosaic.PureOps.Ideal.Laws
import Idealize.ShloMosaic.Lib.ValueIdx

noncomputable section

namespace Cert.GraphNet

open Idealize.ShloMosaic

/-- A feature row: 256 extended reals. -/
abbrev Row := Fin 256 → EReal
/-- A square weight matrix, indexed (input feature, output feature). -/
abbrev Mat := Fin 256 → Fin 256 → EReal

/-- `silu x = x · logistic x`. -/
def silu (x : EReal) : EReal := x * Ideal.logistic x

/-- The word both programs divide a row's sum by: the f32 pattern of 256. -/
def w256 : EReal := Ideal.ofBits .f32 0x43800000#32
/-- The word both programs add under the reciprocal square root: the f32 pattern nearest 1e-5. -/
def wEps : EReal := Ideal.ofBits .f32 0x3727C5AC#32

/-- A row times a matrix: entry `j` is the sum over `k` of `a k · W k j`. -/
def rowMul (a : Row) (W : Mat) : Row := fun j => ∑ k : Fin 256, a k * W k j

/-- The mean of a row: its sum divided by 256. -/
def rowMean (y : Row) : EReal := Ideal.div (∑ k : Fin 256, y k) w256

/-- The mean of the squared deviations of a row from its mean. -/
def rowVar (y : Row) : EReal := rowMean fun k => (y k - rowMean y) * (y k - rowMean y)

/-- Layer normalisation of a row, with scale `g` and shift `b`. -/
def layerNorm (y g b : Row) : Row := fun j =>
  (y j - rowMean y) * Ideal.rsqrt (rowVar y + wEps) * g j + b j

/-- The hidden row of a two-layer update: `silu` of the pre-activation `z`, times `W`, plus `b`. -/
def hidden (z : Row) (W : Mat) (b : Row) : Row := fun j => rowMul (fun k => silu (z k)) W j + b j

/-- An edge's new row, from the rows of its source node `hs`, its destination node `hd` and its own `e`. -/
def edgeRow (hs hd e : Row) (Wsrc Wdst We Wout : Mat) (bsrc bout g beta : Row) : Row :=
  layerNorm (fun j => e j + hidden (fun j => ((rowMul hs Wsrc j + rowMul hd Wdst j) + rowMul e We j) + bsrc j) Wout bout j) g beta

/-- A node's new row, from its own row `h` and the sum `agg` of the rows of the edges that point at it. -/
def nodeRow (h agg : Row) (Wa Wb W2 : Mat) (b1 b2 g beta : Row) : Row :=
  layerNorm (fun j => h j + hidden (fun j => (rowMul h Wa j + rowMul agg Wb j) + b1 j) W2 b2 j) g beta

/-! ## Arrays as rows

An array of shape `[n, 256]` is `n` rows; a `[256, 256]` array is a matrix; a bias is stored either as a `[256]` array
or as a `[1, 256]` array. -/

open Idealize.ShloMosaic.ValueIdx

/-- Row `r` of an `[n, 256]` array. -/
def rows {n : Nat} (x : (⟨2, ![n, 256]⟩ : Shape).Idx → EReal) (r : Fin n) : Row := fun k => x (ix2 r k)
/-- A `[256, 256]` array as a matrix. -/
def mat (x : (⟨2, ![256, 256]⟩ : Shape).Idx → EReal) : Mat := fun k j => x (ix2 k j)
/-- A `[256]` array as a row. -/
def vec1 (x : (⟨1, ![256]⟩ : Shape).Idx → EReal) : Row := fun j => x (ix1 j)
/-- A `[1, 256]` array as a row. -/
def vec2 (x : (⟨2, ![1, 256]⟩ : Shape).Idx → EReal) : Row := fun j => x (ix2 0 j)
/-- Rows 0 … 255 of a `[512, 256]` array as a matrix. -/
def matTop (x : (⟨2, ![512, 256]⟩ : Shape).Idx → EReal) : Mat :=
  fun k j => x (ix2 (⟨k.val, by have := k.isLt; omega⟩ : Fin 512) j)
/-- Rows 256 … 511 of a `[512, 256]` array as a matrix. -/
def matBot (x : (⟨2, ![512, 256]⟩ : Shape).Idx → EReal) : Mat :=
  fun k j => x (ix2 (⟨256 + k.val, by have := k.isLt; omega⟩ : Fin 512) j)

/-- The edge update of a whole `[n, 256]` array of edges, row by row: entry `(r, j)` is entry `j` of `edgeRow` of the
    three arrays' rows `r`. -/
def edgeOf {n : Nat} (hs hd e : (⟨2, ![n, 256]⟩ : Shape).Idx → EReal) (Wsrc Wdst We Wout : Mat) (bsrc bout g beta : Row) :
    (⟨2, ![n, 256]⟩ : Shape).Idx → EReal :=
  fun i => edgeRow (rows hs (i 0)) (rows hd (i 0)) (rows e (i 0)) Wsrc Wdst We Wout bsrc bout g beta (i 1)

/-- The node update of a whole `[n, 256]` array of nodes, row by row. -/
def nodeOf {n : Nat} (h agg : (⟨2, ![n, 256]⟩ : Shape).Idx → EReal) (Wa Wb W2 : Mat) (b1 b2 g beta : Row) :
    (⟨2, ![n, 256]⟩ : Shape).Idx → EReal :=
  fun i => nodeRow (rows h (i 0)) (rows agg (i 0)) Wa Wb W2 b1 b2 g beta (i 1)

theorem edgeOf_apply {n : Nat} (hs hd e : (⟨2, ![n, 256]⟩ : Shape).Idx → EReal) (Wsrc Wdst We Wout : Mat) (bsrc bout g beta : Row)
    (r : Fin n) (j : Fin 256) :
    edgeOf hs hd e Wsrc Wdst We Wout bsrc bout g beta (ix2 r j)
      = edgeRow (rows hs r) (rows hd r) (rows e r) Wsrc Wdst We Wout bsrc bout g beta j := rfl

theorem nodeOf_apply {n : Nat} (h agg : (⟨2, ![n, 256]⟩ : Shape).Idx → EReal) (Wa Wb W2 : Mat) (b1 b2 g beta : Row)
    (r : Fin n) (j : Fin 256) :
    nodeOf h agg Wa Wb W2 b1 b2 g beta (ix2 r j) = nodeRow (rows h r) (rows agg r) Wa Wb W2 b1 b2 g beta j := rfl

/-! ## The index array's domain -/

/-- Every entry of the `[2, 320000]` index array is a row number of the `[20000, 256]` node table: at least 0 and below
    20000 as signed 32-bit words (the two comparisons the precondition makes, entry by entry). -/
def InRange (x2 : (⟨2, ![2, 320000]⟩ : Shape).Idx → BitVec 32) : Prop :=
  ∀ i, IntOp.cmpi .sge (x2 i) 0#32 = 1#1 ∧ IntOp.cmpi .slt (x2 i) 20000#32 = 1#1

end Cert.GraphNet

end
-- ==== Proof.EdgeBlock.lean ====
/- The edge kernel's body at one entry: what it stores at row `p`, column `q` of its output block is the edge update
   `edgeRow` of rows `p` of its three row blocks, the four weight blocks as matrices and the four bias blocks as rows. -/
import proofs.«428125_j68753836474499_1_alg».proof.Proof.Gen.KernelIdeal.Frame
import proofs.«428125_j68753836474499_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Edge

open Cert.KernelIdeal Cert.KernelIdeal.Gen Cert.GraphNet

/-! ## One matrix product at an entry

The product's dimension numbers contract axis 1 of the left block with axis 0 of the right block.  At output entry `i` and
contraction coordinate `c` the left operand is read at `(i 0, c)` and the right operand at `(c, i 1)`: one fact per axis. -/

private theorem lhs_axis0 (i : S1280x256.Idx) (c : dot_S1280x256_S256x256_S1280x256_1_0_0_1_n_n.contr.Idx) :
    (dot_S1280x256_S256x256_S1280x256_1_0_0_1_n_n.lhsIdx i c 0).val = (i 0).val := by
  unfold DotDims.lhsIdx
  rw [dif_neg (show ¬(0 : Fin S1280x256.rank) ∈ dot_S1280x256_S256x256_S1280x256_1_0_0_1_n_n.lhsBatch by decide), dif_pos (show (0 : Fin S1280x256.rank) ∈ dot_S1280x256_S256x256_S1280x256_1_0_0_1_n_n.lhsNonContracting by decide)]
  rfl
private theorem lhs_axis1 (i : S1280x256.Idx) (c : dot_S1280x256_S256x256_S1280x256_1_0_0_1_n_n.contr.Idx) :
    (dot_S1280x256_S256x256_S1280x256_1_0_0_1_n_n.lhsIdx i c 1).val = (c ⟨0, by decide⟩).val :=
  dot_S1280x256_S256x256_S1280x256_1_0_0_1_n_n.lhsIdx_val_of_single rfl i c
private theorem rhs_axis0 (i : S1280x256.Idx) (c : dot_S1280x256_S256x256_S1280x256_1_0_0_1_n_n.contr.Idx) :
    (dot_S1280x256_S256x256_S1280x256_1_0_0_1_n_n.rhsIdx i c 0).val = (c ⟨0, by decide⟩).val :=
  dot_S1280x256_S256x256_S1280x256_1_0_0_1_n_n.rhsIdx_val_of_single rfl i c
private theorem rhs_axis1 (i : S1280x256.Idx) (c : dot_S1280x256_S256x256_S1280x256_1_0_0_1_n_n.contr.Idx) :
    (dot_S1280x256_S256x256_S1280x256_1_0_0_1_n_n.rhsIdx i c 1).val = (i 1).val := by
  unfold DotDims.rhsIdx
  rw [dif_neg (show ¬(1 : Fin S256x256.rank) ∈ dot_S1280x256_S256x256_S1280x256_1_0_0_1_n_n.rhsBatch by decide), dif_pos (show (1 : Fin S256x256.rank) ∈ dot_S1280x256_S256x256_S1280x256_1_0_0_1_n_n.rhsNonContracting by decide)]
  rfl

/-- A product of a `[1280, 256]` block by a `[256, 256]` block into the zero block, at entry `(p, q)`: the sum over
    `k` of the left block at `(p, k)` times the right block at `(k, q)`.  The contraction's index set is carried onto
    `Fin 256` by its one coordinate. -/
private theorem matmul_at {φ₁ φ₂ : FTy} (a : FVec Ideal S1280x256 φ₁) (b : FVec Ideal S256x256 φ₂) (p : Fin 1280) (q : Fin 256) :
    matmul dot_S1280x256_S256x256_S1280x256_1_0_0_1_n_n none a b (constant (F := Ideal) S1280x256 .f32 0x00000000#32) (ix2 p q)
      = ∑ k : Fin 256, a (ix2 p k) * b (ix2 k q) := by
  simp only [matmul]
  rw [Ideal.matmul_constant_zero_apply, ← Equiv.sum_comp (contrEquiv1 dot_S1280x256_S256x256_S1280x256_1_0_0_1_n_n 256 rfl rfl).symm]
  refine Finset.sum_congr rfl fun k _ => ?_
  have hk := contrEquiv1_symm_val dot_S1280x256_S256x256_S1280x256_1_0_0_1_n_n 256 rfl rfl k
  have el : dot_S1280x256_S256x256_S1280x256_1_0_0_1_n_n.lhsIdx (ix2 p q) ((contrEquiv1 dot_S1280x256_S256x256_S1280x256_1_0_0_1_n_n 256 rfl rfl).symm k) = ix2 p k := funext fun ax => Fin.ext (by
    match ax with
    | ⟨0, _⟩ => exact lhs_axis0 _ _
    | ⟨1, _⟩ => exact (lhs_axis1 _ _).trans hk)
  have er : dot_S1280x256_S256x256_S1280x256_1_0_0_1_n_n.rhsIdx (ix2 p q) ((contrEquiv1 dot_S1280x256_S256x256_S1280x256_1_0_0_1_n_n 256 rfl rfl).symm k) = ix2 k q := funext fun ax => Fin.ext (by
    match ax with
    | ⟨0, _⟩ => exact (rhs_axis0 _ _).trans hk
    | ⟨1, _⟩ => exact rhs_axis1 _ _)
  rw [el, er]

/-! ## Layout operations at an entry -/

/-- An `[a]` array cast to `[a, 1]` reads, at `(i, u)`, the operand at `i`, whatever the unit coordinate `u`: the two
    entries have the same row-major position. -/
private theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at row `p`. -/
private theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, 256]` bias block broadcast over the 1280 rows reads its entry `q` in every row. -/
private theorem rowBcast_at (v : FVec Ideal S1x256 .f32) (p : Fin 1280) (q : Fin 256) :
    broadcastTo S1280x256 v broadcasts_S1x256_S1280x256 (ix2 p q) = vec2 v q :=
  broadcastTo_1b_ab_apply v broadcasts_S1x256_S1280x256 p q

/-- The same after the cast of the bias block to its own shape, which is the identity. -/
private theorem bias_at (v : Vec Ideal S1x256 .f32) (p : Fin 1280) (q : Fin 256) :
    broadcastTo S1280x256 (shapeCast S1x256 v shapeCasts_S1x256_S1x256) broadcasts_S1x256_S1280x256 (ix2 p q) = vec2 v q := by
  rw [shapeCast_self]
  exact rowBcast_at v p q

/-- The sum along the rows of a `[1280, 256]` block, at row `p`: the sum over `k` of the block at `(p, k)` (the reduced
    index `p` with the coordinate `k` put back on axis 1 is `(p, k)`). -/
private theorem rowSum_at (src : FVec Ideal S1280x256 .f32) (hφ : FKind.Formats .f32)
    (hacc : (0x00000000#32 : BitVec 32) = 0x00000000#32) (p : Fin 1280) :
    multiReduction (F := Ideal) .add [1] S1280 src 0x00000000#32 reduces_S1280x256_S1280 hφ hacc (ix1 p)
      = ∑ k : Fin 256, src (ix2 p k) := by
  refine (Ideal.multiReduction_add_single src 0x00000000#32 reduces_S1280x256_S1280 hφ hacc (ix1 p)).trans ?_
  refine Finset.sum_congr rfl fun k _ => congrArg src ?_
  funext ax
  refine Fin.ext ?_
  match ax with
  | ⟨0, _⟩ => rfl
  | ⟨1, _⟩ => rfl

/-- The logistic function of a block at an entry is the logistic function of the entry. -/
private theorem logistic_at {s : Shape} {φ : FTy} (v : FVec Ideal s φ) (i : s.Idx) : logistic v i = Ideal.logistic (v i) := rfl

/-- A `[1280, 1]` column divided by a constant and broadcast over the 256 columns reads, anywhere in row `p`, the
    column's entry `p` divided by the constant. -/
private theorem colDiv_at (s : FVec Ideal S1280x1 .f32) (c : Ideal .f32) (p : Fin 1280) (k : Fin 256) :
    broadcastTo S1280x256 (divf s (broadcast S1280x1 c)) broadcasts_S1280x1_S1280x256 (ix2 p k)
      = Ideal.div (s (ix2 p (0 : Fin 1))) c :=
  (broadcastTo_a1_ab_apply _ broadcasts_S1280x1_S1280x256 p k).trans rfl

/-- The reciprocal square root of a `[1280, 1]` column broadcast over the 256 columns reads, anywhere in row `p`, the
    reciprocal square root of the column's entry `p`. -/
private theorem colRsqrt_at (v : FVec Ideal S1280x1 .f32) (p : Fin 1280) (k : Fin 256) :
    broadcastTo S1280x256 (rsqrt v) broadcasts_S1280x1_S1280x256 (ix2 p k) = Ideal.rsqrt (v (ix2 p (0 : Fin 1))) :=
  (broadcastTo_a1_ab_apply _ broadcasts_S1280x1_S1280x256 p k).trans rfl

/-! ## The three payloads at an entry -/

/-- The residual block at `(p, q)`: the edge's own entry plus the hidden row of the pre-activation
    `hs·Wsrc + hd·Wdst + e·We + bsrc`, the three products added in the order `edgeRow` adds them.  The narrowing of
    each product's operands is the identity on the extended reals. -/
private theorem pay2_at (x0 x1 x2 : Vec Ideal S1280x256 .f32) (x3 x4 x5 x6 : Vec Ideal S256x256 .f32) (x7 x8 : Vec Ideal S1x256 .f32)
    (p : Fin 1280) (q : Fin 256) :
    k0_pay2 x0 x1 x2 x3 x4 x5 x6 x7 x8 (ix2 p q)
      = rows x2 p q + hidden (fun j => ((rowMul (rows x0 p) (mat x3) j + rowMul (rows x1 p) (mat x4) j)
          + rowMul (rows x2 p) (mat x5) j) + vec2 x7 j) (mat x6) (vec2 x8) q := by
  unfold k0_pay2
  rw [addf_apply, addf_apply, matmul_at, bias_at]
  simp only [truncf_apply, mulf_apply, logistic_at, addf_apply, matmul_at, shapeCast_self, rowBcast_at]
  rfl

/-- The row sums of the residual block, kept as a `[1280, 1]` column: at row `p` the sum of the residual block's row `p`. -/
private theorem pay3_at (x0 x1 x2 : Vec Ideal S1280x256 .f32) (x3 x4 x5 x6 : Vec Ideal S256x256 .f32) (x7 x8 : Vec Ideal S1x256 .f32)
    (p : Fin 1280) (u : Fin 1) :
    k0_pay3 x0 x1 x2 x3 x4 x5 x6 x7 x8 (ix2 p u) = ∑ k : Fin 256, k0_pay2 x0 x1 x2 x3 x4 x5 x6 x7 x8 (ix2 p k) := by
  unfold k0_pay3
  generalize k0_pay2 x0 x1 x2 x3 x4 x5 x6 x7 x8 = y
  refine (shapeCast_a_a1_apply _ shapeCasts_S1280_S1280x1 p u).trans ?_
  exact rowSum_at y _ _ p

/-- The normalisation of a residual block `y`, given its row sums as a `[1280, 1]` column `s`: at `(p, q)` it is the
    layer normalisation of row `p` of `y`, scaled by the block `g` and shifted by the block `b`.  The mean is the row
    sum divided by the word of 256, the variance the row sum of the squared deviations divided by the same word, and the
    small constant under the reciprocal square root is the same word on both sides. -/
private theorem pay1_at (y : FVec Ideal S1280x256 .f32) (s : FVec Ideal S1280x1 .f32) (g b : Vec Ideal S1x256 .f32)
    (p : Fin 1280) (q : Fin 256) (hs : s (ix2 p (0 : Fin 1)) = ∑ k : Fin 256, y (ix2 p k)) :
    k0_pay1 y s g b (ix2 p q) = layerNorm (rows y p) (vec2 g) (vec2 b) q := by
  unfold k0_pay1
  rw [addf_apply, mulf_apply, mulf_apply, subf_apply, colDiv_at, colRsqrt_at, bias_at, bias_at,
    addf_apply, divf_apply, broadcast_apply, broadcast_apply,
    shapeCast_a_a1_apply _ shapeCasts_S1280_S1280x1 p (0 : Fin 1), rowSum_at]
  simp only [mulf_apply, subf_apply, colDiv_at]
  rw [hs]
  rfl

/-- The stored block at an entry. -/
theorem out_apply (x0 x1 x2 : Vec Ideal S1280x256 .f32) (x3 x4 x5 x6 : Vec Ideal S256x256 .f32) (x7 x8 x9 x10 : Vec Ideal S1x256 .f32)
    (p : Fin 1280) (q : Fin 256) :
    out0_11 (F := Ideal) x0 x1 x2 x3 x4 x5 x6 x7 x8 x9 x10 (ix2 p q)
      = edgeRow (rows x0 p) (rows x1 p) (rows x2 p) (mat x3) (mat x4) (mat x5) (mat x6) (vec2 x7) (vec2 x8) (vec2 x9) (vec2 x10) q := by
  have hz : (![0, 0] : Fin 2 → Nat) = fun _ => 0 := funext fun a => by fin_cases a <;> rfl
  -- the one store covers the block, and each load reads its whole block
  unfold out0_11
  rw [View.canon_unit_zero hz]
  simp only [View.ld_unit_zero (S := S1280x256) hz, View.ld_unit_zero (S := S256x256) hz, View.ld_unit_zero (S := S1x256) hz]
  -- the normalisation of the residual block, whose row sums are the second payload
  refine (pay1_at _ _ x9 x10 p q (pay3_at x0 x1 x2 x3 x4 x5 x6 x7 x8 p 0)).trans ?_
  -- row `p` of the residual block is the row `edgeRow` normalises
  have hrow : rows (k0_pay2 x0 x1 x2 x3 x4 x5 x6 x7 x8) p
      = fun j => rows x2 p j + hidden (fun j => ((rowMul (rows x0 p) (mat x3) j + rowMul (rows x1 p) (mat x4) j)
          + rowMul (rows x2 p) (mat x5) j) + vec2 x7 j) (mat x6) (vec2 x8) j :=
    funext fun j => pay2_at x0 x1 x2 x3 x4 x5 x6 x7 x8 p j
  rw [hrow]
  rfl

/-- The stored block is the row-by-row edge update of the blocks. -/
theorem out_eq (x0 x1 x2 : Vec Ideal S1280x256 .f32) (x3 x4 x5 x6 : Vec Ideal S256x256 .f32) (x7 x8 x9 x10 : Vec Ideal S1x256 .f32) :
    out0_11 (F := Ideal) x0 x1 x2 x3 x4 x5 x6 x7 x8 x9 x10
      = edgeOf (n := 1280) x0 x1 x2 (mat x3) (mat x4) (mat x5) (mat x6) (vec2 x7) (vec2 x8) (vec2 x9) (vec2 x10) :=
  funext fun i => by rw [eq_ix2 i]; exact out_apply x0 x1 x2 x3 x4 x5 x6 x7 x8 x9 x10 (i 0) (i 1)

end Cert.KernelIdeal.Edge

end
-- ==== Proof.EdgeArray.lean ====
/- From blocks to the array, edge region: grid point `t` of 250 writes rows `1280 t … 1280 t + 1279` of the edge result, and
   each row of the result depends only on the same row of the three row arrays, so the whole array after the region is
   the row-by-row edge update of the arrays the region was entered with. -/
import proofs.«428125_j68753836474499_1_alg».proof.Proof.Gen.KernelIdeal.Frame
import proofs.«428125_j68753836474499_1_alg».proof.Proof.Spec
import proofs.«428125_j68753836474499_1_alg».proof.Proof.EdgeBlock
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Edge

open Cert.KernelIdeal Cert.KernelIdeal.Gen Cert.GraphNet

variable (V : (c : Dev nD) → (b : Ref sig .tc) → Buf (Elt Ideal) ((c : Thread nD τ).loc b))

/-- The edge result as a function of the contents region 0 is entered with. -/
abbrev edgeResult (c : Dev nD) : Buf (Elt Ideal) ((c : Thread nD τ).loc main_v10) :=
  edgeOf (n := 320000) (V c main_v4) (V c main_v5) (V c main_arg1) (mat (V c main_arg3)) (mat (V c main_arg5)) (mat (V c main_arg6))
    (mat (V c main_arg7)) (vec2 (V c main_v6)) (vec2 (V c main_v7)) (vec2 (V c main_v8)) (vec2 (V c main_v9))

/-- The index maps over the grid's 250 points: the three row arrays and the result move one block of 1280 rows per
    point, on block column 0. -/
private theorem index_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_11.index t (0 : Fin 2) = t.val ∧ win0_11.index t (1 : Fin 2) = 0) :=
  (by decide +kernel : ∀ t : Fin grid0.N, _)

/-- The weights and the biases stay at block (0, 0) at every point. -/
private theorem index_facts_whole : ∀ t : Fin cfg0.N,
    (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0) :=
  (by decide +kernel : ∀ t : Fin grid0.N, _)

/-- Window 0's block at point t is rows 1280 t … 1280 t + 1279 of its array. -/
private theorem rowBlock0_apply (c : Dev nD) (t : Fin cfg0.N) (y : S1280x256.Idx) (k : S320000x256.Idx)
    (hk0 : (k 0).val = 1280 * t.val + (y 0).val) (hk1 : (k 1).val = (y 1).val) :
    (iblk0 V c 0 t : Vec Ideal S1280x256 .f32) y = (V c main_v4 : S320000x256.Idx → EReal) k := by
  obtain ⟨⟨h0, h1⟩, -⟩ := index_facts t
  unfold iblk0
  rw [View.read_apply]
  show V c main_v4 _ = V c main_v4 _
  congr 1
  funext a
  apply Fin.ext
  match a with
  | ⟨0, _⟩ => show win0_0.index t 0 * 1280 + 1 * (y 0).val = (k 0).val; rw [h0, hk0]; omega
  | ⟨1, _⟩ => show win0_0.index t 1 * 256 + 1 * (y 1).val = (k 1).val; rw [h1, hk1]; omega

/-- A weight window's block is its whole array. -/
private theorem wholeBlock3 (c : Dev nD) (t : Fin cfg0.N) :
    (iblk0 V c 3 t : Vec Ideal S256x256 .f32) = (V c main_arg3 : S256x256.Idx → EReal) := by
  obtain ⟨⟨h0, h1⟩, -⟩ := index_facts_whole t
  funext y
  unfold iblk0
  rw [View.read_apply]
  show V c main_arg3 _ = V c main_arg3 _
  congr 1
  funext a
  apply Fin.ext
  match a with
  | ⟨0, _⟩ => show win0_3.index t 0 * 256 + 1 * (y 0).val = (y 0).val; rw [h0]; omega
  | ⟨1, _⟩ => show win0_3.index t 1 * 256 + 1 * (y 1).val = (y 1).val; rw [h1]; omega

/-- A bias window's block is its whole array. -/
private theorem wholeBlock7 (c : Dev nD) (t : Fin cfg0.N) :
    (iblk0 V c 7 t : Vec Ideal S1x256 .f32) = (V c main_v6 : S1x256.Idx → EReal) := by
  obtain ⟨-, -, -, -, ⟨h0, h1⟩, -⟩ := index_facts_whole t
  funext y
  unfold iblk0
  rw [View.read_apply]
  show V c main_v6 _ = V c main_v6 _
  congr 1
  funext a
  apply Fin.ext
  match a with
  | ⟨0, _⟩ => show win0_7.index t 0 * 1 + 1 * (y 0).val = (y 0).val; rw [h0]; omega
  | ⟨1, _⟩ => show win0_7.index t 1 * 256 + 1 * (y 1).val = (y 1).val; rw [h1]; omega

/-- Window 1's block at point t is rows 1280 t … 1280 t + 1279 of its array. -/
private theorem rowBlock1_apply (c : Dev nD) (t : Fin cfg0.N) (y : S1280x256.Idx) (k : S320000x256.Idx)
    (hk0 : (k 0).val = 1280 * t.val + (y 0).val) (hk1 : (k 1).val = (y 1).val) :
    (iblk0 V c 1 t : Vec Ideal S1280x256 .f32) y = (V c main_v5 : S320000x256.Idx → EReal) k := by
  obtain ⟨-, ⟨h0, h1⟩, -⟩ := index_facts t
  unfold iblk0
  rw [View.read_apply]
  show V c main_v5 _ = V c main_v5 _
  congr 1
  funext a
  apply Fin.ext
  match a with
  | ⟨0, _⟩ => show win0_1.index t 0 * 1280 + 1 * (y 0).val = (k 0).val; rw [h0, hk0]; omega
  | ⟨1, _⟩ => show win0_1.index t 1 * 256 + 1 * (y 1).val = (k 1).val; rw [h1, hk1]; omega

/-- Window 2's block at point t is rows 1280 t … 1280 t + 1279 of its array. -/
private theorem rowBlock2_apply (c : Dev nD) (t : Fin cfg0.N) (y : S1280x256.Idx) (k : S320000x256.Idx)
    (hk0 : (k 0).val = 1280 * t.val + (y 0).val) (hk1 : (k 1).val = (y 1).val) :
    (iblk0 V c 2 t : Vec Ideal S1280x256 .f32) y = (V c main_arg1 : S320000x256.Idx → EReal) k := by
  obtain ⟨-, -, ⟨h0, h1⟩, -⟩ := index_facts t
  unfold iblk0
  rw [View.read_apply]
  show V c main_arg1 _ = V c main_arg1 _
  congr 1
  funext a
  apply Fin.ext
  match a with
  | ⟨0, _⟩ => show win0_2.index t 0 * 1280 + 1 * (y 0).val = (k 0).val; rw [h0, hk0]; omega
  | ⟨1, _⟩ => show win0_2.index t 1 * 256 + 1 * (y 1).val = (k 1).val; rw [h1, hk1]; omega

/-- The edge update of a block of 1280 rows that sits at rows 1280 n … of three arrays of 320000 rows is the same rows of
    the arrays' edge update: an entry of the update depends only on its own row of the three arrays. -/
private theorem edgeOf_rowBlock (X0 X1 X2 : S320000x256.Idx → EReal) (x0 x1 x2 : S1280x256.Idx → EReal)
    (Wsrc Wdst We Wout : Mat) (bsrc bout g beta : Row) (n : Nat)
    (h0 : ∀ (y : S1280x256.Idx) (k : S320000x256.Idx), (k 0).val = 1280 * n + (y 0).val → (k 1).val = (y 1).val → x0 y = X0 k)
    (h1 : ∀ (y : S1280x256.Idx) (k : S320000x256.Idx), (k 0).val = 1280 * n + (y 0).val → (k 1).val = (y 1).val → x1 y = X1 k)
    (h2 : ∀ (y : S1280x256.Idx) (k : S320000x256.Idx), (k 0).val = 1280 * n + (y 0).val → (k 1).val = (y 1).val → x2 y = X2 k)
    (y : S1280x256.Idx) (i : S320000x256.Idx) (hi0 : (i 0).val = 1280 * n + (y 0).val) (hi1 : (i 1).val = (y 1).val) :
    edgeOf (n := 1280) x0 x1 x2 Wsrc Wdst We Wout bsrc bout g beta y
      = edgeOf (n := 320000) X0 X1 X2 Wsrc Wdst We Wout bsrc bout g beta i := by
  obtain ⟨p, q, rfl⟩ : ∃ (p : Fin 1280) (q : Fin 256), y = ix2 p q := ⟨y 0, y 1, eq_ix2 y⟩
  obtain ⟨r, s, rfl⟩ : ∃ (r : Fin 320000) (s : Fin 256), i = ix2 r s := ⟨i 0, i 1, eq_ix2 i⟩
  have hr : r.val = 1280 * n + p.val := hi0
  have hs : s = q := Fin.ext hi1
  subst hs
  rw [edgeOf_apply, edgeOf_apply]
  have e0 : rows x0 p = rows X0 r := funext fun k => h0 (ix2 p k) (ix2 r k) hr rfl
  have e1 : rows x1 p = rows X1 r := funext fun k => h1 (ix2 p k) (ix2 r k) hr rfl
  have e2 : rows x2 p = rows X2 r := funext fun k => h2 (ix2 p k) (ix2 r k) hr rfl
  rw [e0, e1, e2]

/-- A weight window's block is its whole array. -/
private theorem wholeBlock4 (c : Dev nD) (t : Fin cfg0.N) :
    (iblk0 V c 4 t : Vec Ideal S256x256 .f32) = (V c main_arg5 : S256x256.Idx → EReal) := by
  obtain ⟨-, ⟨h0, h1⟩, -⟩ := index_facts_whole t
  funext y
  unfold iblk0
  rw [View.read_apply]
  show V c main_arg5 _ = V c main_arg5 _
  congr 1
  funext a
  apply Fin.ext
  match a with
  | ⟨0, _⟩ => show win0_4.index t 0 * 256 + 1 * (y 0).val = (y 0).val; rw [h0]; omega
  | ⟨1, _⟩ => show win0_4.index t 1 * 256 + 1 * (y 1).val = (y 1).val; rw [h1]; omega

/-- A weight window's block is its whole array. -/
private theorem wholeBlock5 (c : Dev nD) (t : Fin cfg0.N) :
    (iblk0 V c 5 t : Vec Ideal S256x256 .f32) = (V c main_arg6 : S256x256.Idx → EReal) := by
  obtain ⟨-, -, ⟨h0, h1⟩, -⟩ := index_facts_whole t
  funext y
  unfold iblk0
  rw [View.read_apply]
  show V c main_arg6 _ = V c main_arg6 _
  congr 1
  funext a
  apply Fin.ext
  match a with
  | ⟨0, _⟩ => show win0_5.index t 0 * 256 + 1 * (y 0).val = (y 0).val; rw [h0]; omega
  | ⟨1, _⟩ => show win0_5.index t 1 * 256 + 1 * (y 1).val = (y 1).val; rw [h1]; omega

/-- A weight window's block is its whole array. -/
private theorem wholeBlock6 (c : Dev nD) (t : Fin cfg0.N) :
    (iblk0 V c 6 t : Vec Ideal S256x256 .f32) = (V c main_arg7 : S256x256.Idx → EReal) := by
  obtain ⟨-, -, -, ⟨h0, h1⟩, -⟩ := index_facts_whole t
  funext y
  unfold iblk0
  rw [View.read_apply]
  show V c main_arg7 _ = V c main_arg7 _
  congr 1
  funext a
  apply Fin.ext
  match a with
  | ⟨0, _⟩ => show win0_6.index t 0 * 256 + 1 * (y 0).val = (y 0).val; rw [h0]; omega
  | ⟨1, _⟩ => show win0_6.index t 1 * 256 + 1 * (y 1).val = (y 1).val; rw [h1]; omega

/-- A bias window's block is its whole array. -/
private theorem wholeBlock8 (c : Dev nD) (t : Fin cfg0.N) :
    (iblk0 V c 8 t : Vec Ideal S1x256 .f32) = (V c main_v7 : S1x256.Idx → EReal) := by
  obtain ⟨-, -, -, -, -, ⟨h0, h1⟩, -⟩ := index_facts_whole t
  funext y
  unfold iblk0
  rw [View.read_apply]
  show V c main_v7 _ = V c main_v7 _
  congr 1
  funext a
  apply Fin.ext
  match a with
  | ⟨0, _⟩ => show win0_8.index t 0 * 1 + 1 * (y 0).val = (y 0).val; rw [h0]; omega
  | ⟨1, _⟩ => show win0_8.index t 1 * 256 + 1 * (y 1).val = (y 1).val; rw [h1]; omega

/-- A bias window's block is its whole array. -/
private theorem wholeBlock9 (c : Dev nD) (t : Fin cfg0.N) :
    (iblk0 V c 9 t : Vec Ideal S1x256 .f32) = (V c main_v8 : S1x256.Idx → EReal) := by
  obtain ⟨-, -, -, -, -, -, ⟨h0, h1⟩, -⟩ := index_facts_whole t
  funext y
  unfold iblk0
  rw [View.read_apply]
  show V c main_v8 _ = V c main_v8 _
  congr 1
  funext a
  apply Fin.ext
  match a with
  | ⟨0, _⟩ => show win0_9.index t 0 * 1 + 1 * (y 0).val = (y 0).val; rw [h0]; omega
  | ⟨1, _⟩ => show win0_9.index t 1 * 256 + 1 * (y 1).val = (y 1).val; rw [h1]; omega

/-- A bias window's block is its whole array. -/
private theorem wholeBlock10 (c : Dev nD) (t : Fin cfg0.N) :
    (iblk0 V c 10 t : Vec Ideal S1x256 .f32) = (V c main_v9 : S1x256.Idx → EReal) := by
  obtain ⟨-, -, -, -, -, -, -, ⟨h0, h1⟩⟩ := index_facts_whole t
  funext y
  unfold iblk0
  rw [View.read_apply]
  show V c main_v9 _ = V c main_v9 _
  congr 1
  funext a
  apply Fin.ext
  match a with
  | ⟨0, _⟩ => show win0_10.index t 0 * 1 + 1 * (y 0).val = (y 0).val; rw [h0]; omega
  | ⟨1, _⟩ => show win0_10.index t 1 * 256 + 1 * (y 1).val = (y 1).val; rw [h1]; omega

/-- What point t writes back is block t of the edge update of the entry arrays. -/
private theorem flushed_edge (c : Dev nD) (t : Fin cfg0.N) :
    (dat0 (F := Ideal) V c).flushed 11 t = ((cfg0.win 11).blk t).view.read (Elt Ideal) (edgeResult V c) := by
  show (cfg0.win 11).cut (grid0.coords t) ((dat0 (F := Ideal) V c).after 11 t) = _
  rw [after0_11, Cert.KernelIdeal.Edge.out_eq]
  rw [wholeBlock3, wholeBlock4, wholeBlock5, wholeBlock6, wholeBlock7, wholeBlock8, wholeBlock9, wholeBlock10]
  obtain ⟨-, -, -, ⟨e0, e1⟩⟩ := index_facts t
  funext y
  rw [View.read_apply]
  show edgeOf (n := 1280) _ _ _ _ _ _ _ _ _ _ _ y = edgeResult V c (((cfg0.win 11).blk t).view.emb y)
  refine edgeOf_rowBlock _ _ _ _ _ _ _ _ _ _ _ _ _ _ t.val (rowBlock0_apply V c t) (rowBlock1_apply V c t) (rowBlock2_apply V c t) y _ ?_ ?_
  · show win0_11.index t 0 * 1280 + 1 * (y 0).val = 1280 * t.val + (y 0).val
    rw [e0]; omega
  · show win0_11.index t 1 * 256 + 1 * (y 1).val = (y 1).val
    rw [e1]; omega

/-- Row r of the result lies in the block of point r / 1280. -/
private theorem cover_edge (i : S320000x256.Idx) :
    ∃ t : Fin cfg0.N, (cfg0.win 11).flush t = true ∧ i ∈ ((cfg0.win 11).blk t).view.set := by
  have hi0 : (i 0).val < 320000 := (i 0).isLt
  have hi1 : (i 1).val < 256 := (i 1).isLt
  have hN : cfg0.N = 250 := N_0
  have ht : (i 0).val / 1280 < cfg0.N := by rw [hN]; omega
  refine ⟨⟨(i 0).val / 1280, ht⟩, flush0_11 _, ?_⟩
  obtain ⟨-, -, -, ⟨e0, e1⟩⟩ := index_facts ⟨(i 0).val / 1280, ht⟩
  show i ∈ ((View.whole main_v10).slice (win0_11.rect ⟨(i 0).val / 1280, ht⟩)).set
  rw [View.set_slice_whole, Rect.mem_set_unit]
  intro a
  match a with
  | ⟨0, _⟩ =>
    show win0_11.index ⟨(i 0).val / 1280, ht⟩ 0 * 1280 ≤ (i 0).val ∧ (i 0).val < win0_11.index ⟨(i 0).val / 1280, ht⟩ 0 * 1280 + 1280
    rw [e0]; show (i 0).val / 1280 * 1280 ≤ (i 0).val ∧ (i 0).val < (i 0).val / 1280 * 1280 + 1280; omega
  | ⟨1, _⟩ =>
    show win0_11.index ⟨(i 0).val / 1280, ht⟩ 1 * 256 ≤ (i 1).val ∧ (i 1).val < win0_11.index ⟨(i 0).val / 1280, ht⟩ 1 * 256 + 256
    rw [e1]; omega

/-- The output array after region 0's last grid point. -/
theorem arrAt_edge (c : Dev nD) : (dat0 (F := Ideal) V c).arrAt 11 cfg0.N = edgeResult V c :=
  (dat0 (F := Ideal) V c).arrAt_eq_of_cover 11 (edgeResult V c) (fun t _ => flushed_edge V c t) cover_edge

end Cert.KernelIdeal.Edge

end
-- ==== Proof.NodeBlock.lean ====
/- The node kernel's body at one entry: what it stores at row `p`, column `q` of its output block is the node update
   `nodeRow` of rows `p` of its two row blocks, the three weight blocks as matrices and the four bias blocks as rows. -/
import proofs.«428125_j68753836474499_1_alg».proof.Proof.Gen.KernelIdeal.Frame
import proofs.«428125_j68753836474499_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Node

open Cert.KernelIdeal Cert.KernelIdeal.Gen Cert.GraphNet

/-! ## Layout operations at an index: the column forms -/

/-- An `[a]` array cast to `[a, 1]` reads, at `(r, u)`, the operand at `r`, whatever the unit coordinate `u`. -/
private theorem shapeCast_a_a1_apply {a : ℕ} {α : Type} (x : (⟨1, ![a]⟩ : Shape).Idx → α)
    (h : (⟨1, ![a]⟩ : Shape).ShapeCasts ⟨2, ![a, 1]⟩) (r : Fin a) (u : Fin 1) :
    shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- An `[a, 1]` column broadcast to `[a, b]` reads, at `(p, c)`, the column's entry of row `p`. -/
private theorem broadcastTo_a1_ab_apply {a b : ℕ} {α : Type} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The lane sum of a block's row -/

/-- The sum over the lanes of a `[1000, 256]` block, read at row `r`, is the sum of that row's 256 entries. -/
private theorem laneSum_apply (src : FVec Ideal S1000x256 .f32) (h : S1000x256.Reduces [1] S1000) (hφ : FKind.Formats .f32)
    (hacc : (0x00000000#32 : BitVec 32) = FKind.add.neutral .f32 hφ) (r : Fin 1000) :
    multiReduction (F := Ideal) .add [1] S1000 src 0x00000000#32 h hφ hacc (ix1 r) = ∑ k : Fin 256, src (ix2 r k) := by
  refine (Ideal.multiReduction_add_single src 0x00000000#32 h hφ hacc (ix1 r)).trans ?_
  refine Finset.sum_congr rfl fun k _ => congrArg src (funext fun a => Fin.ext ?_)
  match a with
  | ⟨0, _⟩ => rfl
  | ⟨1, _⟩ => rfl

/-! ## The matrix product of a row block with a weight block -/

private theorem lhs_axis0 (i : S1000x256.Idx) (q : dot_S1000x256_S256x256_S1000x256_1_0_0_1_n_n.contr.Idx) :
    (dot_S1000x256_S256x256_S1000x256_1_0_0_1_n_n.lhsIdx i q 0).val = (i 0).val := by
  unfold DotDims.lhsIdx
  rw [dif_neg (show ¬(0 : Fin S1000x256.rank) ∈ dot_S1000x256_S256x256_S1000x256_1_0_0_1_n_n.lhsBatch by decide), dif_pos (show (0 : Fin S1000x256.rank) ∈ dot_S1000x256_S256x256_S1000x256_1_0_0_1_n_n.lhsNonContracting by decide)]
  rfl
private theorem lhs_axis1 (i : S1000x256.Idx) (q : dot_S1000x256_S256x256_S1000x256_1_0_0_1_n_n.contr.Idx) :
    (dot_S1000x256_S256x256_S1000x256_1_0_0_1_n_n.lhsIdx i q 1).val = (q ⟨0, by decide⟩).val :=
  dot_S1000x256_S256x256_S1000x256_1_0_0_1_n_n.lhsIdx_val_of_single rfl i q
private theorem rhs_axis0 (i : S1000x256.Idx) (q : dot_S1000x256_S256x256_S1000x256_1_0_0_1_n_n.contr.Idx) :
    (dot_S1000x256_S256x256_S1000x256_1_0_0_1_n_n.rhsIdx i q 0).val = (q ⟨0, by decide⟩).val :=
  dot_S1000x256_S256x256_S1000x256_1_0_0_1_n_n.rhsIdx_val_of_single rfl i q
private theorem rhs_axis1 (i : S1000x256.Idx) (q : dot_S1000x256_S256x256_S1000x256_1_0_0_1_n_n.contr.Idx) :
    (dot_S1000x256_S256x256_S1000x256_1_0_0_1_n_n.rhsIdx i q 1).val = (i 1).val := by
  unfold DotDims.rhsIdx
  rw [dif_neg (show ¬(1 : Fin S256x256.rank) ∈ dot_S1000x256_S256x256_S1000x256_1_0_0_1_n_n.rhsBatch by decide), dif_pos (show (1 : Fin S256x256.rank) ∈ dot_S1000x256_S256x256_S1000x256_1_0_0_1_n_n.rhsNonContracting by decide)]
  rfl

/-- The product of a `[1000, 256]` block with a `[256, 256]` block into the zero block, read at `(p, q)`: the sum over
    `k` of the left block's `(p, k)` times the right block's `(k, q)`. -/
private theorem matmul_at {φ₁ φ₂ : FTy} (A : FVec Ideal S1000x256 φ₁) (B : FVec Ideal S256x256 φ₂) (p : Fin 1000) (q : Fin 256) :
    matmul dot_S1000x256_S256x256_S1000x256_1_0_0_1_n_n none A B (constant (F := Ideal) S1000x256 .f32 0x00000000#32) (ix2 p q)
      = ∑ k : Fin 256, A (ix2 p k) * B (ix2 k q) := by
  simp only [matmul]
  rw [Ideal.matmul_constant_zero_apply, ← Equiv.sum_comp (contrEquiv1 dot_S1000x256_S256x256_S1000x256_1_0_0_1_n_n 256 rfl rfl).symm]
  refine Finset.sum_congr rfl fun k _ => ?_
  have hk := contrEquiv1_symm_val dot_S1000x256_S256x256_S1000x256_1_0_0_1_n_n 256 rfl rfl k
  have el : dot_S1000x256_S256x256_S1000x256_1_0_0_1_n_n.lhsIdx (ix2 p q) ((contrEquiv1 dot_S1000x256_S256x256_S1000x256_1_0_0_1_n_n 256 rfl rfl).symm k) = ix2 p k := funext fun a => Fin.ext (by
    match a with
    | ⟨0, _⟩ => exact lhs_axis0 _ _
    | ⟨1, _⟩ => exact (lhs_axis1 _ _).trans hk)
  have er : dot_S1000x256_S256x256_S1000x256_1_0_0_1_n_n.rhsIdx (ix2 p q) ((contrEquiv1 dot_S1000x256_S256x256_S1000x256_1_0_0_1_n_n 256 rfl rfl).symm k) = ix2 k q := funext fun a => Fin.ext (by
    match a with
    | ⟨0, _⟩ => exact (rhs_axis0 _ _).trans hk
    | ⟨1, _⟩ => exact rhs_axis1 _ _)
  rw [el, er]

/-! ## The residual row -/

/-- The pre-activation block at `(p, k)`: the two products' sum, plus the bias. -/
private theorem preact_apply (A B : FVec Ideal S1000x256 .f32) (Wa Wb : FVec Ideal S256x256 .f32) (b1 : FVec Ideal S1x256 .f32)
    (ht : FTy.bits .bf16 < FTy.bits .f32) (hb : S1x256.Broadcasts S1000x256) (p : Fin 1000) (k : Fin 256) :
    addf (addf (matmul dot_S1000x256_S256x256_S1000x256_1_0_0_1_n_n none (truncf .bf16 A ht) (truncf .bf16 Wa ht) (constant (F := Ideal) S1000x256 .f32 0x00000000#32))
               (matmul dot_S1000x256_S256x256_S1000x256_1_0_0_1_n_n none (truncf .bf16 B ht) (truncf .bf16 Wb ht) (constant (F := Ideal) S1000x256 .f32 0x00000000#32)))
         (broadcastTo S1000x256 b1 hb) (ix2 p k)
      = (rowMul (rows A p) (mat Wa) k + rowMul (rows B p) (mat Wb) k) + vec2 b1 k := by
  show (matmul dot_S1000x256_S256x256_S1000x256_1_0_0_1_n_n none (truncf .bf16 A ht) (truncf .bf16 Wa ht) (constant (F := Ideal) S1000x256 .f32 0x00000000#32) (ix2 p k)
        + matmul dot_S1000x256_S256x256_S1000x256_1_0_0_1_n_n none (truncf .bf16 B ht) (truncf .bf16 Wb ht) (constant (F := Ideal) S1000x256 .f32 0x00000000#32) (ix2 p k))
        + broadcastTo S1000x256 b1 hb (ix2 p k) = _
  rw [matmul_at, matmul_at, broadcastTo_1b_ab_apply b1 hb p k]
  rfl

/-- The hidden block at `(p, q)`: `silu` of the pre-activation row times the weight block. -/
private theorem silu_matmul_apply (V : FVec Ideal S1000x256 .f32) (W : FVec Ideal S256x256 .f32) (z : Row)
    (ht : FTy.bits .bf16 < FTy.bits .f32) (p : Fin 1000) (q : Fin 256) (hV : ∀ k, V (ix2 p k) = z k) :
    matmul dot_S1000x256_S256x256_S1000x256_1_0_0_1_n_n none (truncf .bf16 (mulf V (logistic V)) ht) (truncf .bf16 W ht) (constant (F := Ideal) S1000x256 .f32 0x00000000#32) (ix2 p q)
      = rowMul (fun k => silu (z k)) (mat W) q := by
  rw [matmul_at]
  refine Finset.sum_congr rfl fun k _ => ?_
  show V (ix2 p k) * Ideal.logistic (V (ix2 p k)) * W (ix2 k q) = silu (z k) * W (ix2 k q)
  rw [hV k]
  rfl

/-- The residual block `h + dh` at `(p, q)`. -/
private theorem resid_apply (x0 x1 : Vec Ideal S1000x256 .f32) (x2 x3 x4 : Vec Ideal S256x256 .f32) (x5 x6 : Vec Ideal S1x256 .f32)
    (p : Fin 1000) (q : Fin 256) :
    k1_pay2 (F := Ideal) x0 x1 x2 x3 x4 x5 x6 (ix2 p q)
      = rows x0 p q + hidden (fun j => (rowMul (rows x0 p) (mat x2) j + rowMul (rows x1 p) (mat x3) j) + vec2 x5 j) (mat x4) (vec2 x6) q := by
  unfold k1_pay2
  simp only [shapeCast_self]
  show x0 (ix2 p q) + (_ + _) = x0 (ix2 p q) + (_ + _)
  refine congrArg (fun t => x0 (ix2 p q) + t) (congrArg₂ (fun a b => a + b) ?_ ?_)
  · exact silu_matmul_apply _ x4 _ _ p q fun k => preact_apply x0 x1 x2 x3 x5 _ _ p k
  · exact broadcastTo_1b_ab_apply x6 _ p q

/-! ## The mean column, the squared-deviation sums, the normalisation -/

/-- The mean column at row `p`: the row's lane sum divided by 256. -/
private theorem meanCol_apply (R : FVec Ideal S1000x256 .f32) (hr : S1000x256.Reduces [1] S1000) (hφ : FKind.Formats .f32)
    (hacc : (0x00000000#32 : BitVec 32) = FKind.add.neutral .f32 hφ) (hc : S1000.ShapeCasts S1000x1) (p : Fin 1000) (u : Fin 1) :
    divf (shapeCast S1000x1 (multiReduction (F := Ideal) .add [1] S1000 R 0x00000000#32 hr hφ hacc) hc)
         (broadcast S1000x1 (FloatOps.ofBits .f32 0x43800000#32 : Ideal .f32)) (ix2 p u)
      = rowMean (fun j => R (ix2 p j)) := by
  show Ideal.div (shapeCast S1000x1 (multiReduction (F := Ideal) .add [1] S1000 R 0x00000000#32 hr hφ hacc) hc (ix2 p u)) w256
      = Ideal.div (∑ k : Fin 256, R (ix2 p k)) w256
  exact congrArg (fun s => Ideal.div s w256) ((shapeCast_a_a1_apply _ hc p u).trans (laneSum_apply R hr hφ hacc p))

/-- The column of squared-deviation sums at row `p`, from a mean column whose entry of row `p` is `μ`. -/
private theorem sqDevCol_apply (R : FVec Ideal S1000x256 .f32) (M : FVec Ideal S1000x1 .f32) (μ : EReal)
    (hb : S1000x1.Broadcasts S1000x256) (hr : S1000x256.Reduces [1] S1000) (hφ : FKind.Formats .f32)
    (hacc : (0x00000000#32 : BitVec 32) = FKind.add.neutral .f32 hφ) (hc : S1000.ShapeCasts S1000x1) (p : Fin 1000) (u : Fin 1)
    (hM : M (ix2 p (0 : Fin 1)) = μ) :
    shapeCast S1000x1 (multiReduction (F := Ideal) .add [1] S1000
        (mulf (subf R (broadcastTo S1000x256 M hb)) (subf R (broadcastTo S1000x256 M hb))) 0x00000000#32 hr hφ hacc) hc (ix2 p u)
      = ∑ k : Fin 256, (R (ix2 p k) - μ) * (R (ix2 p k) - μ) := by
  refine (shapeCast_a_a1_apply _ hc p u).trans ((laneSum_apply _ hr hφ hacc p).trans (Finset.sum_congr rfl fun k _ => ?_))
  show (R (ix2 p k) - broadcastTo S1000x256 M hb (ix2 p k)) * (R (ix2 p k) - broadcastTo S1000x256 M hb (ix2 p k)) = _
  rw [broadcastTo_a1_ab_apply M hb p k, hM]

/-- The normalised block at `(p, q)`, from a mean column and a squared-deviation column whose entries of row `p` are `μ` and `s`. -/
private theorem norm_apply (R : FVec Ideal S1000x256 .f32) (M S : FVec Ideal S1000x1 .f32) (g be : Vec Ideal S1x256 .f32) (μ s : EReal)
    (p : Fin 1000) (q : Fin 256) (hM : M (ix2 p (0 : Fin 1)) = μ) (hS : S (ix2 p (0 : Fin 1)) = s) :
    k1_pay1 (F := Ideal) R M S (FloatOps.ofBits .f32 0x43800000#32) g be (ix2 p q)
      = (R (ix2 p q) - μ) * Ideal.rsqrt (Ideal.div s w256 + wEps) * vec2 g q + vec2 be q := by
  unfold k1_pay1
  simp only [shapeCast_self]
  show (R (ix2 p q) - broadcastTo S1000x256 M broadcasts_S1000x1_S1000x256 (ix2 p q))
        * broadcastTo S1000x256 (rsqrt (addf (divf S (broadcast S1000x1 (FloatOps.ofBits .f32 0x43800000#32 : Ideal .f32)))
            (broadcast S1000x1 (FloatOps.ofBits .f32 0x3727C5AC#32 : Ideal .f32)))) broadcasts_S1000x1_S1000x256 (ix2 p q)
        * broadcastTo S1000x256 g broadcasts_S1x256_S1000x256 (ix2 p q)
        + broadcastTo S1000x256 be broadcasts_S1x256_S1000x256 (ix2 p q) = _
  rw [broadcastTo_a1_ab_apply M _ p q, broadcastTo_a1_ab_apply _ _ p q, broadcastTo_1b_ab_apply g _ p q,
    broadcastTo_1b_ab_apply be _ p q, hM]
  show (R (ix2 p q) - μ) * Ideal.rsqrt (Ideal.div (S (ix2 p (0 : Fin 1))) w256 + wEps) * vec2 g q + vec2 be q = _
  rw [hS]

/-- Layer normalisation with its mean and variance spelt out. -/
private theorem layerNorm_spelt (y g b : Row) (q : Fin 256) :
    (y q - rowMean y) * Ideal.rsqrt (Ideal.div (∑ k : Fin 256, (y k - rowMean y) * (y k - rowMean y)) w256 + wEps) * g q + b q
      = layerNorm y g b q := rfl

/-- The stored block at an entry. -/
theorem out_apply (x0 x1 : Vec Ideal S1000x256 .f32) (x2 x3 x4 : Vec Ideal S256x256 .f32) (x5 x6 x7 x8 : Vec Ideal S1x256 .f32)
    (p : Fin 1000) (q : Fin 256) :
    out1_9 (F := Ideal) x0 x1 x2 x3 x4 x5 x6 x7 x8 (ix2 p q)
      = nodeRow (rows x0 p) (rows x1 p) (mat x2) (mat x3) (mat x4) (vec2 x5) (vec2 x6) (vec2 x7) (vec2 x8) q := by
  have hz : (![0, 0] : Fin 2 → Nat) = fun _ => 0 := funext fun a => by fin_cases a <;> rfl
  unfold out1_9
  rw [View.canon_unit_zero hz]
  simp only [View.ld_unit_zero (S := S1000x256) hz, View.ld_unit_zero (S := S256x256) hz, View.ld_unit_zero (S := S1x256) hz]
  -- the mean and the squared-deviation sum of row `p` of the residual block
  have hμ : k1_pay3 (F := Ideal) x0 x1 x2 x3 x4 x5 x6 (ix2 p (0 : Fin 1))
      = rowMean (fun j => k1_pay2 (F := Ideal) x0 x1 x2 x3 x4 x5 x6 (ix2 p j)) := by
    unfold k1_pay3
    exact meanCol_apply _ _ _ _ _ p 0
  have hs : k1_pay4 (F := Ideal) x0 x1 x2 x3 x4 x5 x6 (ix2 p (0 : Fin 1))
      = ∑ k : Fin 256,
          (k1_pay2 (F := Ideal) x0 x1 x2 x3 x4 x5 x6 (ix2 p k) - rowMean (fun j => k1_pay2 (F := Ideal) x0 x1 x2 x3 x4 x5 x6 (ix2 p j)))
          * (k1_pay2 (F := Ideal) x0 x1 x2 x3 x4 x5 x6 (ix2 p k) - rowMean (fun j => k1_pay2 (F := Ideal) x0 x1 x2 x3 x4 x5 x6 (ix2 p j))) := by
    unfold k1_pay4
    exact sqDevCol_apply _ _ _ _ _ _ _ _ p 0 hμ
  refine (norm_apply _ _ _ x7 x8 _ _ p q hμ hs).trans ?_
  refine (layerNorm_spelt (fun j => k1_pay2 (F := Ideal) x0 x1 x2 x3 x4 x5 x6 (ix2 p j)) (vec2 x7) (vec2 x8) q).trans ?_
  exact congrArg (fun y => layerNorm y (vec2 x7) (vec2 x8) q) (funext fun j => resid_apply x0 x1 x2 x3 x4 x5 x6 p j)

/-- The stored block is the row-by-row node update of the blocks. -/
theorem out_eq (x0 x1 : Vec Ideal S1000x256 .f32) (x2 x3 x4 : Vec Ideal S256x256 .f32) (x5 x6 x7 x8 : Vec Ideal S1x256 .f32) :
    out1_9 (F := Ideal) x0 x1 x2 x3 x4 x5 x6 x7 x8
      = nodeOf (n := 1000) x0 x1 (mat x2) (mat x3) (mat x4) (vec2 x5) (vec2 x6) (vec2 x7) (vec2 x8) :=
  funext fun i => by rw [eq_ix2 i]; exact out_apply x0 x1 x2 x3 x4 x5 x6 x7 x8 (i 0) (i 1)

end Cert.KernelIdeal.Node

end
-- ==== Proof.NodeArray.lean ====
/- From blocks to the array, node region: grid point `t` of 20 writes rows `1000 t … 1000 t + 999` of the node result, and
   each row of the result depends only on the same row of the two row arrays, so the whole array after the region is
   the row-by-row node update of the arrays the region was entered with. -/
import proofs.«428125_j68753836474499_1_alg».proof.Proof.Gen.KernelIdeal.Frame
import proofs.«428125_j68753836474499_1_alg».proof.Proof.Spec
import proofs.«428125_j68753836474499_1_alg».proof.Proof.NodeBlock
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Node

open Cert.KernelIdeal Cert.KernelIdeal.Gen Cert.GraphNet

variable (V : (c : Dev nD) → (b : Ref sig .tc) → Buf (Elt Ideal) ((c : Thread nD τ).loc b))

/-- The node result as a function of the contents region 1 is entered with. -/
abbrev nodeResult (c : Dev nD) : Buf (Elt Ideal) ((c : Thread nD τ).loc main_v20) :=
  nodeOf (n := 20000) (V c main_arg0) (V c main_v13) (mat (V c main_v14)) (mat (V c main_v15)) (mat (V c main_arg11))
    (vec2 (V c main_v16)) (vec2 (V c main_v17)) (vec2 (V c main_v18)) (vec2 (V c main_v19))

/-- The index maps over the grid's 20 points: the two row arrays and the result move one block of 1000 rows per point,
    on block column 0. -/
private theorem index_facts : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_9.index t (0 : Fin 2) = t.val ∧ win1_9.index t (1 : Fin 2) = 0) :=
  (by decide +kernel : ∀ t : Fin grid1.N, _)

/-- The weights and the biases stay at block (0, 0) at every point. -/
private theorem index_facts_whole : ∀ t : Fin cfg1.N,
    (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = 0 ∧ win1_8.index t (1 : Fin 2) = 0) :=
  (by decide +kernel : ∀ t : Fin grid1.N, _)

/-- Window 0's block at point t is rows 1000 t … 1000 t + 999 of its array. -/
private theorem rowBlock0_apply (c : Dev nD) (t : Fin cfg1.N) (y : S1000x256.Idx) (k : S20000x256.Idx)
    (hk0 : (k 0).val = 1000 * t.val + (y 0).val) (hk1 : (k 1).val = (y 1).val) :
    (iblk1 V c 0 t : Vec Ideal S1000x256 .f32) y = (V c main_arg0 : S20000x256.Idx → EReal) k := by
  obtain ⟨⟨h0, h1⟩, -⟩ := index_facts t
  unfold iblk1
  rw [View.read_apply]
  show V c main_arg0 _ = V c main_arg0 _
  congr 1
  funext a
  apply Fin.ext
  match a with
  | ⟨0, _⟩ => show win1_0.index t 0 * 1000 + 1 * (y 0).val = (k 0).val; rw [h0, hk0]; omega
  | ⟨1, _⟩ => show win1_0.index t 1 * 256 + 1 * (y 1).val = (k 1).val; rw [h1, hk1]; omega

/-- Window 1's block at point t is rows 1000 t … 1000 t + 999 of its array. -/
private theorem rowBlock1_apply (c : Dev nD) (t : Fin cfg1.N) (y : S1000x256.Idx) (k : S20000x256.Idx)
    (hk0 : (k 0).val = 1000 * t.val + (y 0).val) (hk1 : (k 1).val = (y 1).val) :
    (iblk1 V c 1 t : Vec Ideal S1000x256 .f32) y = (V c main_v13 : S20000x256.Idx → EReal) k := by
  obtain ⟨-, ⟨h0, h1⟩, -⟩ := index_facts t
  unfold iblk1
  rw [View.read_apply]
  show V c main_v13 _ = V c main_v13 _
  congr 1
  funext a
  apply Fin.ext
  match a with
  | ⟨0, _⟩ => show win1_1.index t 0 * 1000 + 1 * (y 0).val = (k 0).val; rw [h0, hk0]; omega
  | ⟨1, _⟩ => show win1_1.index t 1 * 256 + 1 * (y 1).val = (k 1).val; rw [h1, hk1]; omega

/-- A weight window's block is its whole array. -/
private theorem wholeBlock2 (c : Dev nD) (t : Fin cfg1.N) :
    (iblk1 V c 2 t : Vec Ideal S256x256 .f32) = (V c main_v14 : S256x256.Idx → EReal) := by
  obtain ⟨⟨h0, h1⟩, -⟩ := index_facts_whole t
  funext y
  unfold iblk1
  rw [View.read_apply]
  show V c main_v14 _ = V c main_v14 _
  congr 1
  funext a
  apply Fin.ext
  match a with
  | ⟨0, _⟩ => show win1_2.index t 0 * 256 + 1 * (y 0).val = (y 0).val; rw [h0]; omega
  | ⟨1, _⟩ => show win1_2.index t 1 * 256 + 1 * (y 1).val = (y 1).val; rw [h1]; omega

/-- A weight window's block is its whole array. -/
private theorem wholeBlock3 (c : Dev nD) (t : Fin cfg1.N) :
    (iblk1 V c 3 t : Vec Ideal S256x256 .f32) = (V c main_v15 : S256x256.Idx → EReal) := by
  obtain ⟨-, ⟨h0, h1⟩, -⟩ := index_facts_whole t
  funext y
  unfold iblk1
  rw [View.read_apply]
  show V c main_v15 _ = V c main_v15 _
  congr 1
  funext a
  apply Fin.ext
  match a with
  | ⟨0, _⟩ => show win1_3.index t 0 * 256 + 1 * (y 0).val = (y 0).val; rw [h0]; omega
  | ⟨1, _⟩ => show win1_3.index t 1 * 256 + 1 * (y 1).val = (y 1).val; rw [h1]; omega

/-- A weight window's block is its whole array. -/
private theorem wholeBlock4 (c : Dev nD) (t : Fin cfg1.N) :
    (iblk1 V c 4 t : Vec Ideal S256x256 .f32) = (V c main_arg11 : S256x256.Idx → EReal) := by
  obtain ⟨-, -, ⟨h0, h1⟩, -⟩ := index_facts_whole t
  funext y
  unfold iblk1
  rw [View.read_apply]
  show V c main_arg11 _ = V c main_arg11 _
  congr 1
  funext a
  apply Fin.ext
  match a with
  | ⟨0, _⟩ => show win1_4.index t 0 * 256 + 1 * (y 0).val = (y 0).val; rw [h0]; omega
  | ⟨1, _⟩ => show win1_4.index t 1 * 256 + 1 * (y 1).val = (y 1).val; rw [h1]; omega

/-- A bias window's block is its whole array. -/
private theorem wholeBlock5 (c : Dev nD) (t : Fin cfg1.N) :
    (iblk1 V c 5 t : Vec Ideal S1x256 .f32) = (V c main_v16 : S1x256.Idx → EReal) := by
  obtain ⟨-, -, -, ⟨h0, h1⟩, -⟩ := index_facts_whole t
  funext y
  unfold iblk1
  rw [View.read_apply]
  show V c main_v16 _ = V c main_v16 _
  congr 1
  funext a
  apply Fin.ext
  match a with
  | ⟨0, _⟩ => show win1_5.index t 0 * 1 + 1 * (y 0).val = (y 0).val; rw [h0]; omega
  | ⟨1, _⟩ => show win1_5.index t 1 * 256 + 1 * (y 1).val = (y 1).val; rw [h1]; omega

/-- A bias window's block is its whole array. -/
private theorem wholeBlock6 (c : Dev nD) (t : Fin cfg1.N) :
    (iblk1 V c 6 t : Vec Ideal S1x256 .f32) = (V c main_v17 : S1x256.Idx → EReal) := by
  obtain ⟨-, -, -, -, ⟨h0, h1⟩, -⟩ := index_facts_whole t
  funext y
  unfold iblk1
  rw [View.read_apply]
  show V c main_v17 _ = V c main_v17 _
  congr 1
  funext a
  apply Fin.ext
  match a with
  | ⟨0, _⟩ => show win1_6.index t 0 * 1 + 1 * (y 0).val = (y 0).val; rw [h0]; omega
  | ⟨1, _⟩ => show win1_6.index t 1 * 256 + 1 * (y 1).val = (y 1).val; rw [h1]; omega

/-- A bias window's block is its whole array. -/
private theorem wholeBlock7 (c : Dev nD) (t : Fin cfg1.N) :
    (iblk1 V c 7 t : Vec Ideal S1x256 .f32) = (V c main_v18 : S1x256.Idx → EReal) := by
  obtain ⟨-, -, -, -, -, ⟨h0, h1⟩, -⟩ := index_facts_whole t
  funext y
  unfold iblk1
  rw [View.read_apply]
  show V c main_v18 _ = V c main_v18 _
  congr 1
  funext a
  apply Fin.ext
  match a with
  | ⟨0, _⟩ => show win1_7.index t 0 * 1 + 1 * (y 0).val = (y 0).val; rw [h0]; omega
  | ⟨1, _⟩ => show win1_7.index t 1 * 256 + 1 * (y 1).val = (y 1).val; rw [h1]; omega

/-- A bias window's block is its whole array. -/
private theorem wholeBlock8 (c : Dev nD) (t : Fin cfg1.N) :
    (iblk1 V c 8 t : Vec Ideal S1x256 .f32) = (V c main_v19 : S1x256.Idx → EReal) := by
  obtain ⟨-, -, -, -, -, -, ⟨h0, h1⟩⟩ := index_facts_whole t
  funext y
  unfold iblk1
  rw [View.read_apply]
  show V c main_v19 _ = V c main_v19 _
  congr 1
  funext a
  apply Fin.ext
  match a with
  | ⟨0, _⟩ => show win1_8.index t 0 * 1 + 1 * (y 0).val = (y 0).val; rw [h0]; omega
  | ⟨1, _⟩ => show win1_8.index t 1 * 256 + 1 * (y 1).val = (y 1).val; rw [h1]; omega

/-- The node update of a block of 1000 rows that sits at rows 1000 n … of two arrays of 20000 rows is the same rows of
    the arrays' node update: an entry of the update depends only on its own row of the two arrays. -/
private theorem nodeOf_rowBlock (X0 X1 : S20000x256.Idx → EReal) (x0 x1 : S1000x256.Idx → EReal)
    (Wa Wb W2 : Mat) (b1 b2 g beta : Row) (n : Nat)
    (h0 : ∀ (y : S1000x256.Idx) (k : S20000x256.Idx), (k 0).val = 1000 * n + (y 0).val → (k 1).val = (y 1).val → x0 y = X0 k)
    (h1 : ∀ (y : S1000x256.Idx) (k : S20000x256.Idx), (k 0).val = 1000 * n + (y 0).val → (k 1).val = (y 1).val → x1 y = X1 k)
    (y : S1000x256.Idx) (i : S20000x256.Idx) (hi0 : (i 0).val = 1000 * n + (y 0).val) (hi1 : (i 1).val = (y 1).val) :
    nodeOf (n := 1000) x0 x1 Wa Wb W2 b1 b2 g beta y
      = nodeOf (n := 20000) X0 X1 Wa Wb W2 b1 b2 g beta i := by
  obtain ⟨p, q, rfl⟩ : ∃ (p : Fin 1000) (q : Fin 256), y = ix2 p q := ⟨y 0, y 1, eq_ix2 y⟩
  obtain ⟨r, s, rfl⟩ : ∃ (r : Fin 20000) (s : Fin 256), i = ix2 r s := ⟨i 0, i 1, eq_ix2 i⟩
  have hr : r.val = 1000 * n + p.val := hi0
  have hs : s = q := Fin.ext hi1
  subst hs
  rw [nodeOf_apply, nodeOf_apply]
  have e0 : rows x0 p = rows X0 r := funext fun k => h0 (ix2 p k) (ix2 r k) hr rfl
  have e1 : rows x1 p = rows X1 r := funext fun k => h1 (ix2 p k) (ix2 r k) hr rfl
  rw [e0, e1]

/-- What point t writes back is block t of the node update of the entry arrays. -/
private theorem flushed_node (c : Dev nD) (t : Fin cfg1.N) :
    (dat1 (F := Ideal) V c).flushed 9 t = ((cfg1.win 9).blk t).view.read (Elt Ideal) (nodeResult V c) := by
  show (cfg1.win 9).cut (grid1.coords t) ((dat1 (F := Ideal) V c).after 9 t) = _
  rw [after1_9, Cert.KernelIdeal.Node.out_eq]
  rw [wholeBlock2, wholeBlock3, wholeBlock4, wholeBlock5, wholeBlock6, wholeBlock7, wholeBlock8]
  obtain ⟨-, -, ⟨e0, e1⟩⟩ := index_facts t
  funext y
  rw [View.read_apply]
  show nodeOf (n := 1000) _ _ _ _ _ _ _ _ _ y = nodeResult V c (((cfg1.win 9).blk t).view.emb y)
  refine nodeOf_rowBlock _ _ _ _ _ _ _ _ _ _ _ t.val (rowBlock0_apply V c t) (rowBlock1_apply V c t) y _ ?_ ?_
  · show win1_9.index t 0 * 1000 + 1 * (y 0).val = 1000 * t.val + (y 0).val
    rw [e0]; omega
  · show win1_9.index t 1 * 256 + 1 * (y 1).val = (y 1).val
    rw [e1]; omega

/-- Row r of the result lies in the block of point r / 1000. -/
private theorem cover_node (i : S20000x256.Idx) :
    ∃ t : Fin cfg1.N, (cfg1.win 9).flush t = true ∧ i ∈ ((cfg1.win 9).blk t).view.set := by
  have hi0 : (i 0).val < 20000 := (i 0).isLt
  have hi1 : (i 1).val < 256 := (i 1).isLt
  have hN : cfg1.N = 20 := N_1
  have ht : (i 0).val / 1000 < cfg1.N := by rw [hN]; omega
  refine ⟨⟨(i 0).val / 1000, ht⟩, flush1_9 _, ?_⟩
  obtain ⟨-, -, ⟨e0, e1⟩⟩ := index_facts ⟨(i 0).val / 1000, ht⟩
  show i ∈ ((View.whole main_v20).slice (win1_9.rect ⟨(i 0).val / 1000, ht⟩)).set
  rw [View.set_slice_whole, Rect.mem_set_unit]
  intro a
  match a with
  | ⟨0, _⟩ =>
    show win1_9.index ⟨(i 0).val / 1000, ht⟩ 0 * 1000 ≤ (i 0).val ∧ (i 0).val < win1_9.index ⟨(i 0).val / 1000, ht⟩ 0 * 1000 + 1000
    rw [e0]; show (i 0).val / 1000 * 1000 ≤ (i 0).val ∧ (i 0).val < (i 0).val / 1000 * 1000 + 1000; omega
  | ⟨1, _⟩ =>
    show win1_9.index ⟨(i 0).val / 1000, ht⟩ 1 * 256 ≤ (i 1).val ∧ (i 1).val < win1_9.index ⟨(i 0).val / 1000, ht⟩ 1 * 256 + 256
    rw [e1]; omega

/-- The output array after region 1's last grid point. -/
theorem arrAt_node (c : Dev nD) : (dat1 (F := Ideal) V c).arrAt 9 cfg1.N = nodeResult V c :=
  (dat1 (F := Ideal) V c).arrAt_eq_of_cover 9 (nodeResult V c) (fun t _ => flushed_node V c t) cover_node

end Cert.KernelIdeal.Node

end
-- ==== Proof.RefEdge.lean ====
/- The reference's edge result, read one operation at a time, is the row-by-row edge update of the two gathered node arrays
   and the edge array: its three products and the bias are added in another order than in `edgeRow` (sums of extended
   reals commute and associate), its sums start from a zero word, and its biases are broadcast from `[256]` arrays. -/
import proofs.«428125_j68753836474499_1_alg».proof.Proof.Gen.ReferenceIdeal.Read
import proofs.«428125_j68753836474499_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open Idealize.ShloMosaic Idealize.ShloMosaic.TcCoe Idealize.SL.Sem Idealize.ShloMosaic.ValueIdx

namespace Cert.ReferenceIdeal.Edge

open Cert.ReferenceIdeal Cert.ReferenceIdeal.Gen Cert.ReferenceIdeal.Read Cert.GraphNet

/-- The f32 word of 1.0 is the extended real one. -/
private theorem one_word : Ideal.ofBits .f32 0x3F800000#32 = 1 := by
  rw [show (1 : EReal) = ((1 : ℝ) : EReal) by norm_cast]
  simp [Ideal.ofBits, Ideal.ieee, -EReal.coe_mul]; norm_num

/-! ## Where each operation reads its operands

A product of a row by a matrix reads row `r` of the left operand and column `j` of the right; a bias broadcast reads
entry `j`; a per-row scalar kept as a `[320000, 1]` column is read at `(r, 0)`, and the row sum behind it reads row `r`. -/

private theorem lidx11 (r : Fin 320000) (j k : Fin 256) : lidx_main_v11 (ix2 r j) k = ix2 r k :=
  funext fun a => Fin.ext (by match a with | ⟨0, _⟩ => rfl | ⟨1, _⟩ => rfl)
private theorem ridx11 (r : Fin 320000) (j k : Fin 256) : ridx_main_v11 (ix2 r j) k = ix2 k j :=
  funext fun a => Fin.ext (by match a with | ⟨0, _⟩ => rfl | ⟨1, _⟩ => rfl)
private theorem lidx22 (r : Fin 320000) (j k : Fin 256) : lidx_main_v22 (ix2 r j) k = ix2 r k :=
  funext fun a => Fin.ext (by match a with | ⟨0, _⟩ => rfl | ⟨1, _⟩ => rfl)
private theorem ridx22 (r : Fin 320000) (j k : Fin 256) : ridx_main_v22 (ix2 r j) k = ix2 k j :=
  funext fun a => Fin.ext (by match a with | ⟨0, _⟩ => rfl | ⟨1, _⟩ => rfl)
private theorem lidx24 (r : Fin 320000) (j k : Fin 256) : lidx_main_v24 (ix2 r j) k = ix2 r k :=
  funext fun a => Fin.ext (by match a with | ⟨0, _⟩ => rfl | ⟨1, _⟩ => rfl)
private theorem ridx24 (r : Fin 320000) (j k : Fin 256) : ridx_main_v24 (ix2 r j) k = ix2 k j :=
  funext fun a => Fin.ext (by match a with | ⟨0, _⟩ => rfl | ⟨1, _⟩ => rfl)
private theorem lidx27 (r : Fin 320000) (j k : Fin 256) : lidx_main_v27 (ix2 r j) k = ix2 r k :=
  funext fun a => Fin.ext (by match a with | ⟨0, _⟩ => rfl | ⟨1, _⟩ => rfl)
private theorem ridx27 (r : Fin 320000) (j k : Fin 256) : ridx_main_v27 (ix2 r j) k = ix2 k j :=
  funext fun a => Fin.ext (by match a with | ⟨0, _⟩ => rfl | ⟨1, _⟩ => rfl)
private theorem bias12 (r : Fin 320000) (j : Fin 256) : idx_main_v12 (idx_main_v13 (ix2 r j)) = ix1 j :=
  funext fun a => Fin.ext (by match a with | ⟨0, _⟩ => rfl)
private theorem bias28 (r : Fin 320000) (j : Fin 256) : idx_main_v28 (idx_main_v29 (ix2 r j)) = ix1 j :=
  funext fun a => Fin.ext (by match a with | ⟨0, _⟩ => rfl)
private theorem bias50 (r : Fin 320000) (j : Fin 256) : idx_main_v50 (idx_main_v51 (ix2 r j)) = ix1 j :=
  funext fun a => Fin.ext (by match a with | ⟨0, _⟩ => rfl)
private theorem bias53 (r : Fin 320000) (j : Fin 256) : idx_main_v53 (idx_main_v54 (ix2 r j)) = ix1 j :=
  funext fun a => Fin.ext (by match a with | ⟨0, _⟩ => rfl)
private theorem col36 (r : Fin 320000) (j : Fin 256) : idx_main_v36 (ix2 r j) = ix2 r (0 : Fin 1) :=
  funext fun a => Fin.ext (by match a with | ⟨0, _⟩ => rfl | ⟨1, _⟩ => rfl)
private theorem col43 (r : Fin 320000) (j : Fin 256) : idx_main_v43 (ix2 r j) = ix2 r (0 : Fin 1) :=
  funext fun a => Fin.ext (by match a with | ⟨0, _⟩ => rfl | ⟨1, _⟩ => rfl)
private theorem col48 (r : Fin 320000) (j : Fin 256) : idx_main_v48 (ix2 r j) = ix2 r (0 : Fin 1) :=
  funext fun a => Fin.ext (by match a with | ⟨0, _⟩ => rfl | ⟨1, _⟩ => rfl)
private theorem sum32 (r : Fin 320000) (k : Fin 256) : idx_main_v32 (idx_main_v33 (ix2 r (0 : Fin 1))) k = ix2 r k :=
  funext fun a => Fin.ext (by match a with | ⟨0, _⟩ => rfl | ⟨1, _⟩ => rfl)
private theorem sum39 (r : Fin 320000) (k : Fin 256) : idx_main_v39 (idx_main_v40 (ix2 r (0 : Fin 1))) k = ix2 r k :=
  funext fun a => Fin.ext (by match a with | ⟨0, _⟩ => rfl | ⟨1, _⟩ => rfl)

section Layers

variable (x0 : (⟨S20000x256, .f32⟩ : BufTy).Contents (Elt Ideal)) (x1 : (⟨S320000x256, .f32⟩ : BufTy).Contents (Elt Ideal))
  (x2 : (⟨S2x320000, .i32⟩ : BufTy).Contents (Elt Ideal)) (x3 : (⟨S256x256, .f32⟩ : BufTy).Contents (Elt Ideal))
  (x4 : (⟨S256, .f32⟩ : BufTy).Contents (Elt Ideal)) (x5 x6 x7 : (⟨S256x256, .f32⟩ : BufTy).Contents (Elt Ideal))
  (x8 x13 x14 : (⟨S256, .f32⟩ : BufTy).Contents (Elt Ideal))

/-! ## The stages, row by row -/

/-- The pre-activation at `(r, k)`: the three products and the bias, the bias moved to the end of the sum. -/
private theorem pre_apply (r : Fin 320000) (k : Fin 256) :
    val_main_v25 (F := Ideal) x0 x1 x2 x3 x4 x5 x6 (ix2 r k)
      = ((rowMul (rows (val_main_v10 (F := Ideal) x0 x2) r) (mat x3) k
          + rowMul (rows (val_main_v21 (F := Ideal) x0 x2) r) (mat x5) k)
          + rowMul (rows x1 r) (mat x6) k) + vec1 x4 k := by
  simp only [val_main_v25_apply, val_main_v23_apply, val_main_v14_apply, val_main_v11_apply, val_main_v22_apply,
    val_main_v24_apply, val_main_v13_apply, val_main_v12_apply, lidx11, ridx11, lidx22, ridx22, lidx24, ridx24, bias12,
    Ideal.addf_def]
  unfold rowMul rows mat vec1
  ac_rfl

/-- The activation: `x · (1 / (1 + exp (−x)))` is `x · logistic x`, the literal 1.0 being the extended real one. -/
private theorem act_apply (i : S320000x256.Idx) :
    val_main_v26 (F := Ideal) x0 x1 x2 x3 x4 x5 x6 i = silu (val_main_v25 (F := Ideal) x0 x1 x2 x3 x4 x5 x6 i) := by
  simp only [val_main_v26_apply, val_main_call0_v5_apply, val_main_call0_v4_apply, val_main_call0_cst_0_apply,
    val_main_call0_v3_apply, val_main_call0_v2_apply, val_main_call0_cst_apply, val_main_call0_v1_apply,
    val_main_call0_v0_apply, Ideal.mulf_def, Ideal.hostDivf_def, Ideal.addf_def, Ideal.hostUnary_exp_def,
    Ideal.hostNegf_def, Ideal.negf_def, Ideal.ofBits_def, one_word]
  rfl

/-- The residual row of edge `r`: its own row plus the hidden row of its pre-activation. -/
private theorem resid_apply (r : Fin 320000) (j : Fin 256) :
    val_main_v31 (F := Ideal) x0 x1 x2 x3 x4 x5 x6 x7 x8 (ix2 r j)
      = rows x1 r j + hidden (fun k => ((rowMul (rows (val_main_v10 (F := Ideal) x0 x2) r) (mat x3) k
          + rowMul (rows (val_main_v21 (F := Ideal) x0 x2) r) (mat x5) k)
          + rowMul (rows x1 r) (mat x6) k) + vec1 x4 k) (mat x7) (vec1 x8) j := by
  simp only [val_main_v31_apply, val_main_v30_apply, val_main_v27_apply, val_main_v29_apply, val_main_v28_apply,
    lidx27, ridx27, bias28, act_apply, pre_apply, Ideal.addf_def]
  rfl

/-- The mean kept at `(r, 0)` is the mean of the residual row: the row sum starts from the zero word. -/
private theorem mean_apply (r : Fin 320000) :
    val_main_v35 (F := Ideal) x0 x1 x2 x3 x4 x5 x6 x7 x8 (ix2 r (0 : Fin 1))
      = rowMean (fun k => val_main_v31 (F := Ideal) x0 x1 x2 x3 x4 x5 x6 x7 x8 (ix2 r k)) := by
  simp only [val_main_v35_apply, val_main_v33_apply, val_main_v32_apply, val_main_v34_apply, val_main_cst_3_apply,
    val_main_cst_apply, sum32, Ideal.hostDivf_def, Ideal.ofBits_def, Ideal.ofBits_zero_f32, zero_add]
  rfl

/-- The variance kept at `(r, 0)` is the mean of the squared deviations of the residual row. -/
private theorem var_apply (r : Fin 320000) :
    val_main_v42 (F := Ideal) x0 x1 x2 x3 x4 x5 x6 x7 x8 (ix2 r (0 : Fin 1))
      = rowVar (fun k => val_main_v31 (F := Ideal) x0 x1 x2 x3 x4 x5 x6 x7 x8 (ix2 r k)) := by
  simp only [val_main_v42_apply, val_main_v40_apply, val_main_v39_apply, val_main_v41_apply, val_main_cst_5_apply,
    val_main_cst_4_apply, sum39, val_main_v38_apply, val_main_v37_apply, val_main_v36_apply, col36, mean_apply,
    Ideal.hostDivf_def, Ideal.mulf_def, Ideal.subf_def, Ideal.ofBits_def, Ideal.ofBits_zero_f32, zero_add]
  rfl

/-- The result at `(r, j)` is the layer normalisation of the residual row, scaled and shifted. -/
private theorem out_apply (r : Fin 320000) (j : Fin 256) :
    val_main_v55 (F := Ideal) x0 x1 x2 x3 x4 x5 x6 x7 x8 x13 x14 (ix2 r j)
      = layerNorm (fun k => val_main_v31 (F := Ideal) x0 x1 x2 x3 x4 x5 x6 x7 x8 (ix2 r k)) (vec1 x13) (vec1 x14) j := by
  simp only [val_main_v55_apply, val_main_v52_apply, val_main_v54_apply, val_main_v53_apply, val_main_v49_apply,
    val_main_v51_apply, val_main_v50_apply, val_main_v44_apply, val_main_v43_apply, val_main_v48_apply,
    val_main_v47_apply, val_main_v46_apply, val_main_v45_apply, val_main_cst_6_apply, col43, col48, bias50, bias53,
    mean_apply, var_apply, Ideal.addf_def, Ideal.mulf_def, Ideal.subf_def, Ideal.hostUnary_rsqrt_def, Ideal.ofBits_def]
  rfl

end Layers

/-- The reference's edge result as the edge update of the gathered rows. -/
theorem enew_eq (x0 : (⟨S20000x256, .f32⟩ : BufTy).Contents (Elt Ideal)) (x1 : (⟨S320000x256, .f32⟩ : BufTy).Contents (Elt Ideal))
    (x2 : (⟨S2x320000, .i32⟩ : BufTy).Contents (Elt Ideal)) (x3 : (⟨S256x256, .f32⟩ : BufTy).Contents (Elt Ideal))
    (x4 : (⟨S256, .f32⟩ : BufTy).Contents (Elt Ideal)) (x5 x6 x7 : (⟨S256x256, .f32⟩ : BufTy).Contents (Elt Ideal))
    (x8 x13 x14 : (⟨S256, .f32⟩ : BufTy).Contents (Elt Ideal)) :
    val_main_v55 (F := Ideal) x0 x1 x2 x3 x4 x5 x6 x7 x8 x13 x14
      = edgeOf (n := 320000) (val_main_v10 (F := Ideal) x0 x2) (val_main_v21 (F := Ideal) x0 x2) x1
          (mat x3) (mat x5) (mat x6) (mat x7) (vec1 x4) (vec1 x8) (vec1 x13) (vec1 x14) := by
  funext i
  obtain ⟨r, j, rfl⟩ : ∃ (r : Fin 320000) (j : Fin 256), i = ix2 r j := ⟨i 0, i 1, eq_ix2 i⟩
  rw [edgeOf_apply, out_apply]
  unfold edgeRow
  rw [show (fun k => val_main_v31 (F := Ideal) x0 x1 x2 x3 x4 x5 x6 x7 x8 (ix2 r k))
      = fun k => rows x1 r k + hidden (fun k => ((rowMul (rows (val_main_v10 (F := Ideal) x0 x2) r) (mat x3) k
          + rowMul (rows (val_main_v21 (F := Ideal) x0 x2) r) (mat x5) k)
          + rowMul (rows x1 r) (mat x6) k) + vec1 x4 k) (mat x7) (vec1 x8) k
    from funext fun k => resid_apply x0 x1 x2 x3 x4 x5 x6 x7 x8 r k]

end Cert.ReferenceIdeal.Edge

end
-- ==== Proof.RefNode.lean ====
/- The reference's node result, read one operation at a time, is the row-by-row node update of the node array and the
   aggregated edge array: its one product of the `[20000, 512]` concatenation with the `[512, 256]` weight splits, entry by
   entry, into the sum over the first 256 columns (the node's own row against the weight's top half) plus the sum over the
   last 256 (the aggregate's row against the bottom half). -/
import proofs.«428125_j68753836474499_1_alg».proof.Proof.Gen.ReferenceIdeal.Read
import proofs.«428125_j68753836474499_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open Idealize.ShloMosaic Idealize.ShloMosaic.TcCoe Idealize.SL.Sem Idealize.ShloMosaic.ValueIdx

namespace Cert.ReferenceIdeal.Node

open Cert.ReferenceIdeal Cert.ReferenceIdeal.Gen Cert.ReferenceIdeal.Read Cert.GraphNet

/-- The word 0x3F800000 is the number one. -/
private theorem one_word : Ideal.ofBits .f32 0x3F800000#32 = (1 : EReal) :=
  IdealRules.sign_bit.ideal_onePat .f32

/-- A sum over 512 terms is the sum of its first 256 and of its last 256; no finiteness is needed. -/
private theorem sum_split (f : Fin 512 → EReal) :
    ∑ k : Fin 512, f k
      = ∑ k : Fin 256, f ⟨k.val, by have := k.isLt; omega⟩ + ∑ k : Fin 256, f ⟨256 + k.val, by have := k.isLt; omega⟩ :=
  Fin.sum_univ_add (a := 256) (b := 256) f

/-- The concatenation along the columns, at a column below 256, is the first array there. -/
private theorem cat_left (x0 agg : (⟨S20000x256, .f32⟩ : BufTy).Contents (Elt Ideal)) (r : Fin 20000) (k : Fin 256) :
    concatenate S20000x512 1 [⟨S20000x256, x0⟩, ⟨S20000x256, agg⟩] concatenates_S20000x256_S20000x256_S20000x512_d1
        (ix2 r (⟨k.val, by have := k.isLt; omega⟩ : Fin 512)) = x0 (ix2 r k) :=
  concatenate_pair_apply_left 1 x0 agg concatenates_S20000x256_S20000x256_S20000x512_d1 _ rfl (ix2 r k)
    (fun b => match b with | ⟨0, _⟩ => rfl | ⟨1, _⟩ => rfl)

/-- At a column 256 + k it is the second array at column k. -/
private theorem cat_right (x0 agg : (⟨S20000x256, .f32⟩ : BufTy).Contents (Elt Ideal)) (r : Fin 20000) (k : Fin 256) :
    concatenate S20000x512 1 [⟨S20000x256, x0⟩, ⟨S20000x256, agg⟩] concatenates_S20000x256_S20000x256_S20000x512_d1
        (ix2 r (⟨256 + k.val, by have := k.isLt; omega⟩ : Fin 512)) = agg (ix2 r k) :=
  concatenate_pair_apply_right 1 x0 agg concatenates_S20000x256_S20000x256_S20000x512_d1 _ rfl rfl (ix2 r k)
    (fun b => match b with | ⟨0, _⟩ => fun _ => rfl | ⟨1, _⟩ => fun h => absurd rfl h)
    (by show k.val + 256 = 256 + k.val; omega)

/-! ### The printed index maps, at an index given by its coordinates -/

private theorem lidx60 (r : Fin 20000) (j : Fin 256) (k : Fin 512) : lidx_main_v60 (ix2 r j) k = ix2 r k :=
  funext fun a => Fin.ext (by match a with | ⟨0, _⟩ => rfl | ⟨1, _⟩ => rfl)
private theorem ridx60 (r : Fin 20000) (j : Fin 256) (k : Fin 512) : ridx_main_v60 (ix2 r j) k = ix2 k j :=
  funext fun a => Fin.ext (by match a with | ⟨0, _⟩ => rfl | ⟨1, _⟩ => rfl)
private theorem bias_idx62 (r : Fin 20000) (j : Fin 256) : idx_main_v61 (idx_main_v62 (ix2 r j)) = ix1 j :=
  funext fun a => Fin.ext (by match a with | ⟨0, _⟩ => rfl)

/-- The pre-activation at row r, column j: the node's own row against the top half of the weight, plus the
    aggregate's row against the bottom half, plus the bias. -/
private theorem pre_apply (x0 : (⟨S20000x256, .f32⟩ : BufTy).Contents (Elt Ideal)) (x1 : (⟨S320000x256, .f32⟩ : BufTy).Contents (Elt Ideal))
    (x2 : (⟨S2x320000, .i32⟩ : BufTy).Contents (Elt Ideal)) (x3 : (⟨S256x256, .f32⟩ : BufTy).Contents (Elt Ideal))
    (x4 : (⟨S256, .f32⟩ : BufTy).Contents (Elt Ideal)) (x5 x6 x7 : (⟨S256x256, .f32⟩ : BufTy).Contents (Elt Ideal))
    (x8 : (⟨S256, .f32⟩ : BufTy).Contents (Elt Ideal)) (x9 : (⟨S512x256, .f32⟩ : BufTy).Contents (Elt Ideal))
    (x10 x13 x14 : (⟨S256, .f32⟩ : BufTy).Contents (Elt Ideal)) (r : Fin 20000) (j : Fin 256) :
    val_main_v63 (F := Ideal) x0 x1 x2 x3 x4 x5 x6 x7 x8 x9 x10 x13 x14 (ix2 r j)
      = (rowMul (rows x0 r) (matTop x9) j
          + rowMul (rows (val_main_v58 (F := Ideal) x0 x1 x2 x3 x4 x5 x6 x7 x8 x13 x14) r) (matBot x9) j) + vec1 x10 j := by
  rw [val_main_v63_apply, val_main_v60_apply, val_main_v62_apply, val_main_v61_apply, Ideal.addf_def, bias_idx62]
  unfold val_main_v59
  generalize val_main_v58 (F := Ideal) x0 x1 x2 x3 x4 x5 x6 x7 x8 x13 x14 = agg
  rw [sum_split]
  refine congrArg₂ (· + ·) (congrArg₂ (· + ·) (Finset.sum_congr rfl fun k _ => ?_) (Finset.sum_congr rfl fun k _ => ?_)) rfl
  · rw [lidx60, ridx60, cat_left]; rfl
  · rw [lidx60, ridx60, cat_right]; rfl

/-- The activation the reference spells with host operations, `x · (1 / (1 + exp (−x)))`, is `silu`. -/
private theorem act_apply (x0 : (⟨S20000x256, .f32⟩ : BufTy).Contents (Elt Ideal)) (x1 : (⟨S320000x256, .f32⟩ : BufTy).Contents (Elt Ideal))
    (x2 : (⟨S2x320000, .i32⟩ : BufTy).Contents (Elt Ideal)) (x3 : (⟨S256x256, .f32⟩ : BufTy).Contents (Elt Ideal))
    (x4 : (⟨S256, .f32⟩ : BufTy).Contents (Elt Ideal)) (x5 x6 x7 : (⟨S256x256, .f32⟩ : BufTy).Contents (Elt Ideal))
    (x8 : (⟨S256, .f32⟩ : BufTy).Contents (Elt Ideal)) (x9 : (⟨S512x256, .f32⟩ : BufTy).Contents (Elt Ideal))
    (x10 x13 x14 : (⟨S256, .f32⟩ : BufTy).Contents (Elt Ideal)) (i : S20000x256.Idx) :
    val_main_v64 (F := Ideal) x0 x1 x2 x3 x4 x5 x6 x7 x8 x9 x10 x13 x14 i = silu (val_main_v63 (F := Ideal) x0 x1 x2 x3 x4 x5 x6 x7 x8 x9 x10 x13 x14 i) := by
  rw [val_main_v64_apply, val_main_call1_v5_apply, val_main_call1_v4_apply, val_main_call1_cst_0_apply,
    val_main_call1_v3_apply, val_main_call1_v2_apply, val_main_call1_cst_apply, val_main_call1_v1_apply,
    val_main_call1_v0_apply]
  generalize val_main_v63 (F := Ideal) x0 x1 x2 x3 x4 x5 x6 x7 x8 x9 x10 x13 x14 i = z
  rw [Ideal.mulf_def, Ideal.hostDivf_def, Ideal.addf_def, Ideal.hostUnary_exp_def, Ideal.hostNegf_def, Ideal.negf_def,
    Ideal.ofBits_def, one_word]
  rfl

private theorem lidx65 (r : Fin 20000) (j : Fin 256) (k : Fin 256) : lidx_main_v65 (ix2 r j) k = ix2 r k :=
  funext fun a => Fin.ext (by match a with | ⟨0, _⟩ => rfl | ⟨1, _⟩ => rfl)
private theorem ridx65 (r : Fin 20000) (j : Fin 256) (k : Fin 256) : ridx_main_v65 (ix2 r j) k = ix2 k j :=
  funext fun a => Fin.ext (by match a with | ⟨0, _⟩ => rfl | ⟨1, _⟩ => rfl)
private theorem bias_idx67 (r : Fin 20000) (j : Fin 256) : idx_main_v66 (idx_main_v67 (ix2 r j)) = ix1 j :=
  funext fun a => Fin.ext (by match a with | ⟨0, _⟩ => rfl)

/-- The residual update at row r, column j, over the pre-activation row. -/
private theorem resid_apply (x0 : (⟨S20000x256, .f32⟩ : BufTy).Contents (Elt Ideal)) (x1 : (⟨S320000x256, .f32⟩ : BufTy).Contents (Elt Ideal))
    (x2 : (⟨S2x320000, .i32⟩ : BufTy).Contents (Elt Ideal)) (x3 : (⟨S256x256, .f32⟩ : BufTy).Contents (Elt Ideal))
    (x4 : (⟨S256, .f32⟩ : BufTy).Contents (Elt Ideal)) (x5 x6 x7 : (⟨S256x256, .f32⟩ : BufTy).Contents (Elt Ideal))
    (x8 : (⟨S256, .f32⟩ : BufTy).Contents (Elt Ideal)) (x9 : (⟨S512x256, .f32⟩ : BufTy).Contents (Elt Ideal))
    (x10 : (⟨S256, .f32⟩ : BufTy).Contents (Elt Ideal)) (x11 : (⟨S256x256, .f32⟩ : BufTy).Contents (Elt Ideal))
    (x12 x13 x14 : (⟨S256, .f32⟩ : BufTy).Contents (Elt Ideal)) (r : Fin 20000) (j : Fin 256) :
    val_main_v69 (F := Ideal) x0 x1 x2 x3 x4 x5 x6 x7 x8 x9 x10 x11 x12 x13 x14 (ix2 r j)
      = rows x0 r j + hidden (fun k => val_main_v63 (F := Ideal) x0 x1 x2 x3 x4 x5 x6 x7 x8 x9 x10 x13 x14 (ix2 r k)) (mat x11) (vec1 x12) j := by
  rw [val_main_v69_apply, val_main_v68_apply, val_main_v65_apply, val_main_v67_apply, val_main_v66_apply,
    Ideal.addf_def, Ideal.addf_def, bias_idx67]
  refine congrArg₂ (· + ·) rfl (congrArg₂ (· + ·) (Finset.sum_congr rfl fun k _ => ?_) rfl)
  rw [lidx65, ridx65, act_apply]; rfl

/-- Row r of the residual update is the node's row plus the hidden row of its pre-activation. -/
private theorem resid_row (x0 : (⟨S20000x256, .f32⟩ : BufTy).Contents (Elt Ideal)) (x1 : (⟨S320000x256, .f32⟩ : BufTy).Contents (Elt Ideal))
    (x2 : (⟨S2x320000, .i32⟩ : BufTy).Contents (Elt Ideal)) (x3 : (⟨S256x256, .f32⟩ : BufTy).Contents (Elt Ideal))
    (x4 : (⟨S256, .f32⟩ : BufTy).Contents (Elt Ideal)) (x5 x6 x7 : (⟨S256x256, .f32⟩ : BufTy).Contents (Elt Ideal))
    (x8 : (⟨S256, .f32⟩ : BufTy).Contents (Elt Ideal)) (x9 : (⟨S512x256, .f32⟩ : BufTy).Contents (Elt Ideal))
    (x10 : (⟨S256, .f32⟩ : BufTy).Contents (Elt Ideal)) (x11 : (⟨S256x256, .f32⟩ : BufTy).Contents (Elt Ideal))
    (x12 x13 x14 : (⟨S256, .f32⟩ : BufTy).Contents (Elt Ideal)) (r : Fin 20000) :
    rows (val_main_v69 (F := Ideal) x0 x1 x2 x3 x4 x5 x6 x7 x8 x9 x10 x11 x12 x13 x14) r
      = fun j => rows x0 r j + hidden (fun j => (rowMul (rows x0 r) (matTop x9) j
          + rowMul (rows (val_main_v58 (F := Ideal) x0 x1 x2 x3 x4 x5 x6 x7 x8 x13 x14) r) (matBot x9) j) + vec1 x10 j)
          (mat x11) (vec1 x12) j := by
  funext j
  show val_main_v69 (F := Ideal) x0 x1 x2 x3 x4 x5 x6 x7 x8 x9 x10 x11 x12 x13 x14 (ix2 r j) = _
  rw [resid_apply]
  exact congrArg (fun z => rows x0 r j + hidden z (mat x11) (vec1 x12) j)
    (funext fun k => pre_apply x0 x1 x2 x3 x4 x5 x6 x7 x8 x9 x10 x13 x14 r k)

private theorem col_idx71 (r : Fin 20000) (c : Fin 1) : idx_main_v71 (ix2 r c) = ix1 r :=
  funext fun a => Fin.ext (by match a with | ⟨0, _⟩ => rfl)
private theorem row_idx70 (r : Fin 20000) (k : Fin 256) : idx_main_v70 (ix1 r) k = ix2 r k :=
  funext fun a => Fin.ext (by match a with | ⟨0, _⟩ => rfl | ⟨1, _⟩ => rfl)

/-- The reference's row mean: the row's sum from a zero word, divided by the word of 256. -/
private theorem mean_apply (x0 : (⟨S20000x256, .f32⟩ : BufTy).Contents (Elt Ideal)) (x1 : (⟨S320000x256, .f32⟩ : BufTy).Contents (Elt Ideal))
    (x2 : (⟨S2x320000, .i32⟩ : BufTy).Contents (Elt Ideal)) (x3 : (⟨S256x256, .f32⟩ : BufTy).Contents (Elt Ideal))
    (x4 : (⟨S256, .f32⟩ : BufTy).Contents (Elt Ideal)) (x5 x6 x7 : (⟨S256x256, .f32⟩ : BufTy).Contents (Elt Ideal))
    (x8 : (⟨S256, .f32⟩ : BufTy).Contents (Elt Ideal)) (x9 : (⟨S512x256, .f32⟩ : BufTy).Contents (Elt Ideal))
    (x10 : (⟨S256, .f32⟩ : BufTy).Contents (Elt Ideal)) (x11 : (⟨S256x256, .f32⟩ : BufTy).Contents (Elt Ideal))
    (x12 x13 x14 : (⟨S256, .f32⟩ : BufTy).Contents (Elt Ideal)) (r : Fin 20000) (c : Fin 1) :
    val_main_v73 (F := Ideal) x0 x1 x2 x3 x4 x5 x6 x7 x8 x9 x10 x11 x12 x13 x14 (ix2 r c) = rowMean (rows (val_main_v69 (F := Ideal) x0 x1 x2 x3 x4 x5 x6 x7 x8 x9 x10 x11 x12 x13 x14) r) := by
  rw [val_main_v73_apply, val_main_v71_apply, col_idx71, val_main_v70_apply, val_main_cst_8_apply, val_main_v72_apply,
    val_main_cst_9_apply]
  generalize val_main_v69 (F := Ideal) x0 x1 x2 x3 x4 x5 x6 x7 x8 x9 x10 x11 x12 x13 x14 = Y
  rw [Ideal.hostDivf_def, Ideal.ofBits_def, Ideal.ofBits_def, Ideal.ofBits_zero_f32, zero_add]
  refine congrArg₂ Ideal.div (Finset.sum_congr rfl fun k _ => ?_) rfl
  rw [row_idx70]; rfl

private theorem bc_idx74 (r : Fin 20000) (j : Fin 256) : idx_main_v74 (ix2 r j) = ix2 r (0 : Fin 1) :=
  funext fun a => Fin.ext (by match a with | ⟨0, _⟩ => rfl | ⟨1, _⟩ => rfl)
private theorem bc_idx81 (r : Fin 20000) (j : Fin 256) : idx_main_v81 (ix2 r j) = ix2 r (0 : Fin 1) :=
  funext fun a => Fin.ext (by match a with | ⟨0, _⟩ => rfl | ⟨1, _⟩ => rfl)
private theorem bc_idx86 (r : Fin 20000) (j : Fin 256) : idx_main_v86 (ix2 r j) = ix2 r (0 : Fin 1) :=
  funext fun a => Fin.ext (by match a with | ⟨0, _⟩ => rfl | ⟨1, _⟩ => rfl)
private theorem col_idx78 (r : Fin 20000) (c : Fin 1) : idx_main_v78 (ix2 r c) = ix1 r :=
  funext fun a => Fin.ext (by match a with | ⟨0, _⟩ => rfl)
private theorem row_idx77 (r : Fin 20000) (k : Fin 256) : idx_main_v77 (ix1 r) k = ix2 r k :=
  funext fun a => Fin.ext (by match a with | ⟨0, _⟩ => rfl | ⟨1, _⟩ => rfl)
private theorem bias_idx89 (r : Fin 20000) (j : Fin 256) : idx_main_v88 (idx_main_v89 (ix2 r j)) = ix1 j :=
  funext fun a => Fin.ext (by match a with | ⟨0, _⟩ => rfl)
private theorem bias_idx92 (r : Fin 20000) (j : Fin 256) : idx_main_v91 (idx_main_v92 (ix2 r j)) = ix1 j :=
  funext fun a => Fin.ext (by match a with | ⟨0, _⟩ => rfl)

/-- The deviation of an entry of the residual update from its row's mean. -/
private theorem dev_apply (x0 : (⟨S20000x256, .f32⟩ : BufTy).Contents (Elt Ideal)) (x1 : (⟨S320000x256, .f32⟩ : BufTy).Contents (Elt Ideal))
    (x2 : (⟨S2x320000, .i32⟩ : BufTy).Contents (Elt Ideal)) (x3 : (⟨S256x256, .f32⟩ : BufTy).Contents (Elt Ideal))
    (x4 : (⟨S256, .f32⟩ : BufTy).Contents (Elt Ideal)) (x5 x6 x7 : (⟨S256x256, .f32⟩ : BufTy).Contents (Elt Ideal))
    (x8 : (⟨S256, .f32⟩ : BufTy).Contents (Elt Ideal)) (x9 : (⟨S512x256, .f32⟩ : BufTy).Contents (Elt Ideal))
    (x10 : (⟨S256, .f32⟩ : BufTy).Contents (Elt Ideal)) (x11 : (⟨S256x256, .f32⟩ : BufTy).Contents (Elt Ideal))
    (x12 x13 x14 : (⟨S256, .f32⟩ : BufTy).Contents (Elt Ideal)) (r : Fin 20000) (j : Fin 256) :
    val_main_v75 (F := Ideal) x0 x1 x2 x3 x4 x5 x6 x7 x8 x9 x10 x11 x12 x13 x14 (ix2 r j)
      = rows (val_main_v69 (F := Ideal) x0 x1 x2 x3 x4 x5 x6 x7 x8 x9 x10 x11 x12 x13 x14) r j - rowMean (rows (val_main_v69 (F := Ideal) x0 x1 x2 x3 x4 x5 x6 x7 x8 x9 x10 x11 x12 x13 x14) r) := by
  rw [val_main_v75_apply, val_main_v74_apply, bc_idx74, mean_apply, Ideal.subf_def]; rfl

/-- The reference's row variance: the squared deviations' sum from a zero word, divided by the word of 256. -/
private theorem var_apply (x0 : (⟨S20000x256, .f32⟩ : BufTy).Contents (Elt Ideal)) (x1 : (⟨S320000x256, .f32⟩ : BufTy).Contents (Elt Ideal))
    (x2 : (⟨S2x320000, .i32⟩ : BufTy).Contents (Elt Ideal)) (x3 : (⟨S256x256, .f32⟩ : BufTy).Contents (Elt Ideal))
    (x4 : (⟨S256, .f32⟩ : BufTy).Contents (Elt Ideal)) (x5 x6 x7 : (⟨S256x256, .f32⟩ : BufTy).Contents (Elt Ideal))
    (x8 : (⟨S256, .f32⟩ : BufTy).Contents (Elt Ideal)) (x9 : (⟨S512x256, .f32⟩ : BufTy).Contents (Elt Ideal))
    (x10 : (⟨S256, .f32⟩ : BufTy).Contents (Elt Ideal)) (x11 : (⟨S256x256, .f32⟩ : BufTy).Contents (Elt Ideal))
    (x12 x13 x14 : (⟨S256, .f32⟩ : BufTy).Contents (Elt Ideal)) (r : Fin 20000) (c : Fin 1) :
    val_main_v80 (F := Ideal) x0 x1 x2 x3 x4 x5 x6 x7 x8 x9 x10 x11 x12 x13 x14 (ix2 r c) = rowVar (rows (val_main_v69 (F := Ideal) x0 x1 x2 x3 x4 x5 x6 x7 x8 x9 x10 x11 x12 x13 x14) r) := by
  rw [val_main_v80_apply, val_main_v78_apply, col_idx78, val_main_v77_apply, val_main_cst_10_apply, val_main_v79_apply,
    val_main_cst_11_apply, Ideal.hostDivf_def, Ideal.ofBits_def, Ideal.ofBits_def, Ideal.ofBits_zero_f32, zero_add]
  refine congrArg₂ Ideal.div (Finset.sum_congr rfl fun k _ => ?_) rfl
  rw [row_idx77, val_main_v76_apply, dev_apply, Ideal.mulf_def]

/-- The reference's result at row r, column j is the layer normalisation of row r of the residual update. -/
private theorem final_apply (x0 : (⟨S20000x256, .f32⟩ : BufTy).Contents (Elt Ideal)) (x1 : (⟨S320000x256, .f32⟩ : BufTy).Contents (Elt Ideal))
    (x2 : (⟨S2x320000, .i32⟩ : BufTy).Contents (Elt Ideal)) (x3 : (⟨S256x256, .f32⟩ : BufTy).Contents (Elt Ideal))
    (x4 : (⟨S256, .f32⟩ : BufTy).Contents (Elt Ideal)) (x5 x6 x7 : (⟨S256x256, .f32⟩ : BufTy).Contents (Elt Ideal))
    (x8 : (⟨S256, .f32⟩ : BufTy).Contents (Elt Ideal)) (x9 : (⟨S512x256, .f32⟩ : BufTy).Contents (Elt Ideal))
    (x10 : (⟨S256, .f32⟩ : BufTy).Contents (Elt Ideal)) (x11 : (⟨S256x256, .f32⟩ : BufTy).Contents (Elt Ideal))
    (x12 x13 x14 : (⟨S256, .f32⟩ : BufTy).Contents (Elt Ideal)) (x15 x16 : (⟨S256, .f32⟩ : BufTy).Contents (Elt Ideal)) (r : Fin 20000) (j : Fin 256) :
    val_main_v93 (F := Ideal) x0 x1 x2 x3 x4 x5 x6 x7 x8 x9 x10 x11 x12 x13 x14 x15 x16 (ix2 r j)
      = layerNorm (rows (val_main_v69 (F := Ideal) x0 x1 x2 x3 x4 x5 x6 x7 x8 x9 x10 x11 x12 x13 x14) r) (vec1 x15) (vec1 x16) j := by
  rw [val_main_v93_apply, val_main_v90_apply, val_main_v87_apply, val_main_v82_apply, val_main_v81_apply, bc_idx81, mean_apply,
    val_main_v86_apply, bc_idx86, val_main_v85_apply, val_main_v84_apply, var_apply, val_main_v83_apply, val_main_cst_12_apply,
    val_main_v89_apply, val_main_v88_apply, bias_idx89, val_main_v92_apply, val_main_v91_apply, bias_idx92]
  simp only [Ideal.addf_def, Ideal.mulf_def, Ideal.subf_def, Ideal.hostUnary_rsqrt_def, Ideal.ofBits_def]
  rfl

/-- The reference's node result as the node update of the node array and the aggregate. -/
theorem hnew_eq (x0 : (⟨S20000x256, .f32⟩ : BufTy).Contents (Elt Ideal)) (x1 : (⟨S320000x256, .f32⟩ : BufTy).Contents (Elt Ideal))
    (x2 : (⟨S2x320000, .i32⟩ : BufTy).Contents (Elt Ideal)) (x3 : (⟨S256x256, .f32⟩ : BufTy).Contents (Elt Ideal))
    (x4 : (⟨S256, .f32⟩ : BufTy).Contents (Elt Ideal)) (x5 x6 x7 : (⟨S256x256, .f32⟩ : BufTy).Contents (Elt Ideal))
    (x8 : (⟨S256, .f32⟩ : BufTy).Contents (Elt Ideal)) (x9 : (⟨S512x256, .f32⟩ : BufTy).Contents (Elt Ideal))
    (x10 : (⟨S256, .f32⟩ : BufTy).Contents (Elt Ideal)) (x11 : (⟨S256x256, .f32⟩ : BufTy).Contents (Elt Ideal))
    (x12 x13 x14 x15 x16 : (⟨S256, .f32⟩ : BufTy).Contents (Elt Ideal)) :
    val_main_v93 (F := Ideal) x0 x1 x2 x3 x4 x5 x6 x7 x8 x9 x10 x11 x12 x13 x14 x15 x16
      = nodeOf (n := 20000) x0 (val_main_v58 (F := Ideal) x0 x1 x2 x3 x4 x5 x6 x7 x8 x13 x14)
          (matTop x9) (matBot x9) (mat x11) (vec1 x10) (vec1 x12) (vec1 x15) (vec1 x16) := by
  funext i
  obtain ⟨r, j, rfl⟩ : ∃ (r : Fin 20000) (j : Fin 256), i = ix2 r j := ⟨i 0, i 1, eq_ix2 (n0 := 20000) (n1 := 256) i⟩
  rw [nodeOf_apply, final_apply, resid_row]
  rfl

end Cert.ReferenceIdeal.Node

end
-- ==== Proof.HostBefore.lean ====
/- What the edge region is entered with. The two gathered node arrays: the program wraps a negative index by adding 20000,
   gathers the rows, and replaces a row whose wrapped index is outside 0 … 19999 by a filler; with every index in range the
   test passes on every row, so each gathered array is the plain gather of the wrapped indices, which is the
   reference's own term. The edge array and the four weights are the arguments themselves, and each bias is its `[256]`
   argument laid out as one row of a `[1, 256]` array. -/
import proofs.«428125_j68753836474499_1_alg».proof.Proof.Gen.KernelIdeal.Frame
import proofs.«428125_j68753836474499_1_alg».proof.Proof.Gen.ReferenceIdeal.Read
import proofs.«428125_j68753836474499_1_alg».proof.Proof.Spec
import Idealize.ShloMosaic.Lib.ValueIdx
import Idealize.ShloMosaic.Lib.ValueLayout
import Idealize.ShloMosaic.Lib.Pipeline.Value
import Idealize.ShloMosaic.Lib.StableHlo.Run
import Idealize.ShloMosaic.Lib.StableHlo.Predicate
import Idealize.ShloMosaic.Lib.ReduceAll

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Host

open Cert.KernelIdeal Cert.KernelIdeal.Gen Cert.GraphNet

variable (m : (ℓ : Loc nD τ sig) → Buf (Elt Ideal) ℓ) (ρ : Dev nD → PrngReg)

/-- None of a stretch's operations writes the buffer, so the stretch leaves it as it was. -/
local macro "stretch_keeps" : tactic => `(tactic| (
  refine StableHlo.after_of_forall_not_mem _ _ (List.forall_iff_forall_mem.mp ?_)
  simp only [hostOps0, hostOps0_1, hostOps0_2, hostOps0_3, List.Forall, StableHlo.nullary_writes, StableHlo.unary_writes,
    StableHlo.binary_writes, StableHlo.ternary_writes, StableHlo.quaternary_writes, StableHlo.reshape_writes,
    StableHlo.binaryIndexed_writes, Finset.mem_singleton]
  repeat' apply And.intro
  all_goals exact StableHlo.devRef_ne_of_ne (by decide)))

/-- The index column the program gathers with: a negative index wrapped by adding 20000, laid out as a `[320000, 1]` array. -/
private def wrapIdx (s : (⟨S320000, .i32⟩ : BufTy).Contents (Elt Ideal)) : (⟨S320000x1, .i32⟩ : BufTy).Contents (Elt Ideal) :=
  broadcastInDim S320000x1 ![0] bcast_S320000_S320000x1_0
    (select (cmpi .slt s (broadcastInDim S320000 ![] bcast_S_S320000 (constantI S_ 32 0#32)))
      (addi s (broadcastInDim S320000 ![] bcast_S_S320000 (constantI S_ 32 20000#32))) s)

/-- The program's `take`: the gathered rows, a row whose wrapped index is outside 0 … 19999 replaced by a filler. -/
private def takeRows (x0 : (⟨S20000x256, .f32⟩ : BufTy).Contents (Elt Ideal)) (s : (⟨S320000, .i32⟩ : BufTy).Contents (Elt Ideal)) :
    (⟨S320000x256, .f32⟩ : BufTy).Contents (Elt Ideal) :=
  select
    (broadcastInDim S320000x256 ![0] bcast_S320000_S320000x256_0
      (Host.reduce IntOp.andi
        (andi (cmpi .sge (wrapIdx s) (broadcastInDim S320000x1 ![] bcast_S_S320000x1 (constantI S_ 32 0#32)))
          (cmpi .sle (wrapIdx s) (broadcastInDim S320000x1 ![0, 1] bcast_S1x1_S320000x1_0_1
            (broadcastInDim S1x1 ![1] bcast_S1_S1x1_1 (constantI S1 32 19999#32)))))
        (constantI S_ 1 1#1) reducesTo_S320000x1_S320000_d1 h_S_))
    (Host.gather gather_S20000x256_S320000x1_S320000x256_1_0_n_n_0_1_1256 x0 (wrapIdx s))
    (broadcastInDim S320000x256 ![] bcast_S_S320000x256 (constant (F := Ideal) S_ .f32 0x7FC00000#32))

/-- A word that is at least 0 and below 20000 as a signed word is below 20000 as a number. -/
private theorem toNat_lt_of_signed_range (v : BitVec 32) (h0 : IntOp.cmpi .sge v 0#32 = 1#1)
    (h1 : IntOp.cmpi .slt v 20000#32 = 1#1) : v.toNat < 20000 := by
  unfold IntOp.cmpi at h0 h1
  rw [StableHlo.Predicate.ofBool_eq_one_iff] at h0 h1
  simp only [BitVec.sle, BitVec.slt, decide_eq_true_eq] at h0 h1
  have hz : (0#32 : BitVec 32).toInt = 0 := by decide
  have ht : (20000#32 : BitVec 32).toInt = 20000 := by decide
  rw [hz] at h0
  rw [ht] at h1
  have hv := v.isLt
  have e := BitVec.toInt_eq_toNat_cond v
  by_cases hc : 2 * v.toNat < 2 ^ 32
  · rw [if_pos hc] at e; omega
  · rw [if_neg hc] at e; omega

/-- On such a word the wrap of a negative index does nothing, and the upper range test passes. -/
private theorem wrap_word (v : BitVec 32) (h0 : IntOp.cmpi .sge v 0#32 = 1#1) (h1 : IntOp.cmpi .slt v 20000#32 = 1#1) :
    Scalar.select (IntOp.cmpi .slt v 0#32) (IntOp.addi v 20000#32) v = v ∧ IntOp.cmpi .sle v 19999#32 = 1#1 := by
  have hv := toNat_lt_of_signed_range v h0 h1
  have hv31 : v.toNat < 2 ^ 31 := by omega
  constructor
  · have hn : IntOp.cmpi .slt v 0#32 ≠ 1#1 := fun e => by
      have := (StableHlo.Predicate.slt_iff_toNat hv31 (by decide)).1 e
      simp at this
    exact if_neg hn
  · exact (StableHlo.Predicate.sle_iff_toNat hv31 (by decide)).2 (by
      show v.toNat ≤ 19999; omega)

/-- An and-fold from 1 over words that are all 1 is 1. -/
private theorem foldl_andi_ones {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a List.mem_cons_self, show IntOp.andi 1#1 1#1 = 1#1 from by decide]
    exact foldl_andi_ones f l fun n hn => h n (List.mem_cons_of_mem _ hn)

/-- An and-reduce from 1 of an array of ones is 1 everywhere. -/
private theorem reduce_andi_ones {s t u : Shape} {axes : List (Fin s.rank)} (x : s.Idx → BitVec 1) (init : u.Idx → BitVec 1)
    (h : s.ReducesTo axes t) (hu : 0 < u.numel) (hx : ∀ i, x i = 1#1) (hi : ∀ k, init k = 1#1) (j : t.Idx) :
    Host.reduce IntOp.andi x init h hu j = 1#1 := by
  rw [Host.reduce_eq_foldl, hi]
  exact foldl_andi_ones x _ fun n _ => hx n

/-- The row of the index array a position of the `[320000, 1]` column stands for. -/
private abbrev rowOf (i : S320000x1.Idx) : S320000.Idx := fun a => match a with
  | ⟨0, _⟩ => ⟨(i 0).val, (i 0).isLt⟩
/-- The row an entry of a `[320000, 256]` array lies in. -/
private abbrev rowOf2 (j : S320000x256.Idx) : S320000.Idx := fun a => match a with
  | ⟨0, _⟩ => ⟨(j 0).val, (j 0).isLt⟩

/-- The wrapped index column at a position. -/
private theorem wrapIdx_apply (s : (⟨S320000, .i32⟩ : BufTy).Contents (Elt Ideal)) (i : S320000x1.Idx) :
    wrapIdx s i = Scalar.select (IntOp.cmpi .slt (s (rowOf i)) 0#32) (IntOp.addi (s (rowOf i)) 20000#32) (s (rowOf i)) := by
  unfold wrapIdx
  rw [broadcastInDim_apply _ bcast_S320000_S320000x1_0 _ i (rowOf i) (fun a => match a with
    | ⟨0, _⟩ => by show (i 0).val = if (320000 : Nat) = 1 then 0 else (i 0).val; rw [if_neg (by decide)])]
  rfl

/-- With every index in range the validity test passes on every row, so `take` is the plain gather of the wrapped indices. -/
private theorem takeRows_eq_gather (x0 : (⟨S20000x256, .f32⟩ : BufTy).Contents (Elt Ideal)) (s : (⟨S320000, .i32⟩ : BufTy).Contents (Elt Ideal))
    (hs : ∀ k, IntOp.cmpi .sge (s k) 0#32 = 1#1 ∧ IntOp.cmpi .slt (s k) 20000#32 = 1#1) :
    takeRows x0 s = Host.gather gather_S20000x256_S320000x1_S320000x256_1_0_n_n_0_1_1256 x0 (wrapIdx s) := by
  have hw : ∀ i, wrapIdx s i = s (rowOf i) := fun i => by
    rw [wrapIdx_apply]; exact (wrap_word _ (hs _).1 (hs _).2).1
  have hx : ∀ i : S320000x1.Idx,
      (andi (cmpi .sge (wrapIdx s) (broadcastInDim S320000x1 ![] bcast_S_S320000x1 (constantI S_ 32 0#32)))
        (cmpi .sle (wrapIdx s) (broadcastInDim S320000x1 ![0, 1] bcast_S1x1_S320000x1_0_1
          (broadcastInDim S1x1 ![1] bcast_S1_S1x1_1 (constantI S1 32 19999#32))))) i = 1#1 := fun i => by
    show IntOp.andi (IntOp.cmpi .sge (wrapIdx s i) 0#32) (IntOp.cmpi .sle (wrapIdx s i) 19999#32) = 1#1
    rw [hw i, (hs _).1, (wrap_word _ (hs _).1 (hs _).2).2]
    decide
  funext (j : S320000x256.Idx)
  unfold takeRows
  rw [select_apply, broadcastInDim_apply _ bcast_S320000_S320000x256_0 _ j (rowOf2 j) (fun a => match a with
    | ⟨0, _⟩ => by show (j 0).val = if (320000 : Nat) = 1 then 0 else (j 0).val; rw [if_neg (by decide)]),
    reduce_andi_ones _ (constantI S_ 1 1#1) _ _ hx (fun _ => rfl), select_one]

/-- The first `take` stretch writes the gathered source rows: `take` of the node table and the source indices it was entered with. -/
private theorem take_src (V : Valuation τ sig (Elt Ideal)) :
    (StableHlo.after hostOps0_1 V (Proc.devRef .tc main_v4) : (⟨S320000x256, .f32⟩ : BufTy).Contents (Elt Ideal))
      = takeRows (V (Proc.devRef .tc main_arg0)) (V (Proc.devRef .tc main_v1)) := by
  after_results_simp
  simp only [StableHlo.TRef.ofBuf, StableHlo.TRef.toBuf, cast_eq]
  rfl

/-- The second `take` stretch writes the gathered destination rows likewise. -/
private theorem take_dst (V : Valuation τ sig (Elt Ideal)) :
    (StableHlo.after hostOps0_2 V (Proc.devRef .tc main_v5) : (⟨S320000x256, .f32⟩ : BufTy).Contents (Elt Ideal))
      = takeRows (V (Proc.devRef .tc main_arg0)) (V (Proc.devRef .tc main_v3)) := by
  after_results_simp
  simp only [StableHlo.TRef.ofBuf, StableHlo.TRef.toBuf, cast_eq]
  rfl

/-- The first stretch writes the source indices: row 0 of the index array, as the reference slices and reshapes it. -/
private theorem idx_src (V : Valuation τ sig (Elt Ideal)) :
    (StableHlo.after hostOps0 V (Proc.devRef .tc main_v1) : (⟨S320000, .i32⟩ : BufTy).Contents (Elt Ideal))
      = Cert.ReferenceIdeal.Read.val_main_v1 (F := Ideal) (V (Proc.devRef .tc main_arg2)) := by
  after_results
  rfl

/-- And the destination indices: row 1 of the index array. -/
private theorem idx_dst (V : Valuation τ sig (Elt Ideal)) :
    (StableHlo.after hostOps0 V (Proc.devRef .tc main_v3) : (⟨S320000, .i32⟩ : BufTy).Contents (Elt Ideal))
      = Cert.ReferenceIdeal.Read.val_main_v3 (F := Ideal) (V (Proc.devRef .tc main_arg2)) := by
  after_results
  rfl

/-- The wrapped source index column is the reference's own term. -/
private theorem wrapIdx_src (x2 : (⟨S2x320000, .i32⟩ : BufTy).Contents (Elt Ideal)) :
    wrapIdx (Cert.ReferenceIdeal.Read.val_main_v1 (F := Ideal) x2) = Cert.ReferenceIdeal.Read.val_main_v9 (F := Ideal) x2 := rfl

/-- The wrapped destination index column is the reference's own term. -/
private theorem wrapIdx_dst (x2 : (⟨S2x320000, .i32⟩ : BufTy).Contents (Elt Ideal)) :
    wrapIdx (Cert.ReferenceIdeal.Read.val_main_v3 (F := Ideal) x2) = Cert.ReferenceIdeal.Read.val_main_v20 (F := Ideal) x2 := rfl

/-- The two programs' gather records have the same fields. -/
private theorem gather_rec :
    gather_S20000x256_S320000x1_S320000x256_1_0_n_n_0_1_1256
      = Cert.ReferenceIdeal.gather_S20000x256_S320000x1_S320000x256_1_0_n_n_0_1_1256 := rfl

/-- Every source index is in range: it is an entry of row 0 of the index array. -/
private theorem src_inRange (x2 : (⟨S2x320000, .i32⟩ : BufTy).Contents (Elt Ideal)) (hr : InRange x2) (k : S320000.Idx) :
    IntOp.cmpi .sge (Cert.ReferenceIdeal.Read.val_main_v1 (F := Ideal) x2 k) 0#32 = 1#1
      ∧ IntOp.cmpi .slt (Cert.ReferenceIdeal.Read.val_main_v1 (F := Ideal) x2 k) 20000#32 = 1#1 := by
  rw [Cert.ReferenceIdeal.Read.val_main_v1_apply, Cert.ReferenceIdeal.Read.val_main_v0_apply]
  exact hr _

/-- Every destination index is in range: it is an entry of row 1 of the index array. -/
private theorem dst_inRange (x2 : (⟨S2x320000, .i32⟩ : BufTy).Contents (Elt Ideal)) (hr : InRange x2) (k : S320000.Idx) :
    IntOp.cmpi .sge (Cert.ReferenceIdeal.Read.val_main_v3 (F := Ideal) x2 k) 0#32 = 1#1
      ∧ IntOp.cmpi .slt (Cert.ReferenceIdeal.Read.val_main_v3 (F := Ideal) x2 k) 20000#32 = 1#1 := by
  rw [Cert.ReferenceIdeal.Read.val_main_v3_apply, Cert.ReferenceIdeal.Read.val_main_v2_apply]
  exact hr _

/-- The gathered source rows are the reference's gather of the same index array. -/
theorem entry_hsrc (c : Dev nD) (hr : InRange (m ((c : Thread nD τ).loc main_arg2))) :
    V4 m ρ c main_v4 = Cert.ReferenceIdeal.Read.val_main_v10 (F := Ideal) (m ((c : Thread nD τ).loc main_arg0)) (m ((c : Thread nD τ).loc main_arg2)) := by
  have ea : W1 m ρ c (Proc.devRef .tc main_arg0) = m ((c : Thread nD τ).loc main_arg0) := by stretch_keeps
  have ei : W1 m ρ c (Proc.devRef .tc main_v1)
      = Cert.ReferenceIdeal.Read.val_main_v1 (F := Ideal) (m ((c : Thread nD τ).loc main_arg2)) := idx_src (W0 m ρ c)
  calc W4 m ρ c (Proc.devRef .tc main_v4)
    _ = W3 m ρ c (Proc.devRef .tc main_v4) := by stretch_keeps
    _ = W2 m ρ c (Proc.devRef .tc main_v4) := by stretch_keeps
    _ = takeRows (W1 m ρ c (Proc.devRef .tc main_arg0)) (W1 m ρ c (Proc.devRef .tc main_v1)) := take_src (W1 m ρ c)
    _ = takeRows (m ((c : Thread nD τ).loc main_arg0))
          (Cert.ReferenceIdeal.Read.val_main_v1 (F := Ideal) (m ((c : Thread nD τ).loc main_arg2))) := by rw [ea, ei]
    _ = Host.gather gather_S20000x256_S320000x1_S320000x256_1_0_n_n_0_1_1256 (m ((c : Thread nD τ).loc main_arg0))
          (wrapIdx (Cert.ReferenceIdeal.Read.val_main_v1 (F := Ideal) (m ((c : Thread nD τ).loc main_arg2)))) :=
        takeRows_eq_gather _ _ (src_inRange _ hr)
    _ = Cert.ReferenceIdeal.Read.val_main_v10 (F := Ideal) (m ((c : Thread nD τ).loc main_arg0)) (m ((c : Thread nD τ).loc main_arg2)) := by
        rw [wrapIdx_src, gather_rec]; rfl

/-- The gathered destination rows are the reference's gather of the same index array. -/
theorem entry_hdst (c : Dev nD) (hr : InRange (m ((c : Thread nD τ).loc main_arg2))) :
    V4 m ρ c main_v5 = Cert.ReferenceIdeal.Read.val_main_v21 (F := Ideal) (m ((c : Thread nD τ).loc main_arg0)) (m ((c : Thread nD τ).loc main_arg2)) := by
  have ea : W2 m ρ c (Proc.devRef .tc main_arg0) = m ((c : Thread nD τ).loc main_arg0) :=
    calc W2 m ρ c (Proc.devRef .tc main_arg0)
      _ = W1 m ρ c (Proc.devRef .tc main_arg0) := by stretch_keeps
      _ = W0 m ρ c (Proc.devRef .tc main_arg0) := by stretch_keeps
  have ei : W2 m ρ c (Proc.devRef .tc main_v3)
      = Cert.ReferenceIdeal.Read.val_main_v3 (F := Ideal) (m ((c : Thread nD τ).loc main_arg2)) :=
    calc W2 m ρ c (Proc.devRef .tc main_v3)
      _ = W1 m ρ c (Proc.devRef .tc main_v3) := by stretch_keeps
      _ = Cert.ReferenceIdeal.Read.val_main_v3 (F := Ideal) (m ((c : Thread nD τ).loc main_arg2)) := idx_dst (W0 m ρ c)
  calc W4 m ρ c (Proc.devRef .tc main_v5)
    _ = W3 m ρ c (Proc.devRef .tc main_v5) := by stretch_keeps
    _ = takeRows (W2 m ρ c (Proc.devRef .tc main_arg0)) (W2 m ρ c (Proc.devRef .tc main_v3)) := take_dst (W2 m ρ c)
    _ = takeRows (m ((c : Thread nD τ).loc main_arg0))
          (Cert.ReferenceIdeal.Read.val_main_v3 (F := Ideal) (m ((c : Thread nD τ).loc main_arg2))) := by rw [ea, ei]
    _ = Host.gather gather_S20000x256_S320000x1_S320000x256_1_0_n_n_0_1_1256 (m ((c : Thread nD τ).loc main_arg0))
          (wrapIdx (Cert.ReferenceIdeal.Read.val_main_v3 (F := Ideal) (m ((c : Thread nD τ).loc main_arg2)))) :=
        takeRows_eq_gather _ _ (dst_inRange _ hr)
    _ = Cert.ReferenceIdeal.Read.val_main_v21 (F := Ideal) (m ((c : Thread nD τ).loc main_arg0)) (m ((c : Thread nD τ).loc main_arg2)) := by
        rw [wrapIdx_dst, gather_rec]; rfl

/-- A `[256]` array laid out as one row of a `[1, 256]` array reads, at column `j` of that row, its own entry `j`. -/
private theorem row_layout (x : (⟨S256, .f32⟩ : BufTy).Contents (Elt Ideal)) (j : Fin 256) :
    shapeCast S1x256 x shapeCasts_S256_S1x256 (ix2 0 j) = x (ix1 j) :=
  shapeCast_apply x shapeCasts_S256_S1x256 (ix2 0 j) (ix1 j) (by
    rw [Shape.rowMajor_val_two, Shape.rowMajor_val_one]
    show j.val = 0 * 256 + j.val
    omega)

theorem entry_e (c : Dev nD) : V4 m ρ c main_arg1 = (m ((c : Thread nD τ).loc main_arg1)) :=
  calc W4 m ρ c (Proc.devRef .tc main_arg1)
    _ = W3 m ρ c (Proc.devRef .tc main_arg1) := by stretch_keeps
    _ = W2 m ρ c (Proc.devRef .tc main_arg1) := by stretch_keeps
    _ = W1 m ρ c (Proc.devRef .tc main_arg1) := by stretch_keeps
    _ = W0 m ρ c (Proc.devRef .tc main_arg1) := by stretch_keeps
    _ = m ((c : Thread nD τ).loc main_arg1) := rfl

theorem entry_Wsrc (c : Dev nD) : V4 m ρ c main_arg3 = (m ((c : Thread nD τ).loc main_arg3)) :=
  calc W4 m ρ c (Proc.devRef .tc main_arg3)
    _ = W3 m ρ c (Proc.devRef .tc main_arg3) := by stretch_keeps
    _ = W2 m ρ c (Proc.devRef .tc main_arg3) := by stretch_keeps
    _ = W1 m ρ c (Proc.devRef .tc main_arg3) := by stretch_keeps
    _ = W0 m ρ c (Proc.devRef .tc main_arg3) := by stretch_keeps
    _ = m ((c : Thread nD τ).loc main_arg3) := rfl

theorem entry_Wdst (c : Dev nD) : V4 m ρ c main_arg5 = (m ((c : Thread nD τ).loc main_arg5)) :=
  calc W4 m ρ c (Proc.devRef .tc main_arg5)
    _ = W3 m ρ c (Proc.devRef .tc main_arg5) := by stretch_keeps
    _ = W2 m ρ c (Proc.devRef .tc main_arg5) := by stretch_keeps
    _ = W1 m ρ c (Proc.devRef .tc main_arg5) := by stretch_keeps
    _ = W0 m ρ c (Proc.devRef .tc main_arg5) := by stretch_keeps
    _ = m ((c : Thread nD τ).loc main_arg5) := rfl

theorem entry_We (c : Dev nD) : V4 m ρ c main_arg6 = (m ((c : Thread nD τ).loc main_arg6)) :=
  calc W4 m ρ c (Proc.devRef .tc main_arg6)
    _ = W3 m ρ c (Proc.devRef .tc main_arg6) := by stretch_keeps
    _ = W2 m ρ c (Proc.devRef .tc main_arg6) := by stretch_keeps
    _ = W1 m ρ c (Proc.devRef .tc main_arg6) := by stretch_keeps
    _ = W0 m ρ c (Proc.devRef .tc main_arg6) := by stretch_keeps
    _ = m ((c : Thread nD τ).loc main_arg6) := rfl

theorem entry_Wout (c : Dev nD) : V4 m ρ c main_arg7 = (m ((c : Thread nD τ).loc main_arg7)) :=
  calc W4 m ρ c (Proc.devRef .tc main_arg7)
    _ = W3 m ρ c (Proc.devRef .tc main_arg7) := by stretch_keeps
    _ = W2 m ρ c (Proc.devRef .tc main_arg7) := by stretch_keeps
    _ = W1 m ρ c (Proc.devRef .tc main_arg7) := by stretch_keeps
    _ = W0 m ρ c (Proc.devRef .tc main_arg7) := by stretch_keeps
    _ = m ((c : Thread nD τ).loc main_arg7) := rfl

theorem entry_bsrc (c : Dev nD) : vec2 (V4 m ρ c main_v6) = vec1 (m ((c : Thread nD τ).loc main_arg4)) := by
  have e : (V4 m ρ c main_v6 : S1x256.Idx → EReal)
      = shapeCast _ (m ((c : Thread nD τ).loc main_arg4)) shapeCasts_S256_S1x256 := by
    show StableHlo.after hostOps0_3 _ (Proc.devRef .tc main_v6) = _
    after_results
    rfl
  funext j
  unfold vec2 vec1
  rw [e]
  exact row_layout _ j

theorem entry_bout (c : Dev nD) : vec2 (V4 m ρ c main_v7) = vec1 (m ((c : Thread nD τ).loc main_arg8)) := by
  have e : (V4 m ρ c main_v7 : S1x256.Idx → EReal)
      = shapeCast _ (m ((c : Thread nD τ).loc main_arg8)) shapeCasts_S256_S1x256 := by
    show StableHlo.after hostOps0_3 _ (Proc.devRef .tc main_v7) = _
    after_results
    rfl
  funext j
  unfold vec2 vec1
  rw [e]
  exact row_layout _ j

theorem entry_g (c : Dev nD) : vec2 (V4 m ρ c main_v8) = vec1 (m ((c : Thread nD τ).loc main_arg13)) := by
  have e : (V4 m ρ c main_v8 : S1x256.Idx → EReal)
      = shapeCast _ (m ((c : Thread nD τ).loc main_arg13)) shapeCasts_S256_S1x256 := by
    show StableHlo.after hostOps0_3 _ (Proc.devRef .tc main_v8) = _
    after_results
    rfl
  funext j
  unfold vec2 vec1
  rw [e]
  exact row_layout _ j

theorem entry_beta (c : Dev nD) : vec2 (V4 m ρ c main_v9) = vec1 (m ((c : Thread nD τ).loc main_arg14)) := by
  have e : (V4 m ρ c main_v9 : S1x256.Idx → EReal)
      = shapeCast _ (m ((c : Thread nD τ).loc main_arg14)) shapeCasts_S256_S1x256 := by
    show StableHlo.after hostOps0_3 _ (Proc.devRef .tc main_v9) = _
    after_results
    rfl
  funext j
  unfold vec2 vec1
  rw [e]
  exact row_layout _ j

end Cert.KernelIdeal.Host

end
-- ==== Proof.HostBetween.lean ====
/- Between the regions and after them. The edge result is region 0's output array and nothing later writes it; the node
   result is region 1's output array. The node region is entered with the node array and the second-layer weight as
   launched, the aggregate (the scatter-add of the edge result's rows into a zero table at the destination indices:
   the same operation on the same index array as the reference's), the two halves of the `[512, 256]` first-layer weight,
   and each bias as one row of a `[1, 256]` array. -/
import proofs.«428125_j68753836474499_1_alg».proof.Proof.Gen.KernelIdeal.Frame
import proofs.«428125_j68753836474499_1_alg».proof.Proof.Gen.ReferenceIdeal.Read
import proofs.«428125_j68753836474499_1_alg».proof.Proof.Spec
import Idealize.ShloMosaic.Lib.ValueIdx
import Idealize.ShloMosaic.Lib.ValueLayout
import Idealize.ShloMosaic.Lib.Pipeline.Value
import Idealize.ShloMosaic.Lib.StableHlo.Run
import Idealize.ShloMosaic.Lib.StableHlo.Predicate
import Idealize.ShloMosaic.Lib.ReduceAll

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Host

open Cert.KernelIdeal Cert.KernelIdeal.Gen Cert.GraphNet

variable (m : (ℓ : Loc nD τ sig) → Buf (Elt Ideal) ℓ) (ρ : Dev nD → PrngReg)

/-- No operation of a stretch of host operations writes the buffer in the goal: the stretch is a literal list, each
    operation writes its result buffer only, and the references are told apart by their names. -/
local macro "no_write" : tactic => `(tactic|
  exact List.forall_iff_forall_mem.mp (by
    simp only [hostOps0, hostOps0_1, hostOps0_2, hostOps0_3, hostOps1, List.flatten_cons, List.flatten_nil, List.append_nil,
      List.cons_append, List.nil_append, List.Forall, StableHlo.nullary_writes, StableHlo.unary_writes,
      StableHlo.binary_writes, StableHlo.ternary_writes, StableHlo.quaternary_writes, StableHlo.reshape_writes,
      StableHlo.binaryIndexed_writes, Finset.mem_singleton]
    repeat' apply And.intro
    all_goals exact StableHlo.devRef_ne_of_ne (by decide)))

/-! ## A buffer nothing writes is as launched -/

/-- A buffer none of the four stretches of host operations before region 0 writes is, at region 0's entry, as launched. -/
private theorem W4_of_unwritten (c : Dev nD) (b : Ref sig .tc)
    (h0 : ∀ op ∈ (hostOps0 : List (HloOp τ sig (Elt Ideal))), Proc.devRef .tc b ∉ op.writes)
    (h1 : ∀ op ∈ (hostOps0_1 : List (HloOp τ sig (Elt Ideal))), Proc.devRef .tc b ∉ op.writes)
    (h2 : ∀ op ∈ (hostOps0_2 : List (HloOp τ sig (Elt Ideal))), Proc.devRef .tc b ∉ op.writes)
    (h3 : ∀ op ∈ (hostOps0_3 : List (HloOp τ sig (Elt Ideal))), Proc.devRef .tc b ∉ op.writes) :
    W4 m ρ c (Proc.devRef .tc b) = m ((c : Thread nD τ).loc b) :=
  calc W4 m ρ c (Proc.devRef .tc b)
    _ = W3 m ρ c (Proc.devRef .tc b) := StableHlo.after_of_forall_not_mem _ _ h3
    _ = W2 m ρ c (Proc.devRef .tc b) := StableHlo.after_of_forall_not_mem _ _ h2
    _ = W1 m ρ c (Proc.devRef .tc b) := StableHlo.after_of_forall_not_mem _ _ h1
    _ = W0 m ρ c (Proc.devRef .tc b) := StableHlo.after_of_forall_not_mem _ _ h0
    _ = m ((c : Thread nD τ).loc b) := rfl

/-- If moreover it is no array of region 0, it is as launched at region 0's exit too. -/
private theorem W5_of_unwritten (c : Dev nD) (b : Ref sig .tc) (hne : ∀ w, Pipeline.arrRef spec0 w ≠ b)
    (h0 : ∀ op ∈ (hostOps0 : List (HloOp τ sig (Elt Ideal))), Proc.devRef .tc b ∉ op.writes)
    (h1 : ∀ op ∈ (hostOps0_1 : List (HloOp τ sig (Elt Ideal))), Proc.devRef .tc b ∉ op.writes)
    (h2 : ∀ op ∈ (hostOps0_2 : List (HloOp τ sig (Elt Ideal))), Proc.devRef .tc b ∉ op.writes)
    (h3 : ∀ op ∈ (hostOps0_3 : List (HloOp τ sig (Elt Ideal))), Proc.devRef .tc b ∉ op.writes) :
    W5 m ρ c (Proc.devRef .tc b) = m ((c : Thread nD τ).loc b) :=
  (W5_of_ne m ρ c b hne).trans (W4_of_unwritten m ρ c b h0 h1 h2 h3)

/-- And if the host operations between the regions do not write it either, at region 1's entry. -/
private theorem W6_of_unwritten (c : Dev nD) (b : Ref sig .tc) (hne : ∀ w, Pipeline.arrRef spec0 w ≠ b)
    (h0 : ∀ op ∈ (hostOps0 : List (HloOp τ sig (Elt Ideal))), Proc.devRef .tc b ∉ op.writes)
    (h1 : ∀ op ∈ (hostOps0_1 : List (HloOp τ sig (Elt Ideal))), Proc.devRef .tc b ∉ op.writes)
    (h2 : ∀ op ∈ (hostOps0_2 : List (HloOp τ sig (Elt Ideal))), Proc.devRef .tc b ∉ op.writes)
    (h3 : ∀ op ∈ (hostOps0_3 : List (HloOp τ sig (Elt Ideal))), Proc.devRef .tc b ∉ op.writes)
    (h4 : ∀ op ∈ (hostOps1 : List (HloOp τ sig (Elt Ideal))), Proc.devRef .tc b ∉ op.writes) :
    W6 m ρ c (Proc.devRef .tc b) = m ((c : Thread nD τ).loc b) :=
  (StableHlo.after_of_forall_not_mem _ _ h4).trans (W5_of_unwritten m ρ c b hne h0 h1 h2 h3)

/-! ## The two results -/

/-- The edge result at the end of the run is what region 0 left in its output array: it is no array of region 1, and
    the host operations between the regions read it without writing it. -/
theorem exit_enew (c : Dev nD) : W7 m ρ c (Proc.devRef .tc main_v10) = (dat0 (V4 m ρ) c).arrAt 11 cfg0.N :=
  calc W7 m ρ c (Proc.devRef .tc main_v10)
    _ = W6 m ρ c (Proc.devRef .tc main_v10) := W7_of_ne m ρ c main_v10 (by decide)
    _ = W5 m ρ c (Proc.devRef .tc main_v10) := StableHlo.after_of_forall_not_mem _ _ (by no_write)
    _ = (dat0 (V4 m ρ) c).arrAt 11 cfg0.N := W5_arr m ρ c 11

/-- The node result at the end of the run is what region 1 left in its output array. -/
theorem exit_hnew (c : Dev nD) : W7 m ρ c (Proc.devRef .tc main_v20) = (dat1 (V6 m ρ) c).arrAt 9 cfg1.N :=
  W7_arr m ρ c 9

/-! ## Region 1's inputs that are arguments -/

theorem mid_h (c : Dev nD) : V6 m ρ c main_arg0 = (m ((c : Thread nD τ).loc main_arg0)) :=
  W6_of_unwritten m ρ c main_arg0 (by decide) (by no_write) (by no_write) (by no_write) (by no_write) (by no_write)
theorem mid_W2 (c : Dev nD) : V6 m ρ c main_arg11 = (m ((c : Thread nD τ).loc main_arg11)) :=
  W6_of_unwritten m ρ c main_arg11 (by decide) (by no_write) (by no_write) (by no_write) (by no_write) (by no_write)

/-! ## The biases: a 256-vector reshaped to one row -/

/-- A 256-vector reshaped to a one-row matrix has the vector as its row. -/
private theorem vec2_shapeCast (x : FVec Ideal S256 .f32) :
    vec2 (shapeCast S1x256 x shapeCasts_S256_S1x256) = vec1 x := by
  funext j
  unfold vec2 vec1
  exact shapeCast_apply x shapeCasts_S256_S1x256 (ix2 0 j) (ix1 j)
    (by rw [Shape.rowMajor_val_two, Shape.rowMajor_val_one]; show j.val = 0 * 256 + j.val; omega)

theorem mid_b1 (c : Dev nD) : vec2 (V6 m ρ c main_v16) = vec1 (m ((c : Thread nD τ).loc main_arg10)) := by
  have e : (W6 m ρ c (Proc.devRef .tc main_v16) : FVec Ideal S1x256 .f32)
      = shapeCast S1x256 (W5 m ρ c (Proc.devRef .tc main_arg10)) shapeCasts_S256_S1x256 := by
    show StableHlo.after hostOps1 _ (Proc.devRef .tc main_v16) = _
    after_results
    rfl
  show vec2 (W6 m ρ c (Proc.devRef .tc main_v16)) = _
  rw [e, vec2_shapeCast, W5_of_unwritten m ρ c main_arg10 (by decide) (by no_write) (by no_write) (by no_write) (by no_write)]

theorem mid_b2 (c : Dev nD) : vec2 (V6 m ρ c main_v17) = vec1 (m ((c : Thread nD τ).loc main_arg12)) := by
  have e : (W6 m ρ c (Proc.devRef .tc main_v17) : FVec Ideal S1x256 .f32)
      = shapeCast S1x256 (W5 m ρ c (Proc.devRef .tc main_arg12)) shapeCasts_S256_S1x256 := by
    show StableHlo.after hostOps1 _ (Proc.devRef .tc main_v17) = _
    after_results
    rfl
  show vec2 (W6 m ρ c (Proc.devRef .tc main_v17)) = _
  rw [e, vec2_shapeCast, W5_of_unwritten m ρ c main_arg12 (by decide) (by no_write) (by no_write) (by no_write) (by no_write)]

theorem mid_g (c : Dev nD) : vec2 (V6 m ρ c main_v18) = vec1 (m ((c : Thread nD τ).loc main_arg15)) := by
  have e : (W6 m ρ c (Proc.devRef .tc main_v18) : FVec Ideal S1x256 .f32)
      = shapeCast S1x256 (W5 m ρ c (Proc.devRef .tc main_arg15)) shapeCasts_S256_S1x256 := by
    show StableHlo.after hostOps1 _ (Proc.devRef .tc main_v18) = _
    after_results
    rfl
  show vec2 (W6 m ρ c (Proc.devRef .tc main_v18)) = _
  rw [e, vec2_shapeCast, W5_of_unwritten m ρ c main_arg15 (by decide) (by no_write) (by no_write) (by no_write) (by no_write)]

theorem mid_beta (c : Dev nD) : vec2 (V6 m ρ c main_v19) = vec1 (m ((c : Thread nD τ).loc main_arg16)) := by
  have e : (W6 m ρ c (Proc.devRef .tc main_v19) : FVec Ideal S1x256 .f32)
      = shapeCast S1x256 (W5 m ρ c (Proc.devRef .tc main_arg16)) shapeCasts_S256_S1x256 := by
    show StableHlo.after hostOps1 _ (Proc.devRef .tc main_v19) = _
    after_results
    rfl
  show vec2 (W6 m ρ c (Proc.devRef .tc main_v19)) = _
  rw [e, vec2_shapeCast, W5_of_unwritten m ρ c main_arg16 (by decide) (by no_write) (by no_write) (by no_write) (by no_write)]

/-! ## The two halves of the first-layer weight -/

/-- Rows 0 to 255 of a 512-row matrix, taken as a slice. -/
private theorem mat_sliceTop (x : FVec Ideal S512x256 .f32) :
    mat (extractStridedSlice S256x256 ![0, 0] x slices_S512x256_S256x256_0_0) = matTop x := by
  funext k j
  unfold mat matTop
  exact extractStridedSlice_apply ![0, 0] x slices_S512x256_S256x256_0_0 (ix2 k j)
    (ix2 (⟨k.val, by have := k.isLt; omega⟩ : Fin 512) j) (fun a => match a with
      | ⟨0, _⟩ => by show k.val = 0 + k.val; omega
      | ⟨1, _⟩ => by show j.val = 0 + j.val; omega)

/-- Rows 256 to 511 of a 512-row matrix, taken as a slice. -/
private theorem mat_sliceBot (x : FVec Ideal S512x256 .f32) :
    mat (extractStridedSlice S256x256 ![256, 0] x slices_S512x256_S256x256_256_0) = matBot x := by
  funext k j
  unfold mat matBot
  exact extractStridedSlice_apply ![256, 0] x slices_S512x256_S256x256_256_0 (ix2 k j)
    (ix2 (⟨256 + k.val, by have := k.isLt; omega⟩ : Fin 512) j) (fun a => match a with
      | ⟨0, _⟩ => by show 256 + k.val = 256 + k.val; rfl
      | ⟨1, _⟩ => by show j.val = 0 + j.val; omega)

theorem mid_Wa (c : Dev nD) : mat (V6 m ρ c main_v14) = matTop (m ((c : Thread nD τ).loc main_arg9)) := by
  have e : (W6 m ρ c (Proc.devRef .tc main_v14) : FVec Ideal S256x256 .f32)
      = extractStridedSlice S256x256 ![0, 0] (W5 m ρ c (Proc.devRef .tc main_arg9)) slices_S512x256_S256x256_0_0 := by
    show StableHlo.after hostOps1 _ (Proc.devRef .tc main_v14) = _
    after_results
  show mat (W6 m ρ c (Proc.devRef .tc main_v14)) = _
  rw [e, mat_sliceTop, W5_of_unwritten m ρ c main_arg9 (by decide) (by no_write) (by no_write) (by no_write) (by no_write)]

theorem mid_Wb (c : Dev nD) : mat (V6 m ρ c main_v15) = matBot (m ((c : Thread nD τ).loc main_arg9)) := by
  have e : (W6 m ρ c (Proc.devRef .tc main_v15) : FVec Ideal S256x256 .f32)
      = extractStridedSlice S256x256 ![256, 0] (W5 m ρ c (Proc.devRef .tc main_arg9)) slices_S512x256_S256x256_256_0 := by
    show StableHlo.after hostOps1 _ (Proc.devRef .tc main_v15) = _
    after_results
  show mat (W6 m ρ c (Proc.devRef .tc main_v15)) = _
  rw [e, mat_sliceBot, W5_of_unwritten m ρ c main_arg9 (by decide) (by no_write) (by no_write) (by no_write) (by no_write)]

/-! ## The aggregate -/

/-- The destination indices at region 0's exit: row 1 of the index array, flattened. The first stretch of host operations
    computes them from the index array as launched, by the reference's own two operations, and nothing later writes them. -/
private theorem W5_dst (c : Dev nD) :
    (W5 m ρ c (Proc.devRef .tc main_v3) : IVec S320000 32)
      = Cert.ReferenceIdeal.Read.val_main_v3 (F := Ideal) (m ((c : Thread nD τ).loc main_arg2)) :=
  calc W5 m ρ c (Proc.devRef .tc main_v3)
    _ = W4 m ρ c (Proc.devRef .tc main_v3) := W5_of_ne m ρ c main_v3 (by decide)
    _ = W3 m ρ c (Proc.devRef .tc main_v3) := StableHlo.after_of_forall_not_mem _ _ (by no_write)
    _ = W2 m ρ c (Proc.devRef .tc main_v3) := StableHlo.after_of_forall_not_mem _ _ (by no_write)
    _ = W1 m ρ c (Proc.devRef .tc main_v3) := StableHlo.after_of_forall_not_mem _ _ (by no_write)
    _ = Cert.ReferenceIdeal.Read.val_main_v3 (F := Ideal) (m ((c : Thread nD τ).loc main_arg2)) := by
        show StableHlo.after hostOps0 _ (Proc.devRef .tc main_v3) = _
        after_results
        rfl

/-- The two programs' scatter-add has the same dimension numbers. -/
private theorem scatter_same :
    Cert.KernelIdeal.scatter_S20000x256_S320000x1_S320000x256_1_0_0_1
      = Cert.ReferenceIdeal.scatter_S20000x256_S320000x1_S320000x256_1_0_0_1 := rfl

/-- The table the rows are added into: all zero, in both programs. -/
private theorem zero_table :
    (broadcastInDim S20000x256 ![] bcast_S_S20000x256 (constant (F := Ideal) S_ .f32 0x00000000#32) : FVec Ideal S20000x256 .f32)
      = Cert.ReferenceIdeal.Read.val_main_v56 (F := Ideal) := rfl

/-- The destination indices as one column, in both programs. -/
private theorem dst_column (x2 : IVec S2x320000 32) :
    (broadcastInDim S320000x1 ![0] bcast_S320000_S320000x1_0 (Cert.ReferenceIdeal.Read.val_main_v3 (F := Ideal) x2) : IVec S320000x1 32)
      = Cert.ReferenceIdeal.Read.val_main_v57 (F := Ideal) x2 := rfl

/-- The aggregate: the reference's scatter-add, of region 0's output array. -/
theorem mid_agg (c : Dev nD) :
    (V6 m ρ c main_v13 : FVec Ideal S20000x256 .f32)
      = Host.scatterAdd (F := Ideal) (φ := .f32) Cert.ReferenceIdeal.scatter_S20000x256_S320000x1_S320000x256_1_0_0_1
          (Cert.ReferenceIdeal.Read.val_main_v56 (F := Ideal))
          (Cert.ReferenceIdeal.Read.val_main_v57 (F := Ideal) (m ((c : Thread nD τ).loc main_arg2)))
          ((dat0 (V4 m ρ) c).arrAt 11 cfg0.N : FVec Ideal S320000x256 .f32) := by
  have e : (W6 m ρ c (Proc.devRef .tc main_v13) : FVec Ideal S20000x256 .f32)
      = Host.scatterAdd (F := Ideal) (φ := .f32) Cert.KernelIdeal.scatter_S20000x256_S320000x1_S320000x256_1_0_0_1
          (broadcastInDim S20000x256 ![] bcast_S_S20000x256 (constant (F := Ideal) S_ .f32 0x00000000#32))
          (broadcastInDim S320000x1 ![0] bcast_S320000_S320000x1_0 (W5 m ρ c (Proc.devRef .tc main_v3)))
          (W5 m ρ c (Proc.devRef .tc main_v10)) := by
    show StableHlo.after hostOps1 _ (Proc.devRef .tc main_v13) = _
    after_results
  have hupd : W5 m ρ c (Proc.devRef .tc main_v10) = (dat0 (V4 m ρ) c).arrAt 11 cfg0.N := W5_arr m ρ c 11
  show (W6 m ρ c (Proc.devRef .tc main_v13) : FVec Ideal S20000x256 .f32) = _
  rw [e, hupd, W5_dst m ρ c, scatter_same, zero_table, dst_column]

end Cert.KernelIdeal.Host

end
-- ==== Proof.PreRange.lean ====
/- The precondition's last conjunct, decoded: the conjunction of all the tests is all ones, so the last one is; it is the
   conjunction over every entry of the index array of "at least 0" and "below 20000" as signed words, so both hold at
   every entry. -/
import proofs.«428125_j68753836474499_1_alg».proof.Pre_finite_inputs
import proofs.«428125_j68753836474499_1_alg».proof.Proof.Gen.Pre_finite_inputs
import proofs.«428125_j68753836474499_1_alg».proof.Proof.Spec
import Idealize.ShloMosaic.Lib.ValueIdx
import Idealize.ShloMosaic.Lib.ReduceAll
import Idealize.ShloMosaic.Lib.StableHlo.Predicate

noncomputable section

open Idealize.ShloMosaic Idealize.ShloMosaic.ValueIdx

namespace Cert.Pre_finite_inputs.Range

open Cert.Pre_finite_inputs Cert.GraphNet

/-- Under the precondition every entry of the index array is in range. -/
theorem inRange_of_pre (a0 : FVec Ideal S20000x256 .f32) (a1 : FVec Ideal S320000x256 .f32) (a2 : IVec S2x320000 32)
    (a3 : FVec Ideal S256x256 .f32) (a4 : FVec Ideal S256 .f32) (a5 a6 a7 : FVec Ideal S256x256 .f32) (a8 : FVec Ideal S256 .f32)
    (a9 : FVec Ideal S512x256 .f32) (a10 : FVec Ideal S256 .f32) (a11 : FVec Ideal S256x256 .f32)
    (a12 a13 a14 a15 a16 : FVec Ideal S256 .f32)
    (h : fn (F := Ideal) a0 a1 a2 a3 a4 a5 a6 a7 a8 a9 a10 a11 a12 a13 a14 a15 a16 = fun _ => 1#1) : InRange a2 := by
  -- the whole test, read at the one index of the scalar result
  have h0 := congrFun h ValueIdx.ix0
  dsimp only [fn, fn_part1, fn_part2, fn_part3, fn_part4, fn_part5] at h0
  -- the outermost conjunction: keep its last conjunct, the range test
  have h1 := (IntOp.andi_eq_one.1 h0).2
  -- the conjunction over both axes is all ones, so every entry is
  haveI : Subsingleton S_.Idx := ⟨fun a b => funext fun d => d.elim0⟩
  have h2 := Host.reduce_andi_all _ _ _ _ _ h1
  intro i
  -- at an entry: both comparisons hold, each against a scalar read everywhere
  obtain ⟨hge, hlt⟩ := IntOp.andi_eq_one.1 (h2 i)
  exact ⟨hge, hlt⟩

end Cert.Pre_finite_inputs.Range

end
-- ==== Proof.lean ====
/-
  The certificate: the graph-network block as two row-blocked kernels around a host gather and a host scatter-add, against
  its plain reference, over the extended reals.

  Both programs compute, for every edge, the layer-normalised residual update `edgeRow` of the rows of its source node, of its
  destination node and of the edge itself; then the sum of the new edge rows into their destination nodes; then, for every
  node, the layer-normalised residual update `nodeRow` of its own row and of that sum (Proof/Spec.lean).  The kernel side
  reads each result array off the run of its two regions: a grid point writes a block of rows, each row a function of the
  same row of the inputs, so the array after a region is the row-by-row update of the arrays the region was entered with.
  The reference side reads its result terms one operation at a time.  The two meet in the reference's own terms of the
  launch memory: with every index in range the kernel's guarded gather is the reference's gather, the scatter-add is one
  operation applied to equal edge results, and the reference's one product with the concatenated `[20000, 512]` array is
  the kernel's two products with the halves of the weight.  The precondition's finiteness is not used; its index range is.
-/
import proofs.«428125_j68753836474499_1_alg».proof.Defs
import proofs.«428125_j68753836474499_1_alg».proof.Proof.Gen.Kernel
import proofs.«428125_j68753836474499_1_alg».proof.Proof.Gen.Kernel.Skeleton
import proofs.«428125_j68753836474499_1_alg».proof.Proof.Gen.Kernel.Launch
import proofs.«428125_j68753836474499_1_alg».proof.Proof.Gen.Kernel.Points
import proofs.«428125_j68753836474499_1_alg».proof.Proof.Gen.Kernel.Frame
import proofs.«428125_j68753836474499_1_alg».proof.Proof.Gen.KernelIdeal
import proofs.«428125_j68753836474499_1_alg».proof.Proof.Gen.KernelIdeal.Skeleton
import proofs.«428125_j68753836474499_1_alg».proof.Proof.Gen.KernelIdeal.Launch
import proofs.«428125_j68753836474499_1_alg».proof.Proof.Gen.KernelIdeal.Points
import proofs.«428125_j68753836474499_1_alg».proof.Proof.Gen.KernelIdeal.Frame
import proofs.«428125_j68753836474499_1_alg».proof.Proof.Gen.ReferenceIdeal
import proofs.«428125_j68753836474499_1_alg».proof.Proof.Gen.ReferenceIdeal.Run
import proofs.«428125_j68753836474499_1_alg».proof.Proof.Gen.ReferenceIdeal.Read
import proofs.«428125_j68753836474499_1_alg».proof.Proof.Gen.Pre_finite_inputs
import proofs.«428125_j68753836474499_1_alg».proof.Proof.Spec
import proofs.«428125_j68753836474499_1_alg».proof.Proof.KernelRun
import proofs.«428125_j68753836474499_1_alg».proof.Proof.EdgeArray
import proofs.«428125_j68753836474499_1_alg».proof.Proof.NodeArray
import proofs.«428125_j68753836474499_1_alg».proof.Proof.RefEdge
import proofs.«428125_j68753836474499_1_alg».proof.Proof.RefNode
import proofs.«428125_j68753836474499_1_alg».proof.Proof.HostBefore
import proofs.«428125_j68753836474499_1_alg».proof.Proof.HostBetween
import proofs.«428125_j68753836474499_1_alg».proof.Proof.PreRange
import Idealize.ShloMosaic.Adequacy
import Idealize.ShloMosaic.Init

noncomputable section

open Idealize.ShloMosaic Idealize.ShloMosaic.TcCoe Idealize.SL.Sem

/-! ## The kernel's two results, in the reference's terms of the launch memory -/

namespace Cert.KernelIdeal.Results

open Cert.KernelIdeal Cert.KernelIdeal.Gen Cert.GraphNet

variable (m : (ℓ : Loc nD τ sig) → Buf (Elt Ideal) ℓ) (ρ : Dev nD → PrngReg)

/-- The reference's edge term, of the kernel's launch memory. -/
abbrev refEdge (c : Dev nD) : Buf (Elt Ideal) ((c : Thread nD τ).loc main_v10) :=
  Cert.ReferenceIdeal.Read.val_main_v55 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg13)) (m ((c : Thread nD τ).loc main_arg14))

/-- The reference's node term, of the kernel's launch memory. -/
abbrev refNode (c : Dev nD) : Buf (Elt Ideal) ((c : Thread nD τ).loc main_v20) :=
  Cert.ReferenceIdeal.Read.val_main_v93 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))

/-- Region 0 leaves the reference's edge term in its output array. -/
theorem edge_array (c : Dev nD) (hr : InRange (m ((c : Thread nD τ).loc main_arg2))) :
    (dat0 (V4 m ρ) c).arrAt 11 cfg0.N = refEdge m c := by
  rw [Cert.KernelIdeal.Edge.arrAt_edge]
  unfold Cert.KernelIdeal.Edge.edgeResult refEdge
  rw [Cert.ReferenceIdeal.Edge.enew_eq, Cert.KernelIdeal.Host.entry_hsrc m ρ c hr, Cert.KernelIdeal.Host.entry_hdst m ρ c hr,
    Cert.KernelIdeal.Host.entry_e, Cert.KernelIdeal.Host.entry_Wsrc, Cert.KernelIdeal.Host.entry_Wdst, Cert.KernelIdeal.Host.entry_We,
    Cert.KernelIdeal.Host.entry_Wout, Cert.KernelIdeal.Host.entry_bsrc, Cert.KernelIdeal.Host.entry_bout, Cert.KernelIdeal.Host.entry_g,
    Cert.KernelIdeal.Host.entry_beta]

/-- The edge result at the end of the run. -/
theorem kernel_enew (c : Dev nD) (hr : InRange (m ((c : Thread nD τ).loc main_arg2))) :
    W7 m ρ c (Proc.devRef .tc main_v10) = refEdge m c :=
  (Cert.KernelIdeal.Host.exit_enew m ρ c).trans (edge_array m ρ c hr)

/-- The node result at the end of the run. -/
theorem kernel_hnew (c : Dev nD) (hr : InRange (m ((c : Thread nD τ).loc main_arg2))) :
    W7 m ρ c (Proc.devRef .tc main_v20) = refNode m c := by
  rw [Cert.KernelIdeal.Host.exit_hnew, Cert.KernelIdeal.Node.arrAt_node]
  unfold Cert.KernelIdeal.Node.nodeResult refNode
  rw [Cert.ReferenceIdeal.Node.hnew_eq, Cert.KernelIdeal.Host.mid_h, Cert.KernelIdeal.Host.mid_agg, edge_array m ρ c hr,
    Cert.KernelIdeal.Host.mid_Wa, Cert.KernelIdeal.Host.mid_Wb, Cert.KernelIdeal.Host.mid_W2, Cert.KernelIdeal.Host.mid_b1,
    Cert.KernelIdeal.Host.mid_b2, Cert.KernelIdeal.Host.mid_g, Cert.KernelIdeal.Host.mid_beta]
  rfl

end Cert.KernelIdeal.Results

/-! ## The claims -/

namespace Cert.Proof

open Cert.GraphNet

theorem frame_k : Cert.frame_Kernel := fun m ρ _ => Cert.Kernel.Gen.frame m ρ

theorem frame_ki : Cert.frame_KernelIdeal := fun m ρ _ => Cert.KernelIdeal.Gen.frame m ρ

/-- The reference's frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Both programs end with the reference's two terms of the (agreeing) launch memories. -/
theorem algebraic : Cert.algebraic_KernelIdeal_ReferenceIdeal := by
  intro m ρ m' ρ' hpre hagree
  have hr : ∀ c : Dev Cert.KernelIdeal.nD, InRange (m ((c.tc : Thread Cert.KernelIdeal.nD Cert.KernelIdeal.τ).loc Cert.KernelIdeal.main_arg2)) :=
    fun c => Cert.Pre_finite_inputs.Range.inRange_of_pre _ _ _ _ _ _ _ _ _ _ _ _ _ _ _ _ _ (hpre c)
  refine ⟨fun c => Cert.KernelIdeal.Results.refNode m c, fun c => Cert.KernelIdeal.Results.refEdge m c, ?_, ?_⟩
  · exact (θ_run Cert.KernelIdeal.defs _ _).mono
      (fun _ h c => ⟨(h c).1.trans (Cert.KernelIdeal.Results.kernel_hnew m ρ c (hr c)),
        (h c).2.1.trans (Cert.KernelIdeal.Results.kernel_enew m ρ c (hr c)), (h c).2.2⟩)
      (Cert.KernelIdeal.GenRun.run (F := Ideal) m ρ)
  · refine (θ_run Cert.ReferenceIdeal.defs _ _).mono (fun _ h c => ⟨(h c).1.trans ?_, (h c).2.1.trans ?_, (h c).2.2⟩)
      (Cert.ReferenceIdeal.Value.run (F := Ideal) m' ρ')
    · obtain ⟨e0, e1, e2, e3, e4, e5, e6, e7, e8, e9, e10, e11, e12, e13, e14, e15, e16⟩ := hagree c
      rw [Cert.ReferenceIdeal.Read.val_main_v93_eq, e0, e1, e2, e3, e4, e5, e6, e7, e8, e9, e10, e11, e12, e13, e14, e15, e16]
    · obtain ⟨e0, e1, e2, e3, e4, e5, e6, e7, e8, e9, e10, e11, e12, e13, e14, e15, e16⟩ := hagree c
      rw [Cert.ReferenceIdeal.Read.val_main_v55_eq, e0, e1, e2, e3, e4, e5, e6, e7, e8, e13, e14]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
